-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S819x256x256 : Shape := ⟨3, ![819, 256, 256]⟩
abbrev S16384x1 : Shape := ⟨2, ![16384, 1]⟩
abbrev S819 : Shape := ⟨1, ![819]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S819x256x256 : S_.BroadcastsInDim S819x256x256 (![] : Fin 0 → Fin S819x256x256.rank)
  reducesTo_S819x256x256_S_d0_1_2 : S819x256x256.ReducesTo [0, 1, 2] S_
  bcast_S_S16384x1 : S_.BroadcastsInDim S16384x1 (![] : Fin 0 → Fin S16384x1.rank)
  reducesTo_S16384x1_S_d0_1 : S16384x1.ReducesTo [0, 1] S_
  bcast_S_S819 : S_.BroadcastsInDim S819 (![] : Fin 0 → Fin S819.rank)
  reducesTo_S819_S_d0 : S819.ReducesTo [0] S_

variable [Facts]

def fn_part1 {F : FTy → Type} [FloatOps F] (main_arg3 : IVec S819 32) (main_arg4 : IVec S819 32) (main_v13 : IVec S_ 1) (main_v15 : IVec S819 1) (main_c_5 : IVec S_ 32) : IVec S_ 1 :=
  let main_v16 : IVec S819 32 := broadcastInDim S819 ![] bcast_S_S819 main_c_5
  let main_v17 : IVec S819 1 := cmpi .slt main_arg3 main_v16
  let main_v18 : IVec S819 1 := andi main_v15 main_v17
  let main_c_6 : IVec S_ 1 := constantI S_ 1 1#1
  let main_v19 : IVec S_ 1 := (fun x v => Host.reduce IntOp.andi x v reducesTo_S819_S_d0 h_S_) main_v18 main_c_6
  let main_v20 : IVec S_ 1 := andi main_v13 main_v19
  let main_c_7 : IVec S_ 32 := constantI S_ 32 0#32
  let main_v21 : IVec S819 32 := broadcastInDim S819 ![] bcast_S_S819 main_c_7
  let main_v22 : IVec S819 1 := cmpi .sge main_arg4 main_v21
  let main_c_8 : IVec S_ 32 := constantI S_ 32 64#32
  let main_v23 : IVec S819 32 := broadcastInDim S819 ![] bcast_S_S819 main_c_8
  let main_v24 : IVec S819 1 := cmpi .slt main_arg4 main_v23
  let main_v25 : IVec S819 1 := andi main_v22 main_v24
  let main_c_9 : IVec S_ 1 := constantI S_ 1 1#1
  let main_v26 : IVec S_ 1 := (fun x v => Host.reduce IntOp.andi x v reducesTo_S819_S_d0 h_S_) main_v25 main_c_9
  let main_v27 : IVec S_ 1 := andi main_v20 main_v26
  main_v27

def fn {F : FTy → Type} [FloatOps F] (main_arg0 : FVec F S32768x1024 .f32) (main_arg1 : FVec F S819x256x256 .f32) (main_arg2 : FVec F S16384x1 .f32) (main_arg3 : IVec S819 32) (main_arg4 : IVec S819 32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S819x256x256 .f32 := Host.absf main_arg1
  let main_cst_0 : FVec F S_ .f32 := constant S_ .f32 0x7F800000#32
  let main_v5 : FVec F S819x256x256 .f32 := broadcastInDim S819x256x256 ![] bcast_S_S819x256x256 main_cst_0
  let main_v6 : IVec S819x256x256 1 := cmpf .olt main_v4 main_v5
  let main_c_1 : IVec S_ 1 := constantI S_ 1 1#1
  let main_v7 : IVec S_ 1 := (fun x v => Host.reduce IntOp.andi x v reducesTo_S819x256x256_S_d0_1_2 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_c_4 : IVec S_ 32 := constantI S_ 32 0#32
  let main_v14 : IVec S819 32 := broadcastInDim S819 ![] bcast_S_S819 main_c_4
  let main_v15 : IVec S819 1 := cmpi .sge main_arg3 main_v14
  let main_c_5 : IVec S_ 32 := constantI S_ 32 128#32
  fn_part1 (F := F) main_arg3 main_arg4 main_v13 main_v15 main_c_5
-- ==== Kernel.lean ====
abbrev S32768x1024 : Shape := ⟨2, ![32768, 1024]⟩
abbrev S819x256x256 : Shape := ⟨3, ![819, 256, 256]⟩
abbrev S16384x1 : Shape := ⟨2, ![16384, 1]⟩
abbrev S819 : Shape := ⟨1, ![819]⟩
abbrev S_ : Shape := ⟨0, ![]⟩
abbrev S64x256x256 : Shape := ⟨3, ![64, 256, 256]⟩
abbrev S64 : Shape := ⟨1, ![64]⟩
abbrev S883x256x256 : Shape := ⟨3, ![883, 256, 256]⟩
abbrev S883 : Shape := ⟨1, ![883]⟩
abbrev S883x1 : Shape := ⟨2, ![883, 1]⟩
abbrev S1 : Shape := ⟨1, ![1]⟩
abbrev S882 : Shape := ⟨1, ![882]⟩
abbrev S16384x1024 : Shape := ⟨2, ![16384, 1024]⟩
abbrev S32768x512 : Shape := ⟨2, ![32768, 512]⟩
abbrev S1x256x256 : Shape := ⟨3, ![1, 256, 256]⟩
abbrev S256x1 : Shape := ⟨2, ![256, 1]⟩
abbrev S256x512 : Shape := ⟨2, ![256, 512]⟩
abbrev S256x256 : Shape := ⟨2, ![256, 256]⟩

abbrev nBuf : Space → Nat
  | .hbm => 41
  | .vmem => 7
  | .smem => 5
  | _ => 0

abbrev bufTy : (tb : Table) → Fin (tcTables nBuf tb) → BufTy
  | .hbm, ⟨0, _⟩ => ⟨S32768x1024, .f32⟩
  | .hbm, ⟨1, _⟩ => ⟨S819x256x256, .f32⟩
  | .hbm, ⟨2, _⟩ => ⟨S16384x1, .f32⟩
  | .hbm, ⟨3, _⟩ => ⟨S819, .i32⟩
  | .hbm, ⟨4, _⟩ => ⟨S819, .i32⟩
  | .hbm, ⟨5, _⟩ => ⟨S_, .f32⟩
  | .hbm, ⟨6, _⟩ => ⟨S64x256x256, .f32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S883x256x256, .f32⟩
  | .hbm, ⟨11, _⟩ => ⟨S883, .i32⟩
  | .hbm, ⟨12, _⟩ => ⟨S883, .i32⟩
  | .hbm, ⟨13, _⟩ => ⟨S883, .i32⟩
  | .hbm, ⟨14, _⟩ => ⟨S883, .i32⟩
  | .hbm, ⟨15, _⟩ => ⟨S_, .i32⟩
  | .hbm, ⟨16, _⟩ => ⟨S883, .i32⟩
  | .hbm, ⟨17, _⟩ => ⟨S883, .i1⟩
  | .hbm, ⟨18, _⟩ => ⟨S_, .i32⟩
  | .hbm, ⟨19, _⟩ => ⟨S883, .i32⟩
  | .hbm, ⟨20, _⟩ => ⟨S883, .i32⟩
  | .hbm, ⟨21, _⟩ => ⟨S883, .i32⟩
  | .hbm, ⟨22, _⟩ => ⟨S883x1, .i32⟩
  | .hbm, ⟨23, _⟩ => ⟨S_, .i32⟩
  | .hbm, ⟨24, _⟩ => ⟨S883, .i32⟩
  | .hbm, ⟨25, _⟩ => ⟨S883, .i1⟩
  | .hbm, ⟨26, _⟩ => ⟨S_, .i32⟩
  | .hbm, ⟨27, _⟩ => ⟨S883, .i32⟩
  | .hbm, ⟨28, _⟩ => ⟨S883, .i32⟩
  | .hbm, ⟨29, _⟩ => ⟨S883, .i32⟩
  | .hbm, ⟨30, _⟩ => ⟨S883x1, .i32⟩
  | .hbm, ⟨31, _⟩ => ⟨S_, .i32⟩
  | .hbm, ⟨32, _⟩ => ⟨S1, .i32⟩
  | .hbm, ⟨33, _⟩ => ⟨S882, .i32⟩
  | .hbm, ⟨34, _⟩ => ⟨S883, .i32⟩
  | .hbm, ⟨35, _⟩ => ⟨S882, .i32⟩
  | .hbm, ⟨36, _⟩ => ⟨S883, .i32⟩
  | .hbm, ⟨37, _⟩ => ⟨S883, .i1⟩
  | .hbm, ⟨38, _⟩ => ⟨S883, .i1⟩
  | .hbm, ⟨39, _⟩ => ⟨S32768x1024, .bf16⟩
  | .hbm, ⟨40, _⟩ => ⟨S16384x1024, .f32⟩
  | .local _ .vmem, ⟨0, _⟩ => ⟨S32768x512, .bf16⟩
  | .local _ .vmem, ⟨1, _⟩ => ⟨S1x256x256, .f32⟩
  | .local _ .vmem, ⟨2, _⟩ => ⟨S1x256x256, .f32⟩
  | .local _ .vmem, ⟨3, _⟩ => ⟨S256x1, .f32⟩
  | .local _ .vmem, ⟨4, _⟩ => ⟨S256x1, .f32⟩
  | .local _ .vmem, ⟨5, _⟩ => ⟨S256x512, .f32⟩
  | .local _ .vmem, ⟨6, _⟩ => ⟨S256x512, .f32⟩
  | .local _ .smem, ⟨0, _⟩ => ⟨S883, .i32⟩
  | .local _ .smem, ⟨1, _⟩ => ⟨S883, .i32⟩
  | .local _ .smem, ⟨2, _⟩ => ⟨S883, .i32⟩
  | .local _ .smem, ⟨3, _⟩ => ⟨S883, .i32⟩
  | .local _ .smem, ⟨4, _⟩ => ⟨S883, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1_0 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v28 : Ref sig .tc := ⟨.hbm, 38, rfl⟩
abbrev main_v30 : Ref sig .tc := ⟨.hbm, 39, rfl⟩
abbrev main_v31 : Ref sig .tc := ⟨.hbm, 40, rfl⟩
abbrev main_v6 : Ref sig .tc := ⟨.smem, 0, rfl⟩
abbrev main_v13 : Ref sig .tc := ⟨.smem, 1, rfl⟩
abbrev main_v20 : Ref sig .tc := ⟨.smem, 2, rfl⟩
abbrev main_v27 : Ref sig .tc := ⟨.smem, 3, rfl⟩
abbrev main_v29 : Ref sig .tc := ⟨.smem, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 883], ![false, false]⟩

abbrev pre0 : Pipeline.Prefetch sig := ⟨5, ![main_v6.idx, main_v13.idx, main_v20.idx, main_v27.idx, main_v29.idx], fun | 0 => main_v6.names | 1 => main_v13.names | 2 => main_v20.names | 3 => main_v27.names | 4 => main_v29.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v8 : Index := Scalar.indexCast arg1
  ![v8.toNat]
def k0_mult1 (v9 : BitVec 32) : BitVec 32 :=
  let c256_i32 : BitVec 32 := 256#32
  let v10 : BitVec 32 := Scalar.muli v9 c256_i32
  v10

def k0_off3 (v9 : BitVec 32) : Fin 2 → Nat :=
  let c256_i32 : BitVec 32 := 256#32
  let v10 : BitVec 32 := Scalar.muli v9 c256_i32
  let v11 : BitVec 32 := v10
  let v12 : Index := Scalar.indexCast v11
  let c0 : Index := 0#32
  ![v12.toNat, 0]

def k0_chk1 (v9 : BitVec 32) : Prop :=
  (256 ∣ (k0_mult1 v9).toNat) ∧
  (∀ a, (k0_off3 v9) a + S256x512.size a ≤ S32768x512.size a)
instance k0_chk1.dec : ∀ (v9 : BitVec 32), Decidable (k0_chk1 v9) := fun v9 => decidable_of_iff' _ (Iff.of_eq (k0_chk1.eq_1 v9))
theorem k0_mult1_dvd : ∀ (v9 : BitVec 32) (k0_hw1 : k0_chk1 v9), 256 ∣ (k0_mult1 v9).toNat := fun v9 k0_hw1 => k0_hw1.1
theorem k0_off3_inb : ∀ (v9 : BitVec 32) (k0_hw1 : k0_chk1 v9), ∀ a, (k0_off3 v9) a + S256x512.size a ≤ S32768x512.size a := fun v9 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (k0_off1_inb : ∀ i : grid0.Coords, ∀ a, (k0_off1 i) a + S1.size a ≤ S883.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S883) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S883.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S883) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S883.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S883) ![v0.toNat] S1.size (k0_off1_inb i)) numel1_S1
  let c0_i32 : BitVec 32 := 0#32
  ![v1.toNat, arg0.toNat]

abbrev stage0_0 : Fin 1 → Memref sig .tc .vmem S32768x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S64x256x256 : S_.BroadcastsInDim S64x256x256 (![] : Fin 0 → Fin S64x256x256.rank)
  bcast_S_S64 : S_.BroadcastsInDim S64 (![] : Fin 0 → Fin S64.rank)
  concatenates_S819x256x256_S64x256x256_S883x256x256_d0 : Shape.Concatenates [S819x256x256, S64x256x256] S883x256x256 0
  concatenates_S819_S64_S883_d0 : Shape.Concatenates [S819, S64] S883 0
  bcast_S_S883 : S_.BroadcastsInDim S883 (![] : Fin 0 → Fin S883.rank)
  bcast_S883_S883x1_0 : S883.BroadcastsInDim S883x1 (![0] : Fin 1 → Fin S883x1.rank)
  bcast_S_S1 : S_.BroadcastsInDim S1 (![] : Fin 0 → Fin S1.rank)
  slices_S883_S882_0 : S883.Slices ![0] S882
  concatenates_S1_S882_S883_d0 : Shape.Concatenates [S1, S882] S883 0
  slices_S883_S882_1 : S883.Slices ![1] S882
  concatenates_S882_S1_S883_d0 : Shape.Concatenates [S882, S1] S883 0
  natLt_1_32 : 1 < 32
  bitsLt_bf16_f32 : FTy.bits .bf16 < FTy.bits .f32
  numel1_S1 : S1.numel = 1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S256x1_S256x1_0_0 : ∀ a, (![0, 0] : Fin 2 → Nat) a + S256x1.size a ≤ S256x1.size a
  h_S256x1 : 0 < S256x1.numel
  broadcasts_S256x1_S256x512 : S256x1.Broadcasts S256x512
  gather_S883_S883x1_S883_n_0_n_n_0_1_1_wf : GatherDims.WF S883 S883x1 S883 [] [0] [] [0] [] 1 ![1]
  dot_S256x256_S256x512_S256x512_1_0_0_1_n_n_wf : DotDims.WF S256x256 S256x512 S256x512 [1] [0] [0] [1] [] []
  hrank0 : 0 < grid0.rank
  k0_off1_inb : ∀ i : grid0.Coords, ∀ a, (k0_off1 i) a + S1.size a ≤ S883.size a
  k0_off2_inb : ∀ i : grid0.Coords, ∀ a, (k0_off2 i) a + S1.size a ≤ S883.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32768x512.size a ≤ S32768x1024.size a
  hwx0_0 : ∀ i : grid0.Coords, EltTy.bits .bf16 = 32 ∨ (Rect.block (s := S32768x1024) S32768x512.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S883_S883x1_S883_n_0_n_n_0_1_1 : GatherDims S883 S883x1 S883 where
  offsetDims := []
  collapsedSliceDims := [0]
  operandBatchingDims := []
  startIndicesBatchingDims := []
  startIndexMap := [0]
  indexVectorDim := 1
  sliceSizes := ![1]
  wf := gather_S883_S883x1_S883_n_0_n_n_0_1_1_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf

abbrev spec0_0 : Pipeline.WinSpec sig grid0.rank :=
  Pipeline.WinSpec.ofSpec (Memref.whole main_v30) S32768x512.size reads0_0 false true 1 stage0_0 sem0_0 nbuf0_0 hstage0_0

abbrev spec0_1 : Pipeline.WinSpec sig grid0.rank :=
  Pipeline.WinSpec.ofSpec (Memref.whole main_v3) S1x256x256.size reads0_1 false false 2 stage0_1 sem0_1 nbuf0_1 hstage0_1

abbrev spec0_2 : Pipeline.WinSpec sig grid0.rank :=
  Pipeline.WinSpec.ofSpec (Memref.whole main_arg2) S256x1.size reads0_2 false false 2 stage0_2 sem0_2 nbuf0_2 hstage0_2

abbrev spec0_3 : Pipeline.WinSpec sig grid0.rank :=
  Pipeline.WinSpec.ofSpec (Memref.whole main_v31) S256x512.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x256.size a ≤ S883x256x256.size a), EltTy.bits .f32 = 32 ∨ (Rect.block (s := S883x256x256) S1x256x256.size (cc0_transform_1 k0_off1_inb numel1_S1 pf i) h).WholeWords (EltTy.packing .f32)) ∧
  (∀ i : grid0.Coords, ∃ h : (∀ a, (cc0_transform_2 k0_off1_inb numel1_S1 pf i a + 1) * S256x1.size a ≤ S16384x1.size a), EltTy.bits .f32 = 32 ∨ (Rect.block (s := S16384x1) S256x1.size (cc0_transform_2 k0_off1_inb numel1_S1 pf i) h).WholeWords (EltTy.packing .f32)) ∧
  (∀ i : grid0.Coords, ∃ h : (∀ a, (cc0_transform_3 k0_off1_inb numel1_S1 pf i a + 1) * S256x512.size a ≤ S16384x1024.size a), EltTy.bits .f32 = 32 ∨ (Rect.block (s := S16384x1024) S256x512.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32768x1024 : Shape := ⟨2, ![32768, 1024]⟩
abbrev S819x256x256 : Shape := ⟨3, ![819, 256, 256]⟩
abbrev S16384x1 : Shape := ⟨2, ![16384, 1]⟩
abbrev S819 : Shape := ⟨1, ![819]⟩
abbrev S128x256x1024 : Shape := ⟨3, ![128, 256, 1024]⟩
abbrev S_ : Shape := ⟨0, ![]⟩
abbrev S819x1 : Shape := ⟨2, ![819, 1]⟩
abbrev S819x256x1024 : Shape := ⟨3, ![819, 256, 1024]⟩
abbrev S64x256x1024 : Shape := ⟨3, ![64, 256, 1024]⟩
abbrev S16384x1024 : Shape := ⟨2, ![16384, 1024]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S819x256x256, .f32⟩
  | .hbm, ⟨2, _⟩ => ⟨S16384x1, .f32⟩
  | .hbm, ⟨3, _⟩ => ⟨S819, .i32⟩
  | .hbm, ⟨4, _⟩ => ⟨S819, .i32⟩
  | .hbm, ⟨5, _⟩ => ⟨S128x256x1024, .f32⟩
  | .hbm, ⟨6, _⟩ => ⟨S_, .i32⟩
  | .hbm, ⟨7, _⟩ => ⟨S819, .i32⟩
  | .hbm, ⟨8, _⟩ => ⟨S819, .i1⟩
  | .hbm, ⟨9, _⟩ => ⟨S_, .i32⟩
  | .hbm, ⟨10, _⟩ => ⟨S819, .i32⟩
  | .hbm, ⟨11, _⟩ => ⟨S819, .i32⟩
  | .hbm, ⟨12, _⟩ => ⟨S819, .i32⟩
  | .hbm, ⟨13, _⟩ => ⟨S819x1, .i32⟩
  | .hbm, ⟨14, _⟩ => ⟨S819x256x1024, .f32⟩
  | .hbm, ⟨15, _⟩ => ⟨S819x256x1024, .f32⟩
  | .hbm, ⟨16, _⟩ => ⟨S_, .f32⟩
  | .hbm, ⟨17, _⟩ => ⟨S64x256x1024, .f32⟩
  | .hbm, ⟨18, _⟩ => ⟨S819x1, .i32⟩
  | .hbm, ⟨19, _⟩ => ⟨S64x256x1024, .f32⟩
  | .hbm, ⟨20, _⟩ => ⟨S16384x1024, .f32⟩
  | .hbm, ⟨21, _⟩ => ⟨S16384x1024, .f32⟩
  | .hbm, ⟨22, _⟩ => ⟨S16384x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  shapeCasts_S32768x1024_S128x256x1024 : S32768x1024.ShapeCasts S128x256x1024
  bcast_S_S819 : S_.BroadcastsInDim S819 (![] : Fin 0 → Fin S819.rank)
  bcast_S819_S819x1_0 : S819.BroadcastsInDim S819x1 (![0] : Fin 1 → Fin S819x1.rank)
  bcast_S_S64x256x1024 : S_.BroadcastsInDim S64x256x1024 (![] : Fin 0 → Fin S64x256x1024.rank)
  shapeCasts_S64x256x1024_S16384x1024 : S64x256x1024.ShapeCasts S16384x1024
  bcast_S16384x1_S16384x1024_0_1 : S16384x1.BroadcastsInDim S16384x1024 (![0, 1] : Fin 2 → Fin S16384x1024.rank)
  gather_S128x256x1024_S819x1_S819x256x1024_12_0_n_n_0_1_12561024_wf : GatherDims.WF S128x256x1024 S819x1 S819x256x1024 [1, 2] [0] [] [0] [] 1 ![1, 256, 1024]
  dot_S819x256x256_S819x256x1024_S819x256x1024_2_1_1_2_0_0_wf : DotDims.WF S819x256x256 S819x256x1024 S819x256x1024 [2] [1] [1] [2] [0] [0]
  scatter_S64x256x1024_S819x1_S819x256x1024_12_0_0_1_wf : ScatterDims.WF S64x256x1024 S819x1 S819x256x1024 [1, 2] [0] [0] 1

variable [Facts₀]

def gather_S128x256x1024_S819x1_S819x256x1024_12_0_n_n_0_1_12561024 : GatherDims S128x256x1024 S819x1 S819x256x1024 where
  offsetDims := [1, 2]
  collapsedSliceDims := [0]
  operandBatchingDims := []
  startIndicesBatchingDims := []
  startIndexMap := [0]
  indexVectorDim := 1
  sliceSizes := ![1, 256, 1024]
  wf := gather_S128x256x1024_S819x1_S819x256x1024_12_0_n_n_0_1_12561024_wf
def dot_S819x256x256_S819x256x1024_S819x256x1024_2_1_1_2_0_0 : DotDims S819x256x256 S819x256x1024 S819x256x1024 where
  lhsContracting := [2]
  rhsContracting := [1]
  lhsNonContracting := [1]
  rhsNonContracting := [2]
  lhsBatch := [0]
  rhsBatch := [0]
  wf := dot_S819x256x256_S819x256x1024_S819x256x1024_2_1_1_2_0_0_wf
def scatter_S64x256x1024_S819x1_S819x256x1024_12_0_0_1 : ScatterDims S64x256x1024 S819x1 S819x256x1024 where
  updateWindowDims := [1, 2]
  insertedWindowDims := [0]
  scatterDimsToOperandDims := [0]
  indexVectorDim := 1
  wf := scatter_S64x256x1024_S819x1_S819x256x1024_12_0_0_1_wf

class Facts : Prop extends Facts₀ where

variable [Facts]
-- ==== Proof.PreDecode.lean ====
/-
  The index ranges carried by the precondition. The precondition is a conjunction of five "for all elements"
  statements; the last two say that every word of the two index vectors is, read as a signed 32-bit integer,
  at least 0 and below 128 (first vector), resp. below 64 (second vector). Here those two conjuncts are read
  back, at any float instance: each word of the first vector is below 128 as a natural number, each word of
  the second is below 64.

  The steps: the result has a single index, and there the outer conjunctions are conjunctions of bits, so the
  claim "the result is 1" splits into "each conjunct is 1"; a conjunct is an and-reduction of a bit vector from
  the constant 1 into that single index, and such a reduction is 1 only if every bit of the vector is 1; a bit of
  the vector is the conjunction of two signed comparisons of one word with a constant; and a word that is
  signed-nonnegative has its top bit clear, so it reads the same signed and unsigned, and the signed upper
  bound is then the unsigned one.
-/
import proofs.«419409_j64768106824287_2_alg».proof.Pre_finite_inputs
import proofs.«419409_j64768106824287_2_alg».proof.Proof.Gen.Pre_finite_inputs
import Idealize.ShloMosaic.Lib.ValueIdx
import Idealize.ShloMosaic.Lib.ReduceAll

namespace Cert.PreDecode

open Idealize.ShloMosaic Idealize.ShloMosaic.ValueIdx Cert.Pre_finite_inputs

/-- The rank-0 shape has exactly one index (a function out of the empty set of axes). -/
instance subsingleton_scalar_idx : Subsingleton S_.Idx := ⟨fun a b => funext fun d => d.elim0⟩

/-- A 32-bit word that compares signed-at-least 0 and signed-below a constant k < 2³¹ is below k as a natural number:
    signed-nonnegative means the top bit is clear, so the signed value is the unsigned one, on both sides. -/
theorem toNat_lt_of_signed (v : BitVec 32) (k : Nat) (hk : k < 2 ^ 31)
    (h0 : IntOp.cmpi .sge v 0#32 = 1#1) (h1 : IntOp.cmpi .slt v (BitVec.ofNat 32 k) = 1#1) : v.toNat < k := by
  rw [IntOp.cmpi_sge, show (0#32 : BitVec 32).toInt = 0 from by decide] at h0
  have hv : 2 * v.toNat < 2 ^ 32 := BitVec.toInt_pos_iff.1 h0
  have hkN : (BitVec.ofNat 32 k).toNat = k := by rw [BitVec.toNat_ofNat]; omega
  rw [IntOp.cmpi_slt, BitVec.toInt_eq_toNat_of_lt hv, BitVec.toInt_eq_toNat_of_lt (by rw [hkN]; omega), hkN] at h1
  omega

/-- Both ranges at once: the last two conjuncts of the precondition, read at one position. -/
theorem ranges {F : FTy → Type} [FloatOps F] (x : FVec F S32768x1024 .f32) (w : FVec F S819x256x256 .f32)
    (b : FVec F S16384x1 .f32) (ii oi : IVec S819 32)
    (h : Cert.Pre_finite_inputs.fn (F := F) x w b ii oi = fun _ => 1#1) (n : Fin 819) :
    (ii (ix1 n)).toNat < 128 ∧ (oi (ix1 n)).toNat < 64 := by
  -- the claim at the result's one index, the conjunctions read there as conjunctions of bits
  have e := congrFun h ix0
  dsimp only [Cert.Pre_finite_inputs.fn, Cert.Pre_finite_inputs.fn_part1, andi] at e
  -- (((x ∧ w) ∧ b) ∧ first-range) ∧ second-range
  obtain ⟨e4, eOut⟩ := IntOp.andi_eq_one.1 e
  obtain ⟨-, eIn⟩ := IntOp.andi_eq_one.1 e4
  -- an and-reduction that is 1 had a 1 at every position
  have hIn := Host.reduce_andi_all _ _ _ _ _ eIn (ix1 n)
  have hOut := Host.reduce_andi_all _ _ _ _ _ eOut (ix1 n)
  -- the bit at position n: two signed comparisons of the word with broadcast constants
  simp only [andi, cmpi, broadcastInDim, constantI] at hIn hOut
  obtain ⟨i0, i1⟩ := IntOp.andi_eq_one.1 hIn
  obtain ⟨o0, o1⟩ := IntOp.andi_eq_one.1 hOut
  exact ⟨toNat_lt_of_signed _ 128 (by norm_num) i0 i1, toNat_lt_of_signed _ 64 (by norm_num) o0 o1⟩

/-- Every word of the first index vector is below 128. -/
theorem in_range {F : FTy → Type} [FloatOps F] (x : FVec F S32768x1024 .f32) (w : FVec F S819x256x256 .f32)
    (b : FVec F S16384x1 .f32) (ii oi : IVec S819 32)
    (h : Cert.Pre_finite_inputs.fn (F := F) x w b ii oi = fun _ => 1#1) (n : Fin 819) : (ii (ix1 n)).toNat < 128 :=
  (ranges x w b ii oi h n).1

/-- Every word of the second index vector is below 64. -/
theorem out_range {F : FTy → Type} [FloatOps F] (x : FVec F S32768x1024 .f32) (w : FVec F S819x256x256 .f32)
    (b : FVec F S16384x1 .f32) (ii oi : IVec S819 32)
    (h : Cert.Pre_finite_inputs.fn (F := F) x w b ii oi = fun _ => 1#1) (n : Fin 819) : (oi (ix1 n)).toNat < 64 :=
  (ranges x w b ii oi h n).2

end Cert.PreDecode
-- ==== Proof.Pipe.lean ====
/-
  The launch side of the block-sparse kernel's one pallas_call, at any float instance.

  @main runs three stretches of host operations (the padding of the weight and index tables, the
  stable sort of the padded output-block indices, and the gathers and neighbour comparisons that
  make the five prefetched tables) and then the region.  Here: what every buffer holds when the
  region starts (`V`), that @main is "that prefix, then the region" in the form the launch theorem
  asks (`hmain`), that the prefix writes none of the five arguments, the five tables as the region
  reads them (`tbl`) with the side condition under which every table-indexed block lies inside its
  array (`Ok`), the pipeline at those tables (`cfgM`), each window's block at a grid point (`iblk`),
  and the three table words the body branches on or slices by at a point.
-/
import proofs.«419409_j64768106824287_2_alg».proof.Proof.Gen.KernelIdeal.Launch
import proofs.«419409_j64768106824287_2_alg».proof.Proof.Gen.KernelIdeal.Skeleton
import Idealize.ShloMosaic.Lib.Pipeline.FrameBody
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- Core `c`'s buffers when the region starts: the launch memory after the three host stretches. -/
abbrev V (c : Dev nD) (b : Ref sig .tc) : Buf (Elt F) ((c : Thread nD τ).loc b) :=
  StableHlo.after (List.flatten [hostOps0, hostOps0_1, hostOps0_2]) (fun b => m (c, b)) b

/-- No host operation of the prefix allocates. -/
theorem noFresh : ([hostOps0, hostOps0_1, hostOps0_2] : List (List (HloOp τ sig (Elt F)))).Forall
    fun ops => ops.Forall fun op => op.fresh = ∅ := by
  simp only [List.Forall]
  refine ⟨?_, ?_, ?_⟩ <;> repeat' constructor

/-- @main is the prefix and then the region, at the contents `V`. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩) noFresh main_chain

/-- A buffer none of the prefix's operations writes is found as launched: the goal "no operation of the
    prefix writes `b`" is a conjunction of inequalities of references, each decided. -/
local macro "unwritten" : tactic => `(tactic| (
  refine StableHlo.after_of_forall_not_mem _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, Finset.mem_singleton]
  repeat' apply And.intro
  all_goals exact StableHlo.devRef_ne_of_ne (by decide)))

theorem V_x (c : Dev nD) : V m c main_arg0 = m ((c : Thread nD τ).loc main_arg0) := by unwritten
theorem V_w (c : Dev nD) : V m c main_arg1 = m ((c : Thread nD τ).loc main_arg1) := by unwritten
theorem V_bias (c : Dev nD) : V m c main_arg2 = m ((c : Thread nD τ).loc main_arg2) := by unwritten
theorem V_inIdx (c : Dev nD) : V m c main_arg3 = m ((c : Thread nD τ).loc main_arg3) := by unwritten
theorem V_outIdx (c : Dev nD) : V m c main_arg4 = m ((c : Thread nD τ).loc main_arg4) := by unwritten

/-! ## The prefetched tables -/

/-- The five tables as the region reads them (there is one device). Table 0 is the sorting order, 1 the
    sorted input-block indices, 2 the sorted output-block indices, 3 the "first of its group" flags,
    4 the "last of its group" flags. -/
def tbl : pre0.Contents (Elt F) := fun j => V m (0 : Dev nD) (pre0.ref j)

theorem V_tbl (c : Dev nD) (j : Fin 5) : V m c (pre0.ref j) = tbl m j := by
  obtain rfl : c = 0 := Subsingleton.elim _ _; rfl

/-- Every block a table-indexed window names lies inside its array (weights by the order, bias and
    output by the sorted output-block index). -/
abbrev Ok : Prop := ok0 (F := F) (tbl m)

abbrev adm (hO : Ok m) : (pcfg0 (F := F)).Adm := ⟨tbl m, hO⟩
/-- The pipeline at the tables' contents. -/
abbrev cfgM (hO : Ok m) : Pipeline.Cfg sig Λ₀ := cfg0 (adm m hO)

/-- The table memrefs the body is handed. -/
abbrev tOrder : Memref sig .tc .smem S883 .i32 := Memref.whole main_v6
abbrev tIn : Memref sig .tc .smem S883 .i32 := Memref.whole main_v13
abbrev tOut : Memref sig .tc .smem S883 .i32 := Memref.whole main_v20
abbrev tNew : Memref sig .tc .smem S883 .i32 := Memref.whole main_v27
abbrev tLast : Memref sig .tc .smem S883 .i32 := Memref.whole main_v29
theorem tOrder_whole : tOrder.IsWhole := Memref.isWhole_whole _
theorem tIn_whole : tIn.IsWhole := Memref.isWhole_whole _
theorem tOut_whole : tOut.IsWhole := Memref.isWhole_whole _
theorem tNew_whole : tNew.IsWhole := Memref.isWhole_whole _
theorem tLast_whole : tLast.IsWhole := Memref.isWhole_whole _

/-- A table's contents type on core `c`, and the table held read-only (the pipeline keeps the other half). -/
abbrev TbBuf (c : Dev nD) {S : Shape} {e : EltTy} (M : Memref sig .tc .smem S e) : Type := Buf (Elt F) (M.view.loc (c : Thread nD τ))
abbrev tbHeld (c : Dev nD) {S : Shape} {e : EltTy} (M : Memref sig .tc .smem S e) (f : TbBuf (F := F) c M) : sProp 𝕄 :=
  M.view.loc (c : Thread nD τ) ↦{fullShare.right} f

/-- The region's share of the tables, table by table. -/
theorem tables_eq (c : Dev nD) : (Pipeline.ΦT pre0 (tbl m) c : sProp 𝕄)
    = iprop(tbHeld c tOrder (tbl m 0) ∗ tbHeld c tIn (tbl m 1) ∗ tbHeld c tOut (tbl m 2) ∗ tbHeld c tNew (tbl m 3) ∗ tbHeld c tLast (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- The word a one-word load at offset `off` reads from a table held at contents `xt`. -/
abbrev wordAt (c : Dev nD) (M : Memref sig .tc .smem S883 .i32) (xt : TbBuf (F := F) c M) (off : Fin 1 → Nat)
    (inb : ∀ a, off a + S1.size a ≤ S883.size a) : BitVec 32 :=
  M.view.readAt (Elt F) (Rect.unit (s := S883) off S1.size inb).toLoadRect xt (Shape.Idx.first (numel1_S1.symm ▸ Nat.one_pos))

/-- The body's two branch conditions, over the word read: "the flag is 1". -/
abbrev flagSet (v : BitVec 32) : Prop := (Scalar.cmpi .ne (Scalar.extui (Scalar.cmpi .eq v 1#32)) 0#32) = 1#1

/-! ## The windows' blocks and staging memrefs at a point -/

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or kept
    (its index has not moved), for any proof data over the region-entry arrays that leaves inputs in place. -/
local macro "input_kept" w:term "," hA:ident "," hafter:ident : tactic => `(tactic| (
  intro t d
  refine (Dat.before_in_eq_fetched _ $w rfl (fun _ => rfl) (fun _ _ _ => rfl) (fun t => ?_) t d).trans ?_
  · rw [$hafter:ident]; unfold Dat.blockOf iblk; rw [$hA:ident]; try rfl
  · unfold Dat.fetched Dat.blockOf iblk; rw [$hA:ident]; try rfl))

theorem before_x (hO : Ok m) {c : Dev nD} (dat : Dat τ (Elt F) Unit ℕ (UR sig nD τ) ℕ (cfgM m hO) c)
    (hA : dat.A 0 = V m c (Pipeline.arrRef spec0 0)) (hafter : ∀ t, dat.after 0 t = iblk m hO c 0 t) :
    ∀ (t : Fin (cfgM m hO).N) (d), dat.before 0 t d = iblk m hO c 0 t := by input_kept 0, hA, hafter
theorem before_w (hO : Ok m) {c : Dev nD} (dat : Dat τ (Elt F) Unit ℕ (UR sig nD τ) ℕ (cfgM m hO) c)
    (hA : dat.A 1 = V m c (Pipeline.arrRef spec0 1)) (hafter : ∀ t, dat.after 1 t = iblk m hO c 1 t) :
    ∀ (t : Fin (cfgM m hO).N) (d), dat.before 1 t d = iblk m hO c 1 t := by input_kept 1, hA, hafter
theorem before_bias (hO : Ok m) {c : Dev nD} (dat : Dat τ (Elt F) Unit ℕ (UR sig nD τ) ℕ (cfgM m hO) c)
    (hA : dat.A 2 = V m c (Pipeline.arrRef spec0 2)) (hafter : ∀ t, dat.after 2 t = iblk m hO c 2 t) :
    ∀ (t : Fin (cfgM m hO).N) (d), dat.before 2 t d = iblk m hO c 2 t := by input_kept 2, hA, hafter

/-- Each window's current staging memref at point `t`, as the pipeline passes it to the body. -/
abbrev sx (hO : Ok m) (t : Fin (cfgM m hO).N) : Memref sig .tc .vmem S32768x512 .bf16 := spec0_0.stage ((cfgM m hO).slots t 0)
abbrev sw (hO : Ok m) (t : Fin (cfgM m hO).N) : Memref sig .tc .vmem S1x256x256 .f32 := spec0_1.stage ((cfgM m hO).slots t 1)
abbrev sb (hO : Ok m) (t : Fin (cfgM m hO).N) : Memref sig .tc .vmem S256x1 .f32 := spec0_2.stage ((cfgM m hO).slots t 2)
abbrev so (hO : Ok m) (t : Fin (cfgM m hO).N) : Memref sig .tc .vmem S256x512 .f32 := spec0_3.stage ((cfgM m hO).slots t 3)
abbrev sx_whole (hO : Ok m) (t : Fin (cfgM m hO).N) : (sx m hO t).IsWhole := hstage0_0 (((cfgM m hO).slots t 0).cast nbuf0_0)
abbrev sw_whole (hO : Ok m) (t : Fin (cfgM m hO).N) : (sw m hO t).IsWhole := hstage0_1 (((cfgM m hO).slots t 1).cast nbuf0_1)
abbrev sb_whole (hO : Ok m) (t : Fin (cfgM m hO).N) : (sb m hO t).IsWhole := hstage0_2 (((cfgM m hO).slots t 2).cast nbuf0_2)
abbrev so_whole (hO : Ok m) (t : Fin (cfgM m hO).N) : (so m hO t).IsWhole := hstage0_3 (((cfgM m hO).slots t 3).cast nbuf0_3)

/-- The kernel body as the pipeline calls it at point `t`. -/
abbrev bodyAt (hO : Ok m) (t : Fin (cfgM m hO).N) : Prog (TpuEff nD τ sig (Elt F) Λ₀ .tc) PUnit :=
  cc0__bsl_kernel (grid0.coords t) tOrder tOrder_whole tIn tIn_whole tOut tOut_whole tNew tNew_whole tLast tLast_whole
    (sx m hO t) (sx_whole m hO t) (sw m hO t) (sw_whole m hO t) (sb m hO t) (sb_whole m hO t) (so m hO t) (so_whole m hO t)

/-! ## The three words the body reads at a point -/

/-- The "first of its group" flag word the body reads at grid coordinates `i`. -/
abbrev wNew (c : Dev nD) (i : grid0.Coords) : BitVec 32 := wordAt c tNew (tbl m 3) (k0_off1 i) (k0_off1_inb i)
/-- The "last of its group" flag word. -/
abbrev wLast (c : Dev nD) (i : grid0.Coords) : BitVec 32 := wordAt c tLast (tbl m 4) (k0_off1 i) (k0_off1_inb i)
/-- The sorted input-block index word (the row block of `x` the body slices). -/
abbrev wIn (c : Dev nD) (i : grid0.Coords) : BitVec 32 := wordAt c tIn (tbl m 1) (k0_off2 i) (k0_off2_inb i)

/-- The side condition the body assumes of the input-block word, at every point: 256 times it is a row
    offset of a 256-row slice inside the 32768 rows of the staged `x` column. -/
def Hyps (hO : Ok m) : Prop := ∀ (c : Dev nD) (t : Fin (cfgM m hO).N), k0_chk1 (wIn m c (grid0.coords t))

end Cert.KernelIdeal.Pipe

end
-- ==== Proof.Words.lean ====
/-
  The five prefetched tables word by word, and what the proof needs to know of them.

  A grid point is a batch tile (0 or 1) and a sorted position `n` < 883.  At position `n` the tables hold:
  the padded block the sort put there (`orderAt`), that block's input-block index (`inAt`) and output-block
  index (`outAt`), whether the position starts a group of equal output blocks (`newAt`) and whether it ends
  one (`lastAt`).  `TableFacts` collects what the frame and the value proofs use: the ranges, the two flags
  as statements about neighbouring output-block words, that the order is a permutation through which the
  other two tables read the padded index tables, and that the output-block words are sorted.
  The glue: the words the body loads and the block indices the three table-driven index maps compute are
  these words; and the ranges give the pipeline's side condition and the body's assumed one.
-/
import proofs.«419409_j64768106824287_2_alg».proof.Proof.Pipe
import Idealize.ShloMosaic.Lib.ValueIdx

set_option maxRecDepth 16384

noncomputable section

namespace Cert.KernelIdeal.Pipe

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-! ## A grid point's two coordinates -/

/-- The batch tile of grid coordinates `i`. -/
def tile (i : grid0.Coords) : Fin 2 := ⟨(i 0).val, (i 0).isLt⟩
/-- The sorted position of grid coordinates `i`. -/
def pos (i : grid0.Coords) : Fin 883 := ⟨(i 1).val, (i 1).isLt⟩

/-! ## The tables' words -/

def orderAt (n : Fin 883) : BitVec 32 := tbl m 0 (ix1 n)
def inAt (n : Fin 883) : BitVec 32 := tbl m 1 (ix1 n)
def outAt (n : Fin 883) : BitVec 32 := tbl m 2 (ix1 n)
def newAt (n : Fin 883) : BitVec 32 := tbl m 3 (ix1 n)
def lastAt (n : Fin 883) : BitVec 32 := tbl m 4 (ix1 n)

/-- The two index arguments as launched, word by word, and padded as @main pads them: input-block
    indices with zeros, output-block indices with 0, 1, …, 63. -/
def inIdxW (k : Fin 819) : BitVec 32 := m (((0 : Dev nD) : Thread nD τ).loc main_arg3) (ix1 k)
def outIdxW (k : Fin 819) : BitVec 32 := m (((0 : Dev nD) : Thread nD τ).loc main_arg4) (ix1 k)
def inPadW (k : Fin 883) : BitVec 32 := if h : k.val < 819 then inIdxW m ⟨k.val, h⟩ else 0#32
def outPadW (k : Fin 883) : BitVec 32 := if h : k.val < 819 then outIdxW m ⟨k.val, h⟩ else BitVec.ofNat 32 (k.val - 819)

/-- What the proofs use of the tables. -/
structure TableFacts : Prop where
  order_lt : ∀ n, (orderAt m n).toNat < 883
  in_lt : ∀ n, (inAt m n).toNat < 128
  out_lt : ∀ n, (outAt m n).toNat < 64
  new_iff : ∀ n : Fin 883, newAt m n = 1#32 ↔
    (n.val = 0 ∨ ∃ h : 0 < n.val, outAt m n ≠ outAt m ⟨n.val - 1, Nat.lt_of_le_of_lt (Nat.sub_le _ _) n.isLt⟩)
  last_iff : ∀ n : Fin 883, lastAt m n = 1#32 ↔
    (n.val + 1 = 883 ∨ ∃ h : n.val + 1 < 883, outAt m ⟨n.val + 1, h⟩ ≠ outAt m n)
  sorted : ∀ n n' : Fin 883, n ≤ n' → (outAt m n).toNat ≤ (outAt m n').toNat
  perm : ∃ σ : Equiv.Perm (Fin 883), ∀ n, (orderAt m n).toNat = (σ n).val ∧ inAt m n = inPadW m (σ n) ∧ outAt m n = outPadW m (σ n)

/-! ## The glue -/

/-- The body's branch condition says the flag word is 1. -/
theorem flagSet_iff (v : BitVec 32) : flagSet v ↔ v = 1#32 := by
  show Scalar.cmpi .ne (Scalar.extui (Scalar.cmpi .eq v 1#32)) 0#32 = 1#1 ↔ v = 1#32
  unfold Scalar.cmpi Scalar.extui IntOp.cmpi
  by_cases h : v = 1#32
  · subst h; simp only [iff_true]; decide
  · have hb : (v == 1#32) = false := by simpa using h
    simp only [hb, h, iff_false]; decide

/-- The one index a one-word window at offset `off` of an 883-word table holds is the table's index `off 0`. -/
theorem emb_unit_first (off : Fin 1 → Nat) (inb : ∀ a, off a + S1.size a ≤ S883.size a)
    (h1 : 0 < (Rect.unit (s := S883) off S1.size inb).shape.numel) (n : Fin 883) (hoff : off 0 = n.val) :
    (Rect.unit (s := S883) off S1.size inb).emb (Shape.Idx.first h1) = ix1 n := by
  funext a
  apply Fin.ext
  match a with
  | ⟨0, _⟩ =>
    show off 0 + 1 * 0 = n.val
    omega

/-- A grid coordinate, as a 32-bit word and back, is itself: it is below 883. -/
theorem toNat_coord1 (i : grid0.Coords) : (BitVec.ofNat 32 (i 1).val).toNat = (i 1).val := by
  have h : (i 1).val < 883 := (i 1).isLt
  rw [BitVec.toNat_ofNat]
  exact Nat.mod_eq_of_lt (by omega)
theorem toNat_coord0 (i : grid0.Coords) : (BitVec.ofNat 32 (i 0).val).toNat = (i 0).val := by
  have h : (i 0).val < 2 := (i 0).isLt
  rw [BitVec.toNat_ofNat]
  exact Nat.mod_eq_of_lt (by omega)

/-! A one-word load through a whole table at offset `off` reads the table's word `off 0`: the whole view's
    embedding is the identity, and the one-word window's one index sits at the offset. -/

theorem word_new (c : Dev nD) (xt : TbBuf (F := F) c tNew) (off : Fin 1 → Nat) (inb : ∀ a, off a + S1.size a ≤ S883.size a)
    (n : Fin 883) (hoff : off 0 = n.val) : wordAt c tNew xt off inb = xt (ix1 n) := by
  show tNew.view.readAt (Elt F) _ xt _ = _
  rw [View.readAt_apply, View.read_apply]
  simp only [cast_eq]
  congr 1
  funext a
  apply Fin.ext
  match a with
  | ⟨0, _⟩ =>
    show off 0 + 1 * 0 = n.val
    omega
theorem word_last (c : Dev nD) (xt : TbBuf (F := F) c tLast) (off : Fin 1 → Nat) (inb : ∀ a, off a + S1.size a ≤ S883.size a)
    (n : Fin 883) (hoff : off 0 = n.val) : wordAt c tLast xt off inb = xt (ix1 n) := by
  show tLast.view.readAt (Elt F) _ xt _ = _
  rw [View.readAt_apply, View.read_apply]
  simp only [cast_eq]
  congr 1
  funext a
  apply Fin.ext
  match a with
  | ⟨0, _⟩ =>
    show off 0 + 1 * 0 = n.val
    omega
theorem word_in (c : Dev nD) (xt : TbBuf (F := F) c tIn) (off : Fin 1 → Nat) (inb : ∀ a, off a + S1.size a ≤ S883.size a)
    (n : Fin 883) (hoff : off 0 = n.val) : wordAt c tIn xt off inb = xt (ix1 n) := by
  show tIn.view.readAt (Elt F) _ xt _ = _
  rw [View.readAt_apply, View.read_apply]
  simp only [cast_eq]
  congr 1
  funext a
  apply Fin.ext
  match a with
  | ⟨0, _⟩ =>
    show off 0 + 1 * 0 = n.val
    omega

/-- The three words the body loads at grid coordinates `i` are the tables' words at `i`'s sorted position. -/
theorem wNew_eq (c : Dev nD) (i : grid0.Coords) : wNew m c i = newAt m (pos i) :=
  word_new c (tbl m 3) _ _ (pos i) (by rw [Gen.k0_off1_eq]; rfl)
theorem wLast_eq (c : Dev nD) (i : grid0.Coords) : wLast m c i = lastAt m (pos i) :=
  word_last c (tbl m 4) _ _ (pos i) (by rw [Gen.k0_off1_eq]; rfl)
theorem wIn_eq (c : Dev nD) (i : grid0.Coords) : wIn m c i = inAt m (pos i) :=
  word_in c (tbl m 1) _ _ (pos i) (by rw [Gen.k0_off2_eq]; rfl)

/-- The three table-driven index maps at any tables' contents. -/
theorem index_w_pf (pf : pre0.Contents (Elt F)) (i : grid0.Coords) :
    cc0_transform_1 Gen.k0_off1_inb Gen.numel1_S1 pf i = ![((pf 0 (ix1 (pos i)) : BitVec 32)).toNat, 0, 0] := by
  unfold cc0_transform_1
  funext a
  fin_cases a
  · exact congrArg (fun j => ((pf 0 j : BitVec 32)).toNat) (emb_unit_first _ _ _ (pos i) (toNat_coord1 i))
  · rfl
  · rfl
theorem index_bias_pf (pf : pre0.Contents (Elt F)) (i : grid0.Coords) :
    cc0_transform_2 Gen.k0_off1_inb Gen.numel1_S1 pf i = ![((pf 2 (ix1 (pos i)) : BitVec 32)).toNat, 0] := by
  unfold cc0_transform_2
  funext a
  fin_cases a
  · exact congrArg (fun j => ((pf 2 j : BitVec 32)).toNat) (emb_unit_first _ _ _ (pos i) (toNat_coord1 i))
  · rfl
theorem index_out_pf (pf : pre0.Contents (Elt F)) (i : grid0.Coords) :
    cc0_transform_3 Gen.k0_off1_inb Gen.numel1_S1 pf i = ![((pf 2 (ix1 (pos i)) : BitVec 32)).toNat, (tile i).val] := by
  unfold cc0_transform_3
  funext a
  fin_cases a
  · exact congrArg (fun j => ((pf 2 j : BitVec 32)).toNat) (emb_unit_first _ _ _ (pos i) (toNat_coord1 i))
  · exact toNat_coord0 i

/-- The block indices of the three table-driven windows: the weights' block is the padded block the sort
    put at the position; the bias' and the output's row block is the position's output block, the output's
    column block the batch tile. -/
theorem index_w (i : grid0.Coords) :
    cc0_transform_1 Gen.k0_off1_inb Gen.numel1_S1 (tbl m) i = ![(orderAt m (pos i)).toNat, 0, 0] :=
  index_w_pf (tbl m) i
theorem index_bias (i : grid0.Coords) :
    cc0_transform_2 Gen.k0_off1_inb Gen.numel1_S1 (tbl m) i = ![(outAt m (pos i)).toNat, 0] :=
  index_bias_pf (tbl m) i
theorem index_out (i : grid0.Coords) :
    cc0_transform_3 Gen.k0_off1_inb Gen.numel1_S1 (tbl m) i = ![(outAt m (pos i)).toNat, (tile i).val] :=
  index_out_pf (tbl m) i

/-- Blocks named by in-range words lie inside their arrays. -/
theorem ok_of_facts (hT : TableFacts m) : Ok m := by
  show ok0 (tbl m)
  unfold ok0
  refine ⟨fun i => ⟨?_, .inl rfl⟩, fun i => ⟨?_, .inl rfl⟩, fun i => ⟨?_, .inl rfl⟩⟩
  · rw [index_w]
    have h := hT.order_lt (pos i)
    generalize (orderAt m (pos i)).toNat = o at h ⊢
    intro a
    fin_cases a
    · show (o + 1) * 1 ≤ 883
      omega
    · show (0 + 1) * 256 ≤ 256
      omega
    · show (0 + 1) * 256 ≤ 256
      omega
  · rw [index_bias]
    have h := hT.out_lt (pos i)
    generalize (outAt m (pos i)).toNat = o at h ⊢
    intro a
    fin_cases a
    · show (o + 1) * 256 ≤ 16384
      omega
    · show (0 + 1) * 1 ≤ 1
      omega
  · rw [index_out]
    have h := hT.out_lt (pos i)
    have ht := (tile i).isLt
    generalize (outAt m (pos i)).toNat = o at h ⊢
    generalize (tile i).val = t at ht ⊢
    intro a
    fin_cases a
    · show (o + 1) * 256 ≤ 16384
      omega
    · show (t + 1) * 512 ≤ 1024
      omega

/-- An input-block word below 128 passes the side condition the body assumes of it. -/
theorem hyps_of_facts (hT : TableFacts m) (hO : Ok m) : Hyps m hO := by
  unfold Hyps
  intro c t
  rw [wIn_eq]
  have h := hT.in_lt (pos (grid0.coords t))
  generalize inAt m (pos (grid0.coords t)) = v at h ⊢
  have hmul : (v * 256#32).toNat = v.toNat * 256 := by
    rw [BitVec.toNat_mul]
    show v.toNat * 256 % 2 ^ 32 = v.toNat * 256
    exact Nat.mod_eq_of_lt (by omega)
  refine ⟨?_, ?_⟩
  · show 256 ∣ (v * 256#32).toNat
    rw [hmul]
    exact Dvd.intro_left _ rfl
  · intro a
    fin_cases a
    · show (v * 256#32).toNat + 256 ≤ 32768
      rw [hmul]
      omega
    · show 0 + 512 ≤ 512
      omega

end Cert.KernelIdeal.Pipe

end
-- ==== Proof.HostTablesRead.lean ====
/-
  The five prefetched tables as pure terms of the two index arguments.

  @main's host prefix pads the two index tables to 883 entries, sorts the padded output-block indices
  stably carrying the positions, reads both padded tables through the sorted positions, and compares each
  sorted output-block word with its neighbours.  Here each step is a named function of arrays, and each
  table buffer, as the region finds it, is the composition of those functions at the launched arguments.
-/
import proofs.«419409_j64768106824287_2_alg».proof.Proof.Words
import Idealize.ShloMosaic.Lib.StableHlo.Run

set_option maxRecDepth 16384

noncomputable section

namespace Cert.KernelIdeal.Pipe

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-! ## The tables as pure terms of the two index arguments -/

/-- The input-block indices padded with 64 zeros. -/
def padInT (a : IVec S819 32) : IVec S883 32 :=
  concatenate S883 0 [⟨S819, a⟩, ⟨S64, broadcastInDim S64 ![] bcast_S_S64 (constantI S_ 32 0#32)⟩] concatenates_S819_S64_S883_d0
/-- The output-block indices padded with 0, 1, …, 63. -/
def padOutT (b : IVec S819 32) : IVec S883 32 :=
  concatenate S883 0 [⟨S819, b⟩, ⟨S64, iotaInDim S64 32 0⟩] concatenates_S819_S64_S883_d0
/-- The positions carried by the stable sort of a key table. -/
def orderT (x : IVec S883 32) : IVec S883 32 :=
  (Host.sort2 S883 0 comparator_i32_i32_d0 x (iotaInDim S883 32 0)).2
/-- The negative-index wrap of a table of positions. -/
def wrapT (o : IVec S883 32) : IVec S883 32 :=
  select (cmpi .slt o (broadcastInDim S883 ![] bcast_S_S883 (constantI S_ 32 0#32)))
    (addi o (broadcastInDim S883 ![] bcast_S_S883 (constantI S_ 32 883#32))) o
/-- A table read through a table of positions. -/
def takeT (x o : IVec S883 32) : IVec S883 32 :=
  Host.gather gather_S883_S883x1_S883_n_0_n_n_0_1_1 x (broadcastInDim S883x1 ![0] bcast_S883_S883x1_0 (wrapT o))
/-- The table shifted one position later, a word of all ones first. -/
def prevT (o : IVec S883 32) : IVec S883 32 :=
  concatenate S883 0 [⟨S1, broadcastInDim S1 ![] bcast_S_S1 (constantI S_ 32 4294967295#32)⟩,
    ⟨S882, extractStridedSlice S882 ![0] o slices_S883_S882_0⟩] concatenates_S1_S882_S883_d0
/-- The table shifted one position earlier, a word of all ones last. -/
def nextT (o : IVec S883 32) : IVec S883 32 :=
  concatenate S883 0 [⟨S882, extractStridedSlice S882 ![1] o slices_S883_S882_1⟩,
    ⟨S1, broadcastInDim S1 ![] bcast_S_S1 (constantI S_ 32 4294967295#32)⟩] concatenates_S882_S1_S883_d0
/-- "Differs from the previous position's word", widened. -/
def newT (o : IVec S883 32) : IVec S883 32 := extui 32 (cmpi .ne o (prevT o)) natLt_1_32
/-- "Differs from the next position's word", widened. -/
def lastT (o : IVec S883 32) : IVec S883 32 := extui 32 (cmpi .ne o (nextT o)) natLt_1_32

/-- The two index arguments as launched. -/
abbrev argIn : IVec S819 32 := m (((0 : Dev nD) : Thread nD τ).loc main_arg3)
abbrev argOut : IVec S819 32 := m (((0 : Dev nD) : Thread nD τ).loc main_arg4)

/-! ## Reading the host prefix

Each buffer after the prefix is the prefix's operations composed; a two-piece concatenation is kept, while
the composition is read off, with its pieces as plain arguments. -/

/-- A two-piece concatenation, the pieces as arguments. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold {α : Type} (t : Shape) (a : Fin t.rank) (s₁ s₂ : Shape) (h : Shape.Concatenates [s₁, s₂] t a)
    (x₁ : s₁.Idx → α) (x₂ : s₂.Idx → α) : concatenate t a [⟨s₁, x₁⟩, ⟨s₂, x₂⟩] h = cat2 t a s₁ s₂ h x₁ x₂ := rfl

section Reads
open Idealize.ShloMosaic.StableHlo

set_option maxHeartbeats 400000 in
theorem tbl_order : tbl m 0 = orderT (padOutT (argOut m)) := by
  unfold tbl
  show V m 0 main_v6 = _
  unfold V
  simp only [hostOps0, hostOps0_1, hostOps0_2, List.flatten_cons, List.flatten_nil, List.append_nil, List.cons_append, List.nil_append]
  simp (disch := decide) only [after_cons, after_nil, cat2_fold,
    nullary_result', unary_result', binary_result', ternary_result',
    nullary_result_ne', unary_result_ne', binary_result_ne', ternary_result_ne']
  simp only [cat2]
  rfl

set_option maxHeartbeats 400000 in
theorem tbl_in : tbl m 1 = takeT (padInT (argIn m)) (orderT (padOutT (argOut m))) := by
  unfold tbl
  show V m 0 main_v13 = _
  unfold V
  simp only [hostOps0, hostOps0_1, hostOps0_2, List.flatten_cons, List.flatten_nil, List.append_nil, List.cons_append, List.nil_append]
  simp (disch := decide) only [after_cons, after_nil, cat2_fold,
    nullary_result', unary_result', binary_result', ternary_result',
    nullary_result_ne', unary_result_ne', binary_result_ne', ternary_result_ne']
  simp only [cat2]
  rfl

set_option maxHeartbeats 400000 in
theorem tbl_out : tbl m 2 = takeT (padOutT (argOut m)) (orderT (padOutT (argOut m))) := by
  unfold tbl
  show V m 0 main_v20 = _
  unfold V
  simp only [hostOps0, hostOps0_1, hostOps0_2, List.flatten_cons, List.flatten_nil, List.append_nil, List.cons_append, List.nil_append]
  simp (disch := decide) only [after_cons, after_nil, cat2_fold,
    nullary_result', unary_result', binary_result', ternary_result',
    nullary_result_ne', unary_result_ne', binary_result_ne', ternary_result_ne']
  simp only [cat2]
  rfl

set_option maxHeartbeats 400000 in
theorem tbl_new : tbl m 3 = newT (takeT (padOutT (argOut m)) (orderT (padOutT (argOut m)))) := by
  unfold tbl
  show V m 0 main_v27 = _
  unfold V
  simp only [hostOps0, hostOps0_1, hostOps0_2, List.flatten_cons, List.flatten_nil, List.append_nil, List.cons_append, List.nil_append]
  simp (disch := decide) only [after_cons, after_nil, cat2_fold,
    nullary_result', unary_result', binary_result', ternary_result',
    nullary_result_ne', unary_result_ne', binary_result_ne', ternary_result_ne']
  simp only [cat2]
  rfl

set_option maxHeartbeats 400000 in
theorem tbl_last : tbl m 4 = lastT (takeT (padOutT (argOut m)) (orderT (padOutT (argOut m)))) := by
  unfold tbl
  show V m 0 main_v29 = _
  unfold V
  simp only [hostOps0, hostOps0_1, hostOps0_2, List.flatten_cons, List.flatten_nil, List.append_nil, List.cons_append, List.nil_append]
  simp (disch := decide) only [after_cons, after_nil, cat2_fold,
    nullary_result', unary_result', binary_result', ternary_result',
    nullary_result_ne', unary_result_ne', binary_result_ne', ternary_result_ne']
  simp only [cat2]
  rfl

end Reads

end Cert.KernelIdeal.Pipe
end
-- ==== Proof.HostFlags.lean ====
/-
  The two neighbour-comparison flags of a table of words below 64, position by position.

  The "differs from the previous word" flag of a table compares it with itself shifted one position later, a
  word of all ones put first; the "differs from the next word" flag with itself shifted one position earlier,
  a word of all ones put last.  A word below 64 is not the word of all ones, so the first position always has
  the first flag and the last position always has the second; every other position has a flag exactly when its
  word differs from that neighbour's.
-/
import proofs.«419409_j64768106824287_2_alg».proof.Proof.HostTablesRead
import Idealize.ShloMosaic.Lib.ValueIdx
import Idealize.ShloMosaic.Lib.ValueLayout
import Idealize.ShloMosaic.Lib.Pipeline.Value

set_option maxRecDepth 16384

noncomputable section

namespace Cert.KernelIdeal.Pipe

open Cert.KernelIdeal Cert.KernelIdeal.Gen Idealize.ShloMosaic Idealize.ShloMosaic.ValueIdx

/-- The widened one-bit "differs" comparison of two words is the word 1 exactly when they differ. -/
theorem widen_ne_iff (x y : BitVec 32) : (IntOp.cmpi .ne x y).setWidth 32 = 1#32 ↔ x ≠ y := by
  show (BitVec.ofBool (x != y)).setWidth 32 = 1#32 ↔ x ≠ y
  by_cases h : x = y
  · have e : (x != y) = false := by rw [h]; exact bne_self_eq_false y
    rw [e]
    exact ⟨fun h' => absurd h' (by decide), fun h' => absurd h h'⟩
  · have e : (x != y) = true := bne_iff_ne.mpr h
    rw [e]
    exact ⟨fun _ => h, fun _ => by decide⟩

/-- A word below 64 is not the word of all ones. -/
theorem ne_ones_of_lt (x : BitVec 32) (hx : x.toNat < 64) : x ≠ 4294967295#32 := by
  intro h; rw [h] at hx; exact absurd hx (by decide)

/-! ## The shifted tables at a position -/

/-- The table shifted later holds the word of all ones at the first position … -/
theorem prevT_zero (o : IVec S883 32) (n : Fin 883) (h0 : n.val = 0) : prevT o (ix1 n) = 4294967295#32 := by
  unfold prevT
  refine (concatenate_pair_apply_left (t := S883) (s₁ := S1) (s₂ := S882) 0 _ _ concatenates_S1_S882_S883_d0 (ix1 n) rfl
    (ix1 (0 : Fin 1)) (fun b => by
      match b with
      | ⟨0, _⟩ => show (0 : ℕ) = n.val; exact h0.symm)).trans ?_
  rfl

/-- … and the previous position's word at every other. -/
theorem prevT_pos (o : IVec S883 32) (n : Fin 883) (h : 0 < n.val) :
    prevT o (ix1 n) = o (ix1 ⟨n.val - 1, Nat.lt_of_le_of_lt (Nat.sub_le _ _) n.isLt⟩) := by
  unfold prevT
  refine (concatenate_pair_apply_right (t := S883) (s₁ := S1) (s₂ := S882) 0 _ _ concatenates_S1_S882_S883_d0 (ix1 n) rfl rfl
    (ix1 (⟨n.val - 1, by have := n.isLt; omega⟩ : Fin 882)) (fun b => by
      match b with
      | ⟨0, _⟩ => intro hb; exact absurd rfl hb) (by
      show (n.val - 1) + 1 = n.val; omega)).trans ?_
  refine extractStridedSlice_apply ![0] o slices_S883_S882_0 (ix1 (⟨n.val - 1, by have := n.isLt; omega⟩ : Fin 882))
    (ix1 (⟨n.val - 1, Nat.lt_of_le_of_lt (Nat.sub_le _ _) n.isLt⟩ : Fin 883)) (fun a => by
    match a with
    | ⟨0, _⟩ => show n.val - 1 = 0 + (n.val - 1); omega)

/-- The table shifted earlier holds the word of all ones at the last position … -/
theorem nextT_last (o : IVec S883 32) (n : Fin 883) (h : n.val + 1 = 883) : nextT o (ix1 n) = 4294967295#32 := by
  unfold nextT
  refine (concatenate_pair_apply_right (t := S883) (s₁ := S882) (s₂ := S1) 0 _ _ concatenates_S882_S1_S883_d0 (ix1 n) rfl rfl
    (ix1 (0 : Fin 1)) (fun b => by
      match b with
      | ⟨0, _⟩ => intro hb; exact absurd rfl hb) (by
      show (0 : ℕ) + 882 = n.val; omega)).trans ?_
  rfl

/-- … and the next position's word at every other. -/
theorem nextT_lt (o : IVec S883 32) (n : Fin 883) (h : n.val + 1 < 883) : nextT o (ix1 n) = o (ix1 ⟨n.val + 1, h⟩) := by
  unfold nextT
  refine (concatenate_pair_apply_left (t := S883) (s₁ := S882) (s₂ := S1) 0 _ _ concatenates_S882_S1_S883_d0 (ix1 n) rfl
    (ix1 (⟨n.val, by omega⟩ : Fin 882)) (fun b => by
      match b with
      | ⟨0, _⟩ => rfl)).trans ?_
  refine extractStridedSlice_apply ![1] o slices_S883_S882_1 (ix1 (⟨n.val, by omega⟩ : Fin 882))
    (ix1 (⟨n.val + 1, h⟩ : Fin 883)) (fun a => by
    match a with
    | ⟨0, _⟩ => show n.val + 1 = 1 + n.val; omega)

/-! ## The two flags -/

theorem newT_iff (o : IVec S883 32) (ho : ∀ n : Fin 883, (o (ix1 n)).toNat < 64) (n : Fin 883) : newT o (ix1 n) = 1#32 ↔ (n.val = 0 ∨ ∃ h : 0 < n.val, o (ix1 n) ≠ o (ix1 ⟨n.val - 1, Nat.lt_of_le_of_lt (Nat.sub_le _ _) n.isLt⟩)) := by
  have e : newT o (ix1 n) = (IntOp.cmpi .ne (o (ix1 n)) (prevT o (ix1 n))).setWidth 32 := rfl
  rw [e, widen_ne_iff]
  by_cases h0 : n.val = 0
  · rw [prevT_zero o n h0]
    exact ⟨fun _ => Or.inl h0, fun _ => ne_ones_of_lt _ (ho n)⟩
  · have hpos : 0 < n.val := Nat.pos_of_ne_zero h0
    rw [prevT_pos o n hpos]
    exact ⟨fun h => Or.inr ⟨hpos, h⟩, fun h => h.elim (fun h' => absurd h' h0) (fun ⟨_, h'⟩ => h')⟩

theorem lastT_iff (o : IVec S883 32) (ho : ∀ n : Fin 883, (o (ix1 n)).toNat < 64) (n : Fin 883) : lastT o (ix1 n) = 1#32 ↔ (n.val + 1 = 883 ∨ ∃ h : n.val + 1 < 883, o (ix1 ⟨n.val + 1, h⟩) ≠ o (ix1 n)) := by
  have e : lastT o (ix1 n) = (IntOp.cmpi .ne (o (ix1 n)) (nextT o (ix1 n))).setWidth 32 := rfl
  rw [e, widen_ne_iff]
  by_cases hl : n.val + 1 = 883
  · rw [nextT_last o n hl]
    exact ⟨fun _ => Or.inl hl, fun _ => ne_ones_of_lt _ (ho n)⟩
  · have hlt : n.val + 1 < 883 := by have := n.isLt; omega
    rw [nextT_lt o n hlt]
    exact ⟨fun h => Or.inr ⟨hlt, fun h' => h h'.symm⟩, fun h => h.elim (fun h' => absurd h' hl) (fun ⟨_, h'⟩ => fun h'' => h' h''.symm)⟩

end Cert.KernelIdeal.Pipe

end
-- ==== Proof.HostTables.lean ====
/-
  What the five prefetched tables hold, at any float instance.

  The order table is the stable sorting permutation of the 883 padded output-block indices, as words; the
  input-block and output-block tables are the two padded index tables read through it; the sorted
  output-block words are nondecreasing; and the two flag tables say where a word differs from its neighbour.
  Every fact about the sort is proved for an arbitrary key table, from two properties of a stable insertion
  sort: it permutes the positions, and it leaves no inversion.
-/
import proofs.«419409_j64768106824287_2_alg».proof.Proof.HostFlags
import Idealize.ShloMosaic.Lib.StableHlo.Predicate
import Idealize.ShloMosaic.Lib.SortFacts
import Idealize.ShloMosaic.Lib.Pipeline.Value

set_option maxRecDepth 16384

noncomputable section

namespace Cert.KernelIdeal.Pipe

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-! ## Words -/

open Idealize.ShloMosaic.StableHlo.Predicate in
/-- A non-negative word is not below zero. -/
theorem slt_zero_of_small (w : BitVec 32) (h : w.toNat < 2 ^ 31) : IntOp.cmpi .slt w 0#32 = 0#1 := by
  refine eq_zero_of_ne_one fun h1 => ?_
  have := (slt_iff_toNat h (show (0#32 : BitVec 32).toNat < 2 ^ 31 by decide)).mp h1
  simp at this

/-- A small natural as a word reads back. -/
theorem toNat_ofNat_small (k : Nat) (h : k < 2 ^ 32) : (BitVec.ofNat 32 k).toNat = k := by
  rw [BitVec.toNat_ofNat]; exact Nat.mod_eq_of_lt h

/-! ## Rank-1 indices, spelled two ways -/

theorem ofFin_eq_ix1 {n : Nat} (k : Fin n) : (Shape.Idx.ofFin k : (⟨1, ![n]⟩ : Shape).Idx) = ix1 k := by
  funext d; match d with | ⟨0, _⟩ => rfl

/-! ## The stable sort of a rank-1 key table carrying the positions

On a rank-1 shape the sort reads both operands through one self-map of the positions: the stable sorting
permutation of the comparator on the pairs. The comparator here looks at the keys only, by signed "less". -/

theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- "Position k's key is strictly below position k''s", signed. -/
def keyBefore {n : Nat} (x : Fin n → BitVec 32) (k k' : Fin n) : Bool := IntOp.cmpi .slt (x k) (x k') == 1#1

/-- The stable sorting permutation of a key table: entry `i` is the position whose key lands at `i`. -/
def sortPerm {n : Nat} (x : Fin n → BitVec 32) : Fin n → Fin n := sortedFrom (keyBefore x)

theorem sortPerm_def {n : Nat} (x : Fin n → BitVec 32) : sortPerm x = sortedFrom (keyBefore x) := rfl

theorem sortPerm_bijective {n : Nat} (x : Fin n → BitVec 32) : Function.Bijective (sortPerm x) :=
  ⟨sortedFrom_injective _, sortedFrom_surjective _⟩

open Idealize.ShloMosaic.StableHlo.Predicate in
/-- Keys that are non-negative as signed words come out in nondecreasing order of their values. -/
theorem sortPerm_sorted {n : Nat} (x : Fin n → BitVec 32) (hx : ∀ k, (x k).toNat < 2 ^ 31) (i j : Fin n) (hij : i ≤ j) :
    (x (sortPerm x i)).toNat ≤ (x (sortPerm x j)).toNat := by
  rcases eq_or_lt_of_le hij with rfl | hlt
  · exact le_refl _
  · have h := sortedFrom_noInversion (keyBefore x) (keyBefore x)
      (fun a b hab => by
        simp only [keyBefore, beq_iff_eq, beq_eq_false_iff_ne, ne_eq, slt_iff_toNat (hx a) (hx b), slt_iff_toNat (hx b) (hx a)] at hab ⊢
        omega)
      (fun _ _ hab => hab)
      (fun a b c hab hbc => by
        simp only [keyBefore, beq_eq_false_iff_ne, ne_eq, slt_iff_toNat (hx a) (hx b), slt_iff_toNat (hx b) (hx c), slt_iff_toNat (hx a) (hx c)] at hab hbc ⊢
        omega)
      i j hlt
    simp only [keyBefore, beq_eq_false_iff_ne, ne_eq, slt_iff_toNat (hx _) (hx _)] at h
    unfold sortPerm
    omega

/-- The sorting permutation as an equivalence. -/
def sortEquiv {n : Nat} (x : Fin n → BitVec 32) : Equiv.Perm (Fin n) := Equiv.ofBijective (sortPerm x) (sortPerm_bijective x)

attribute [irreducible] sortPerm

/-! ## The padded index tables at a position -/

theorem padInT_apply (a : IVec S819 32) (k : Fin 883) :
    padInT a (ix1 k) = if h : k.val < 819 then a (ix1 ⟨k.val, h⟩) else 0#32 := by
  unfold padInT
  split
  · next h =>
    refine Idealize.ShloMosaic.concatenate_pair_apply_left (t := S883) (s₁ := S819) (s₂ := S64) (0 : Fin 1) a
      (broadcastInDim S64 ![] bcast_S_S64 (constantI S_ 32 0#32)) concatenates_S819_S64_S883_d0 (ix1 k) rfl (ix1 ⟨k.val, h⟩) fun b => ?_
    match b with
    | ⟨0, _⟩ => rfl
  · next h =>
    refine (Idealize.ShloMosaic.concatenate_pair_apply_right (t := S883) (s₁ := S819) (s₂ := S64) (0 : Fin 1) a
      (broadcastInDim S64 ![] bcast_S_S64 (constantI S_ 32 0#32)) concatenates_S819_S64_S883_d0 (ix1 k) rfl rfl
      (ix1 ⟨k.val - 819, by have := k.isLt; omega⟩) (fun b hb => ?_) ?_).trans rfl
    · match b with
      | ⟨0, _⟩ => exact absurd rfl hb
    · show (k.val - 819) + 819 = k.val
      omega

theorem padOutT_apply (b : IVec S819 32) (k : Fin 883) :
    padOutT b (ix1 k) = if h : k.val < 819 then b (ix1 ⟨k.val, h⟩) else BitVec.ofNat 32 (k.val - 819) := by
  unfold padOutT
  split
  · next h =>
    refine Idealize.ShloMosaic.concatenate_pair_apply_left (t := S883) (s₁ := S819) (s₂ := S64) (0 : Fin 1) b
      (iotaInDim S64 32 0) concatenates_S819_S64_S883_d0 (ix1 k) rfl (ix1 ⟨k.val, h⟩) fun c => ?_
    match c with
    | ⟨0, _⟩ => rfl
  · next h =>
    refine (Idealize.ShloMosaic.concatenate_pair_apply_right (t := S883) (s₁ := S819) (s₂ := S64) (0 : Fin 1) b
      (iotaInDim S64 32 0) concatenates_S819_S64_S883_d0 (ix1 k) rfl rfl
      (ix1 ⟨k.val - 819, by have := k.isLt; omega⟩) (fun c hc => ?_) ?_).trans rfl
    · match c with
      | ⟨0, _⟩ => exact absurd rfl hc
    · show (k.val - 819) + 819 = k.val
      omega

/-! ## The sorted positions, and a table read through them -/

/-- The keys of a rank-1 table, by position. -/
abbrev keysOf (x : IVec S883 32) : Fin 883 → BitVec 32 := fun k => x (ix1 k)

/-- The sort's second result at position `n` is the position the stable sort of the keys puts there. -/
theorem orderT_apply (x : IVec S883 32) (n : Fin 883) :
    orderT x (ix1 n) = BitVec.ofNat 32 (sortPerm (keysOf x) n).val := by
  unfold orderT
  rw [← ofFin_eq_ix1, sort2_snd_rank1]
  have hR : (fun k k' : Fin 883 => comparator_i32_i32_d0 (x (Shape.Idx.ofFin k), iotaInDim S883 32 0 (Shape.Idx.ofFin k))
      (x (Shape.Idx.ofFin k'), iotaInDim S883 32 0 (Shape.Idx.ofFin k')) == 1#1) = keyBefore (keysOf x) := by
    funext k k'
    rw [ofFin_eq_ix1, ofFin_eq_ix1]
    rfl
  rw [hR, Shape.Idx.ofFin_zero, ← sortPerm_def]
  generalize sortPerm (keysOf x) n = P
  rfl

/-- The negative-index wrap leaves a non-negative word alone. -/
theorem wrapT_apply (o : IVec S883 32) (j : S883.Idx) (h : (o j).toNat < 2 ^ 31) : wrapT o j = o j := by
  show Scalar.select (IntOp.cmpi .slt (o j) 0#32) (IntOp.addi (o j) 883#32) (o j) = o j
  rw [slt_zero_of_small _ h]
  exact select_zero _ _

/-- A table read through a table of positions: where the position word is `p`, the table at `p`. -/
theorem takeT_apply (x o : IVec S883 32) (n p : Fin 883) (ho : o (ix1 n) = BitVec.ofNat 32 p.val) :
    takeT x o (ix1 n) = x (ix1 p) := by
  have hp := p.isLt
  have hsmall : (o (ix1 n)).toNat < 2 ^ 31 := by rw [ho, toNat_ofNat_small _ (by omega)]; omega
  have hw : broadcastInDim S883x1 ![0] bcast_S883_S883x1_0 (wrapT o) (Idealize.ShloMosaic.StableHlo.Predicate.ixP n)
      = BitVec.ofNat 32 p.val := by
    rw [Idealize.ShloMosaic.StableHlo.Predicate.bcast_col1, ofFin_eq_ix1, wrapT_apply o _ hsmall, ho]
  unfold takeT
  rw [← ofFin_eq_ix1 n]
  refine (Idealize.ShloMosaic.StableHlo.Predicate.gather_take gather_S883_S883x1_S883_n_0_n_n_0_1_1 rfl rfl rfl rfl x _ n (by decide)).trans ?_
  rw [← ofFin_eq_ix1 p]
  refine congrArg x (congrArg Shape.Idx.ofFin (Fin.ext ?_))
  show min (broadcastInDim S883x1 ![0] bcast_S883_S883x1_0 (wrapT o) (Idealize.ShloMosaic.StableHlo.Predicate.ixP n)).toInt.toNat (883 - 1) = p.val
  rw [hw, Idealize.ShloMosaic.StableHlo.Predicate.toInt_ofNat_small _ (by omega), Int.toNat_natCast]
  omega

/-! ## The padded tables' ranges, and the sorting permutation of the padded output-block indices -/

theorem padIn_lt (a : IVec S819 32) (ha : ∀ k : Fin 819, (a (ix1 k)).toNat < 128) (k : Fin 883) :
    (padInT a (ix1 k)).toNat < 128 := by
  rw [padInT_apply]
  split
  · exact ha _
  · decide

theorem padOut_lt (b : IVec S819 32) (hb : ∀ k : Fin 819, (b (ix1 k)).toNat < 64) (k : Fin 883) :
    (padOutT b (ix1 k)).toNat < 64 := by
  rw [padOutT_apply]
  split
  · exact hb _
  · have := k.isLt
    rw [toNat_ofNat_small _ (by omega)]
    omega

/-- The stable sorting permutation of the padded output-block indices. -/
def sigmaOf (b : IVec S819 32) : Equiv.Perm (Fin 883) := sortEquiv (keysOf (padOutT b))

theorem orderT_pad (b : IVec S819 32) (n : Fin 883) : orderT (padOutT b) (ix1 n) = BitVec.ofNat 32 (sigmaOf b n).val :=
  orderT_apply _ n

theorem takeT_pad (x : IVec S883 32) (b : IVec S819 32) (n : Fin 883) :
    takeT x (orderT (padOutT b)) (ix1 n) = x (ix1 (sigmaOf b n)) :=
  takeT_apply _ _ n _ (orderT_pad b n)

theorem sorted_pad (b : IVec S819 32) (hb : ∀ k : Fin 819, (b (ix1 k)).toNat < 64) (n n' : Fin 883) (h : n ≤ n') :
    (padOutT b (ix1 (sigmaOf b n))).toNat ≤ (padOutT b (ix1 (sigmaOf b n'))).toNat :=
  sortPerm_sorted (keysOf (padOutT b)) (fun k => by have := padOut_lt b hb k; show (padOutT b (ix1 k)).toNat < 2 ^ 31; omega) n n' h

attribute [irreducible] sigmaOf

/-! ## The tables -/

theorem tableFacts (hin : ∀ k : Fin 819, (inIdxW m k).toNat < 128) (hout : ∀ k : Fin 819, (outIdxW m k).toNat < 64) :
    TableFacts m := by
  have hO : ∀ n, orderAt m n = BitVec.ofNat 32 (sigmaOf (argOut m) n).val := fun n => by
    unfold orderAt; rw [tbl_order]; exact orderT_pad _ n
  have hI : ∀ n, inAt m n = padInT (argIn m) (ix1 (sigmaOf (argOut m) n)) := fun n => by
    unfold inAt; rw [tbl_in]; exact takeT_pad _ _ n
  have hU : ∀ n, outAt m n = padOutT (argOut m) (ix1 (sigmaOf (argOut m) n)) := fun n => by
    unfold outAt; rw [tbl_out]; exact takeT_pad _ _ n
  have hUlt : ∀ n : Fin 883, (takeT (padOutT (argOut m)) (orderT (padOutT (argOut m))) (ix1 n)).toNat < 64 := fun n => by
    rw [takeT_pad]; exact padOut_lt _ hout _
  refine ⟨fun n => ?_, fun n => ?_, fun n => ?_, fun n => ?_, fun n => ?_, fun n n' h => ?_, ⟨sigmaOf (argOut m), fun n => ⟨?_, ?_, ?_⟩⟩⟩
  · rw [hO]
    generalize sigmaOf (argOut m) n = k
    rw [toNat_ofNat_small _ (by have := k.isLt; omega)]
    exact k.isLt
  · rw [hI]; exact padIn_lt _ hin _
  · rw [hU]; exact padOut_lt _ hout _
  · unfold newAt outAt
    rw [tbl_new, tbl_out]
    exact newT_iff _ hUlt n
  · unfold lastAt outAt
    rw [tbl_last, tbl_out]
    exact lastT_iff _ hUlt n
  · rw [hU, hU]; exact sorted_pad _ hout n n' h
  · rw [hO]
    generalize sigmaOf (argOut m) n = k
    exact toNat_ofNat_small _ (by have := k.isLt; omega)
  · rw [hI]
    generalize sigmaOf (argOut m) n = k
    rw [padInT_apply]
    rfl
  · rw [hU]
    generalize sigmaOf (argOut m) n = k
    rw [padOutT_apply]
    rfl

end Cert.KernelIdeal.Pipe
end
-- ==== Proof.RunA.lean ====
/-
  The kernel body run once, in the case where the position starts a group and ends it (both flags set).
  On whole staging memrefs holding the input blocks `x0` (the staged column of x), `x1` (one weight block),
  `x2` (one bias block), the output block at `xo`, and the five tables held read-only, the body runs to its
  continuation with the inputs as they were and the output buffer written by the list of pieces `L` the run
  finds; `L` is the witness, and the case's two flag hypotheses decide the body's two conditionals.
-/
import proofs.«419409_j64768106824287_2_alg».proof.Proof.Pipe
import Idealize.ShloMosaic.Lib.Ring

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : flagSet (wordAt c tNew xt3 (k0_off1 i) (Gen.k0_off1_inb i)))
    (hc1 : flagSet (wordAt c tLast xt4 (k0_off1 i) (Gen.k0_off1_inb i)))
    (hw : k0_chk1 (wordAt c tIn xt1 (k0_off2 i) (Gen.k0_off2_inb i))) :
    { L : List (View.Piece (Elt F) S256x512 .f32) //
      ∀ (E : Set ℕ) (K : PUnit → sProp 𝕄),
        iprop(owns (c : Thread nD τ) arg7 fullShare x0 ∗ owns (c : Thread nD τ) arg8 fullShare x1 ∗ owns (c : Thread nD τ) arg9 fullShare x2
            ∗ owns (c : Thread nD τ) arg10 fullShare xo
            ∗ tbHeld c tOrder xt0 ∗ tbHeld c tIn xt1 ∗ tbHeld c tOut xt2 ∗ tbHeld c tNew xt3 ∗ tbHeld c tLast xt4
            ∗ (iprop(owns (c : Thread nD τ) arg7 fullShare x0 ∗ owns (c : Thread nD τ) arg8 fullShare x1 ∗ owns (c : Thread nD τ) arg9 fullShare x2
                ∗ (∃ f, arg10.view.loc (c : Thread nD τ) ↦[arg10.view.set]{fullShare} arg10.view.writes (Elt F) f L)
                ∗ tbHeld c tOrder xt0 ∗ tbHeld c tIn xt1 ∗ tbHeld c tOut xt2 ∗ tbHeld c tNew xt3 ∗ tbHeld c tLast xt4) -∗ K ⟨⟩))
          ⊢ wp frame (wpE (defs₀ (F := F)) Variants.none c none) E
              (cc0__bsl_kernel i tOrder tOrder_whole tIn tIn_whole tOut tOut_whole tNew tNew_whole tLast tLast_whole
                arg7 harg7 arg8 harg8 arg9 harg9 arg10 harg10) K } := by
  refine ⟨?_, fun E K => ?run⟩
  case run =>
    simp only [cc0__bsl_kernel_eq_skeleton]; unfold cc0__bsl_kernel_skel
    unfold owns
    iintro ⟨⟨%f0, %hf0, H0⟩, ⟨%f1, %hf1, H1⟩, ⟨%f2, %hf2, H2⟩, ⟨%f3, %hf3, H3⟩, HT0, HT1, HT2, HT3, HT4, Hk⟩
    obtain rfl := harg7.eq_unread hf0; obtain rfl := harg8.eq_unread hf1
    obtain rfl := harg9.eq_unread hf2; obtain rfl := harg10.eq_unread hf3
    sl_exec (disch := first | sl_exact hc0 | sl_exact hc1 | sl_exact hw)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; iexact H3
    isplitl [HT0]; · iexact HT0
    isplitl [HT1]; · iexact HT1
    isplitl [HT2]; · iexact HT2
    isplitl [HT3]; · iexact HT3
    iexact HT4

end Cert.KernelIdeal.Pipe

end
-- ==== Proof.RunB.lean ====
/-
  The kernel body run once, in the case where the position starts a group and does not end it (first flag set, last flag clear).
  On whole staging memrefs holding the input blocks `x0` (the staged column of x), `x1` (one weight block),
  `x2` (one bias block), the output block at `xo`, and the five tables held read-only, the body runs to its
  continuation with the inputs as they were and the output buffer written by the list of pieces `L` the run
  finds; `L` is the witness, and the case's two flag hypotheses decide the body's two conditionals.
-/
import proofs.«419409_j64768106824287_2_alg».proof.Proof.Pipe
import Idealize.ShloMosaic.Lib.Ring

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : flagSet (wordAt c tNew xt3 (k0_off1 i) (Gen.k0_off1_inb i)))
    (hc1 : ¬flagSet (wordAt c tLast xt4 (k0_off1 i) (Gen.k0_off1_inb i)))
    (hw : k0_chk1 (wordAt c tIn xt1 (k0_off2 i) (Gen.k0_off2_inb i))) :
    { L : List (View.Piece (Elt F) S256x512 .f32) //
      ∀ (E : Set ℕ) (K : PUnit → sProp 𝕄),
        iprop(owns (c : Thread nD τ) arg7 fullShare x0 ∗ owns (c : Thread nD τ) arg8 fullShare x1 ∗ owns (c : Thread nD τ) arg9 fullShare x2
            ∗ owns (c : Thread nD τ) arg10 fullShare xo
            ∗ tbHeld c tOrder xt0 ∗ tbHeld c tIn xt1 ∗ tbHeld c tOut xt2 ∗ tbHeld c tNew xt3 ∗ tbHeld c tLast xt4
            ∗ (iprop(owns (c : Thread nD τ) arg7 fullShare x0 ∗ owns (c : Thread nD τ) arg8 fullShare x1 ∗ owns (c : Thread nD τ) arg9 fullShare x2
                ∗ (∃ f, arg10.view.loc (c : Thread nD τ) ↦[arg10.view.set]{fullShare} arg10.view.writes (Elt F) f L)
                ∗ tbHeld c tOrder xt0 ∗ tbHeld c tIn xt1 ∗ tbHeld c tOut xt2 ∗ tbHeld c tNew xt3 ∗ tbHeld c tLast xt4) -∗ K ⟨⟩))
          ⊢ wp frame (wpE (defs₀ (F := F)) Variants.none c none) E
              (cc0__bsl_kernel i tOrder tOrder_whole tIn tIn_whole tOut tOut_whole tNew tNew_whole tLast tLast_whole
                arg7 harg7 arg8 harg8 arg9 harg9 arg10 harg10) K } := by
  refine ⟨?_, fun E K => ?run⟩
  case run =>
    simp only [cc0__bsl_kernel_eq_skeleton]; unfold cc0__bsl_kernel_skel
    unfold owns
    iintro ⟨⟨%f0, %hf0, H0⟩, ⟨%f1, %hf1, H1⟩, ⟨%f2, %hf2, H2⟩, ⟨%f3, %hf3, H3⟩, HT0, HT1, HT2, HT3, HT4, Hk⟩
    obtain rfl := harg7.eq_unread hf0; obtain rfl := harg8.eq_unread hf1
    obtain rfl := harg9.eq_unread hf2; obtain rfl := harg10.eq_unread hf3
    sl_exec (disch := first | sl_exact hc0 | sl_exact hc1 | sl_exact hw)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; iexact H3
    isplitl [HT0]; · iexact HT0
    isplitl [HT1]; · iexact HT1
    isplitl [HT2]; · iexact HT2
    isplitl [HT3]; · iexact HT3
    iexact HT4

end Cert.KernelIdeal.Pipe

end
-- ==== Proof.RunC.lean ====
/-
  The kernel body run once, in the case where the position continues a group and ends it (first flag clear, last flag set).
  On whole staging memrefs holding the input blocks `x0` (the staged column of x), `x1` (one weight block),
  `x2` (one bias block), the output block at `xo`, and the five tables held read-only, the body runs to its
  continuation with the inputs as they were and the output buffer written by the list of pieces `L` the run
  finds; `L` is the witness, and the case's two flag hypotheses decide the body's two conditionals.
-/
import proofs.«419409_j64768106824287_2_alg».proof.Proof.Pipe
import Idealize.ShloMosaic.Lib.Ring

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : ¬flagSet (wordAt c tNew xt3 (k0_off1 i) (Gen.k0_off1_inb i)))
    (hc1 : flagSet (wordAt c tLast xt4 (k0_off1 i) (Gen.k0_off1_inb i)))
    (hw : k0_chk1 (wordAt c tIn xt1 (k0_off2 i) (Gen.k0_off2_inb i))) :
    { L : List (View.Piece (Elt F) S256x512 .f32) //
      ∀ (E : Set ℕ) (K : PUnit → sProp 𝕄),
        iprop(owns (c : Thread nD τ) arg7 fullShare x0 ∗ owns (c : Thread nD τ) arg8 fullShare x1 ∗ owns (c : Thread nD τ) arg9 fullShare x2
            ∗ owns (c : Thread nD τ) arg10 fullShare xo
            ∗ tbHeld c tOrder xt0 ∗ tbHeld c tIn xt1 ∗ tbHeld c tOut xt2 ∗ tbHeld c tNew xt3 ∗ tbHeld c tLast xt4
            ∗ (iprop(owns (c : Thread nD τ) arg7 fullShare x0 ∗ owns (c : Thread nD τ) arg8 fullShare x1 ∗ owns (c : Thread nD τ) arg9 fullShare x2
                ∗ (∃ f, arg10.view.loc (c : Thread nD τ) ↦[arg10.view.set]{fullShare} arg10.view.writes (Elt F) f L)
                ∗ tbHeld c tOrder xt0 ∗ tbHeld c tIn xt1 ∗ tbHeld c tOut xt2 ∗ tbHeld c tNew xt3 ∗ tbHeld c tLast xt4) -∗ K ⟨⟩))
          ⊢ wp frame (wpE (defs₀ (F := F)) Variants.none c none) E
              (cc0__bsl_kernel i tOrder tOrder_whole tIn tIn_whole tOut tOut_whole tNew tNew_whole tLast tLast_whole
                arg7 harg7 arg8 harg8 arg9 harg9 arg10 harg10) K } := by
  refine ⟨?_, fun E K => ?run⟩
  case run =>
    simp only [cc0__bsl_kernel_eq_skeleton]; unfold cc0__bsl_kernel_skel
    unfold owns
    iintro ⟨⟨%f0, %hf0, H0⟩, ⟨%f1, %hf1, H1⟩, ⟨%f2, %hf2, H2⟩, ⟨%f3, %hf3, H3⟩, HT0, HT1, HT2, HT3, HT4, Hk⟩
    obtain rfl := harg7.eq_unread hf0; obtain rfl := harg8.eq_unread hf1
    obtain rfl := harg9.eq_unread hf2; obtain rfl := harg10.eq_unread hf3
    sl_exec (disch := first | sl_exact hc0 | sl_exact hc1 | sl_exact hw)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; iexact H3
    isplitl [HT0]; · iexact HT0
    isplitl [HT1]; · iexact HT1
    isplitl [HT2]; · iexact HT2
    isplitl [HT3]; · iexact HT3
    iexact HT4

end Cert.KernelIdeal.Pipe

end
-- ==== Proof.RunD.lean ====
/-
  The kernel body run once, in the case where the position continues a group and does not end it (both flags clear).
  On whole staging memrefs holding the input blocks `x0` (the staged column of x), `x1` (one weight block),
  `x2` (one bias block), the output block at `xo`, and the five tables held read-only, the body runs to its
  continuation with the inputs as they were and the output buffer written by the list of pieces `L` the run
  finds; `L` is the witness, and the case's two flag hypotheses decide the body's two conditionals.
-/
import proofs.«419409_j64768106824287_2_alg».proof.Proof.Pipe
import Idealize.ShloMosaic.Lib.Ring

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runD (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : ¬flagSet (wordAt c tNew xt3 (k0_off1 i) (Gen.k0_off1_inb i)))
    (hc1 : ¬flagSet (wordAt c tLast xt4 (k0_off1 i) (Gen.k0_off1_inb i)))
    (hw : k0_chk1 (wordAt c tIn xt1 (k0_off2 i) (Gen.k0_off2_inb i))) :
    { L : List (View.Piece (Elt F) S256x512 .f32) //
      ∀ (E : Set ℕ) (K : PUnit → sProp 𝕄),
        iprop(owns (c : Thread nD τ) arg7 fullShare x0 ∗ owns (c : Thread nD τ) arg8 fullShare x1 ∗ owns (c : Thread nD τ) arg9 fullShare x2
            ∗ owns (c : Thread nD τ) arg10 fullShare xo
            ∗ tbHeld c tOrder xt0 ∗ tbHeld c tIn xt1 ∗ tbHeld c tOut xt2 ∗ tbHeld c tNew xt3 ∗ tbHeld c tLast xt4
            ∗ (iprop(owns (c : Thread nD τ) arg7 fullShare x0 ∗ owns (c : Thread nD τ) arg8 fullShare x1 ∗ owns (c : Thread nD τ) arg9 fullShare x2
                ∗ (∃ f, arg10.view.loc (c : Thread nD τ) ↦[arg10.view.set]{fullShare} arg10.view.writes (Elt F) f L)
                ∗ tbHeld c tOrder xt0 ∗ tbHeld c tIn xt1 ∗ tbHeld c tOut xt2 ∗ tbHeld c tNew xt3 ∗ tbHeld c tLast xt4) -∗ K ⟨⟩))
          ⊢ wp frame (wpE (defs₀ (F := F)) Variants.none c none) E
              (cc0__bsl_kernel i tOrder tOrder_whole tIn tIn_whole tOut tOut_whole tNew tNew_whole tLast tLast_whole
                arg7 harg7 arg8 harg8 arg9 harg9 arg10 harg10) K } := by
  refine ⟨?_, fun E K => ?run⟩
  case run =>
    simp only [cc0__bsl_kernel_eq_skeleton]; unfold cc0__bsl_kernel_skel
    unfold owns
    iintro ⟨⟨%f0, %hf0, H0⟩, ⟨%f1, %hf1, H1⟩, ⟨%f2, %hf2, H2⟩, ⟨%f3, %hf3, H3⟩, HT0, HT1, HT2, HT3, HT4, Hk⟩
    obtain rfl := harg7.eq_unread hf0; obtain rfl := harg8.eq_unread hf1
    obtain rfl := harg9.eq_unread hf2; obtain rfl := harg10.eq_unread hf3
    sl_exec (disch := first | sl_exact hc0 | sl_exact hc1 | sl_exact hw)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; iexact H3
    isplitl [HT0]; · iexact HT0
    isplitl [HT1]; · iexact HT1
    isplitl [HT2]; · iexact HT2
    isplitl [HT3]; · iexact HT3
    iexact HT4

end Cert.KernelIdeal.Pipe

end
-- ==== Proof.Data.lean ====
/-
  The proof data of the kernel's pipeline with the output block named point by point, the body
  obligation, the launch, and the frame — at any float instance, under the tables' facts.

  After the body at a grid point the three input windows' buffers hold their blocks, and the output
  window's buffer holds `outsAt`: what the point's case of the body (new group or not, last of group or
  not) computes from the input blocks and from what the point before left.  At a point that does not
  start a group the output's block index is the previous point's (the flag says the two output-block
  words are equal, and the position is not the first of its sweep), so the pipeline wrote nothing back in
  between and the body finds what the point before left.
-/
import proofs.«419409_j64768106824287_2_alg».proof.Proof.Words
import proofs.«419409_j64768106824287_2_alg».proof.Proof.RunA
import proofs.«419409_j64768106824287_2_alg».proof.Proof.RunB
import proofs.«419409_j64768106824287_2_alg».proof.Proof.RunC
import proofs.«419409_j64768106824287_2_alg».proof.Proof.RunD
import Idealize.ShloMosaic.Lib.Pipeline.Frame

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output block -/

/-- The view through which a list of pieces is read back as a block. -/
abbrev VO : View sig .tc .vmem S256x512 .f32 := (Memref.whole cc0_stg3_0 : Memref sig .tc .vmem S256x512 .f32).view
/-- A block nothing constrains. -/
def junkBlock : Vec F S256x512 .f32 := VO.read (Elt F) VO.junk

/-- The pieces case A's run wrote tile the output block, so they cover it. -/
theorem coverA (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : flagSet (wordAt c tNew xt3 (k0_off1 i) (Gen.k0_off1_inb i)))
    (hc1 : flagSet (wordAt c tLast xt4 (k0_off1 i) (Gen.k0_off1_inb i)))
    (hw : k0_chk1 (wordAt c tIn xt1 (k0_off2 i) (Gen.k0_off2_inb i))) (y : S256x512.Idx) :
    ∃ pc ∈ (runA c i arg7 harg7 arg8 harg8 arg9 harg9 arg10 harg10 x0 x1 x2 xo xt0 xt1 xt2 xt3 xt4 hc0 hc1 hw).1, y ∈ pc.1.set :=
  View.cover_of_tiledL (runA c i arg7 harg7 arg8 harg8 arg9 harg9 arg10 harg10 x0 x1 x2 xo xt0 xt1 xt2 xt3 xt4 hc0 hc1 hw).1 S256x512.size (by sl_kernel_rfl) y

/-- What case A leaves in the output block: its pieces read back. -/
def outA (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : flagSet (wordAt c tNew xt3 (k0_off1 i) (Gen.k0_off1_inb i)))
    (hc1 : flagSet (wordAt c tLast xt4 (k0_off1 i) (Gen.k0_off1_inb i)))
    (hw : k0_chk1 (wordAt c tIn xt1 (k0_off2 i) (Gen.k0_off2_inb i))) : Vec F S256x512 .f32 :=
  VO.read (Elt F) (VO.writes (Elt F) VO.junk (runA c i arg7 harg7 arg8 harg8 arg9 harg9 arg10 harg10 x0 x1 x2 xo xt0 xt1 xt2 xt3 xt4 hc0 hc1 hw).1)

/-- The pieces case B's run wrote tile the output block, so they cover it. -/
theorem coverB (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : flagSet (wordAt c tNew xt3 (k0_off1 i) (Gen.k0_off1_inb i)))
    (hc1 : ¬flagSet (wordAt c tLast xt4 (k0_off1 i) (Gen.k0_off1_inb i)))
    (hw : k0_chk1 (wordAt c tIn xt1 (k0_off2 i) (Gen.k0_off2_inb i))) (y : S256x512.Idx) :
    ∃ pc ∈ (runB c i arg7 harg7 arg8 harg8 arg9 harg9 arg10 harg10 x0 x1 x2 xo xt0 xt1 xt2 xt3 xt4 hc0 hc1 hw).1, y ∈ pc.1.set :=
  View.cover_of_tiledL (runB c i arg7 harg7 arg8 harg8 arg9 harg9 arg10 harg10 x0 x1 x2 xo xt0 xt1 xt2 xt3 xt4 hc0 hc1 hw).1 S256x512.size (by sl_kernel_rfl) y

/-- What case B leaves in the output block: its pieces read back. -/
def outB (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : flagSet (wordAt c tNew xt3 (k0_off1 i) (Gen.k0_off1_inb i)))
    (hc1 : ¬flagSet (wordAt c tLast xt4 (k0_off1 i) (Gen.k0_off1_inb i)))
    (hw : k0_chk1 (wordAt c tIn xt1 (k0_off2 i) (Gen.k0_off2_inb i))) : Vec F S256x512 .f32 :=
  VO.read (Elt F) (VO.writes (Elt F) VO.junk (runB c i arg7 harg7 arg8 harg8 arg9 harg9 arg10 harg10 x0 x1 x2 xo xt0 xt1 xt2 xt3 xt4 hc0 hc1 hw).1)

/-- The pieces case C's run wrote tile the output block, so they cover it. -/
theorem coverC (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : ¬flagSet (wordAt c tNew xt3 (k0_off1 i) (Gen.k0_off1_inb i)))
    (hc1 : flagSet (wordAt c tLast xt4 (k0_off1 i) (Gen.k0_off1_inb i)))
    (hw : k0_chk1 (wordAt c tIn xt1 (k0_off2 i) (Gen.k0_off2_inb i))) (y : S256x512.Idx) :
    ∃ pc ∈ (runC c i arg7 harg7 arg8 harg8 arg9 harg9 arg10 harg10 x0 x1 x2 xo xt0 xt1 xt2 xt3 xt4 hc0 hc1 hw).1, y ∈ pc.1.set :=
  View.cover_of_tiledL (runC c i arg7 harg7 arg8 harg8 arg9 harg9 arg10 harg10 x0 x1 x2 xo xt0 xt1 xt2 xt3 xt4 hc0 hc1 hw).1 S256x512.size (by sl_kernel_rfl) y

/-- What case C leaves in the output block: its pieces read back. -/
def outC (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : ¬flagSet (wordAt c tNew xt3 (k0_off1 i) (Gen.k0_off1_inb i)))
    (hc1 : flagSet (wordAt c tLast xt4 (k0_off1 i) (Gen.k0_off1_inb i)))
    (hw : k0_chk1 (wordAt c tIn xt1 (k0_off2 i) (Gen.k0_off2_inb i))) : Vec F S256x512 .f32 :=
  VO.read (Elt F) (VO.writes (Elt F) VO.junk (runC c i arg7 harg7 arg8 harg8 arg9 harg9 arg10 harg10 x0 x1 x2 xo xt0 xt1 xt2 xt3 xt4 hc0 hc1 hw).1)

/-- The pieces case D's run wrote tile the output block, so they cover it. -/
theorem coverD (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : ¬flagSet (wordAt c tNew xt3 (k0_off1 i) (Gen.k0_off1_inb i)))
    (hc1 : ¬flagSet (wordAt c tLast xt4 (k0_off1 i) (Gen.k0_off1_inb i)))
    (hw : k0_chk1 (wordAt c tIn xt1 (k0_off2 i) (Gen.k0_off2_inb i))) (y : S256x512.Idx) :
    ∃ pc ∈ (runD c i arg7 harg7 arg8 harg8 arg9 harg9 arg10 harg10 x0 x1 x2 xo xt0 xt1 xt2 xt3 xt4 hc0 hc1 hw).1, y ∈ pc.1.set :=
  View.cover_of_tiledL (runD c i arg7 harg7 arg8 harg8 arg9 harg9 arg10 harg10 x0 x1 x2 xo xt0 xt1 xt2 xt3 xt4 hc0 hc1 hw).1 S256x512.size (by sl_kernel_rfl) y

/-- What case D leaves in the output block: its pieces read back. -/
def outD (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : ¬flagSet (wordAt c tNew xt3 (k0_off1 i) (Gen.k0_off1_inb i)))
    (hc1 : ¬flagSet (wordAt c tLast xt4 (k0_off1 i) (Gen.k0_off1_inb i)))
    (hw : k0_chk1 (wordAt c tIn xt1 (k0_off2 i) (Gen.k0_off2_inb i))) : Vec F S256x512 .f32 :=
  VO.read (Elt F) (VO.writes (Elt F) VO.junk (runD c i arg7 harg7 arg8 harg8 arg9 harg9 arg10 harg10 x0 x1 x2 xo xt0 xt1 xt2 xt3 xt4 hc0 hc1 hw).1)

/-! ## The grid's two coordinates as quotient and remainder -/

theorem coords_pos : ∀ t : Fin grid0.N, (pos (grid0.coords t)).val = t.val % 883 := by
  intro t; show t.val / grid0.stride 1 % grid0.bound 1 = _
  have : grid0.stride 1 = 1 := by decide
  have hb : grid0.bound 1 = 883 := rfl
  rw [this, hb, Nat.div_one]
theorem coords_tile : ∀ t : Fin grid0.N, (tile (grid0.coords t)).val = t.val / 883 := by
  intro t; show t.val / grid0.stride 0 % grid0.bound 0 = _
  have : grid0.stride 0 = 883 := by decide
  have hb : grid0.bound 0 = 2 := rfl
  have hN : t.val < 1766 := lt_of_lt_of_eq t.isLt N_0
  rw [this, hb]; omega

variable (m : (ℓ : Loc nD τ sig) → Buf (Elt F) ℓ) (ρ : Dev nD → PrngReg) (hT : TableFacts m)

/-- The pipeline's side condition and the body's assumed one, from the tables' facts. -/
abbrev okT : Ok m := ok_of_facts m hT
abbrev hyT : Hyps m (okT m hT) := hyps_of_facts m hT (okT m hT)

local notation "cfgT" => cfgM m (okT m hT)

/-! ## What the output block holds after each point -/

/-- One point's step: the case the two flag words select, run at the point's staging memrefs, input blocks
    and tables.  A position that starts a group overwrites the output block with zeros first, so its step does
    not use what the buffer held (`junkBlock` stands for it); a position that continues a group adds to `xo`,
    what the buffer held before. -/
def stepOut (c : Dev nD) (t : Fin (cfgT).N) (xo : Vec F S256x512 .f32) : Vec F S256x512 .f32 :=
  if h0 : flagSet (wNew m c (grid0.coords t)) then
    if h1 : flagSet (wLast m c (grid0.coords t)) then
      outA c (grid0.coords t) (sx m (okT m hT) t) (sx_whole m (okT m hT) t) (sw m (okT m hT) t) (sw_whole m (okT m hT) t)
        (sb m (okT m hT) t) (sb_whole m (okT m hT) t) (so m (okT m hT) t) (so_whole m (okT m hT) t)
        (iblk m (okT m hT) c 0 t) (iblk m (okT m hT) c 1 t) (iblk m (okT m hT) c 2 t) junkBlock
        (tbl m 0) (tbl m 1) (tbl m 2) (tbl m 3) (tbl m 4) h0 h1 (hyT m hT c t)
    else
      outB c (grid0.coords t) (sx m (okT m hT) t) (sx_whole m (okT m hT) t) (sw m (okT m hT) t) (sw_whole m (okT m hT) t)
        (sb m (okT m hT) t) (sb_whole m (okT m hT) t) (so m (okT m hT) t) (so_whole m (okT m hT) t)
        (iblk m (okT m hT) c 0 t) (iblk m (okT m hT) c 1 t) (iblk m (okT m hT) c 2 t) junkBlock
        (tbl m 0) (tbl m 1) (tbl m 2) (tbl m 3) (tbl m 4) h0 h1 (hyT m hT c t)
  else
    if h1 : flagSet (wLast m c (grid0.coords t)) then
      outC c (grid0.coords t) (sx m (okT m hT) t) (sx_whole m (okT m hT) t) (sw m (okT m hT) t) (sw_whole m (okT m hT) t)
        (sb m (okT m hT) t) (sb_whole m (okT m hT) t) (so m (okT m hT) t) (so_whole m (okT m hT) t)
        (iblk m (okT m hT) c 0 t) (iblk m (okT m hT) c 1 t) (iblk m (okT m hT) c 2 t) xo
        (tbl m 0) (tbl m 1) (tbl m 2) (tbl m 3) (tbl m 4) h0 h1 (hyT m hT c t)
    else
      outD c (grid0.coords t) (sx m (okT m hT) t) (sx_whole m (okT m hT) t) (sw m (okT m hT) t) (sw_whole m (okT m hT) t)
        (sb m (okT m hT) t) (sb_whole m (okT m hT) t) (so m (okT m hT) t) (so_whole m (okT m hT) t)
        (iblk m (okT m hT) c 0 t) (iblk m (okT m hT) c 1 t) (iblk m (okT m hT) c 2 t) xo
        (tbl m 0) (tbl m 1) (tbl m 2) (tbl m 3) (tbl m 4) h0 h1 (hyT m hT c t)

/-- THE ACCUMULATION: what the output window's staging buffer holds after the body at position `n` of the
    grid: the point's step over what position `n - 1` left (at the first position over contents nothing
    constrains: that position starts a group and its step overwrites them). -/
def outsAt (c : Dev nD) : (n : ℕ) → n < (cfgT).N → Vec F S256x512 .f32
  | 0, hn => stepOut m hT c ⟨0, hn⟩ junkBlock
  | n + 1, hn => stepOut m hT c ⟨n + 1, hn⟩ (outsAt c n (Nat.lt_of_succ_lt hn))

theorem outsAt_pos (c : Dev nD) (t : Fin (cfgT).N) (ht : t.val ≠ 0) :
    outsAt m hT c t.val t.isLt = stepOut m hT c t (outsAt m hT c (t.val - 1) (Nat.lt_of_le_of_lt (Nat.sub_le _ _) t.isLt)) := by
  obtain ⟨n, hn⟩ := t
  cases n with
  | zero => exact absurd rfl ht
  | succ n => rfl

/-! ## The proof data -/

/-- The arrays as the region finds them; after the body each input's buffer at its block and the output's at
    `outsAt`; the invariant the scoped rest, the generator register and the region's share of the tables;
    nothing owed; full shares. -/
def dats (_ : Fin 1) (c : Dev nD) : Dat τ (Elt F) Unit ℕ (UR sig nD τ) ℕ (cfgT) c where
  A w := V m c (Pipeline.arrRef spec0 w)
  after w t := match w with
    | ⟨0, _⟩ => iblk m (okT m hT) c 0 t
    | ⟨1, _⟩ => iblk m (okT m hT) c 1 t
    | ⟨2, _⟩ => iblk m (okT m hT) c 2 t
    | ⟨3, _⟩ => outsAt m hT c t.val t.isLt
  Φ _ := iprop(Pipeline.ΦA spec0 c ∗ Pipeline.ΦT pre0 (tbl m) c)
  q _ := fullShare
  owed _ := 0

theorem A_eq (c : Dev nD) (w : Fin (cfgT).W) : (dats m hT 0 c).A w = V m c (Pipeline.arrRef spec0 w) := by
  dsimp only [dats]

theorem after_x (c : Dev nD) (t : Fin (cfgT).N) : (dats m hT 0 c).after 0 t = iblk m (okT m hT) c 0 t := by dsimp only [dats]; try rfl
theorem after_w (c : Dev nD) (t : Fin (cfgT).N) : (dats m hT 0 c).after 1 t = iblk m (okT m hT) c 1 t := by dsimp only [dats]; try rfl
theorem after_bias (c : Dev nD) (t : Fin (cfgT).N) : (dats m hT 0 c).after 2 t = iblk m (okT m hT) c 2 t := by dsimp only [dats]; try rfl
theorem after_out (c : Dev nD) (t : Fin (cfgT).N) : (dats m hT 0 c).after 3 t = outsAt m hT c t.val t.isLt := by dsimp only [dats]; try rfl

theorem found_x (c : Dev nD) (t : Fin (cfgT).N) (d) : (dats m hT 0 c).before 0 t d = iblk m (okT m hT) c 0 t :=
  before_x m (okT m hT) (dats m hT 0 c) (A_eq m hT c 0) (after_x m hT c) t d
theorem found_w (c : Dev nD) (t : Fin (cfgT).N) (d) : (dats m hT 0 c).before 1 t d = iblk m (okT m hT) c 1 t :=
  before_w m (okT m hT) (dats m hT 0 c) (A_eq m hT c 1) (after_w m hT c) t d
theorem found_bias (c : Dev nD) (t : Fin (cfgT).N) (d) : (dats m hT 0 c).before 2 t d = iblk m (okT m hT) c 2 t :=
  before_bias m (okT m hT) (dats m hT 0 c) (A_eq m hT c 2) (after_bias m hT c) t d

/-- A point that does not start a group is not the first of its sweep, and its output-block word is the
    previous position's. -/
theorem not_new (c : Dev nD) (t : Fin (cfgT).N) (h0 : ¬flagSet (wNew m c (grid0.coords t))) :
    t.val % 883 ≠ 0 ∧ ∀ h : 0 < (pos (grid0.coords t)).val,
      outAt m (pos (grid0.coords t)) = outAt m ⟨(pos (grid0.coords t)).val - 1, Nat.lt_of_le_of_lt (Nat.sub_le _ _) (pos (grid0.coords t)).isLt⟩ := by
  rw [wNew_eq, flagSet_iff, hT.new_iff] at h0
  push_neg at h0
  refine ⟨fun h => h0.1 ((coords_pos t).trans h), fun h => h0.2 h⟩

/-- At a point that does not start a group the output window's buffer holds what the point before left: the
    window's block index is the previous point's, so nothing was written back in between. -/
theorem found_out (c : Dev nD) (t : Fin (cfgT).N) (h0 : ¬flagSet (wNew m c (grid0.coords t))) (d) :
    (dats m hT 0 c).before 3 t d = outsAt m hT c (t.val - 1) (Nat.lt_of_le_of_lt (Nat.sub_le _ _) t.isLt) := by
  obtain ⟨hmod, heq⟩ := not_new m hT c t h0
  have ht : t.val ≠ 0 := fun h => hmod (by rw [h])
  have hN : t.val < 1766 := lt_of_lt_of_eq t.isLt N_0
  -- the output window's block index at a point, with the tables a variable
  have hidx : ∀ (a : (pcfg0 (F := F)).Adm) (s : Fin (cfg0 a).N),
      ((cfg0 a).win 3).index s = cc0_transform_3 Gen.k0_off1_inb Gen.numel1_S1 a.1 (grid0.coords s) := fun _ _ => rfl
  have hfl : ((cfgT).win 3).flush ⟨t.val - 1, Nat.lt_of_le_of_lt (Nat.sub_le _ _) t.isLt⟩ = false := by
    refine Bool.eq_false_iff.mpr fun hf => ?_
    simp only [Pipeline.Window.flush, Bool.and_eq_true, Bool.or_eq_true, decide_eq_true_eq] at hf
    rcases hf.2 with hlast | ⟨hlt, hne⟩
    · have hlast' : t.val - 1 + 1 = 1766 := hlast.trans N_0
      omega
    · apply hne
      have e : (⟨t.val - 1 + 1, hlt⟩ : Fin (cfgT).N) = t := Fin.ext (by show t.val - 1 + 1 = t.val; omega)
      rw [e, hidx (adm m (okT m hT)) t, hidx (adm m (okT m hT)) ⟨t.val - 1, _⟩]
      show cc0_transform_3 Gen.k0_off1_inb Gen.numel1_S1 (tbl m) (grid0.coords t)
        = cc0_transform_3 Gen.k0_off1_inb Gen.numel1_S1 (tbl m) (grid0.coords ⟨t.val - 1, _⟩)
      rw [index_out, index_out]
      have hp : (pos (grid0.coords t)).val = t.val % 883 := coords_pos t
      have hp' : (pos (grid0.coords (⟨t.val - 1, Nat.lt_of_le_of_lt (Nat.sub_le _ _) t.isLt⟩ : Fin grid0.N))).val = (t.val - 1) % 883 := coords_pos _
      have ht1 : (tile (grid0.coords t)).val = t.val / 883 := coords_tile t
      have ht1' : (tile (grid0.coords (⟨t.val - 1, Nat.lt_of_le_of_lt (Nat.sub_le _ _) t.isLt⟩ : Fin grid0.N))).val = (t.val - 1) / 883 := coords_tile _
      have hpos : 0 < (pos (grid0.coords t)).val := by omega
      have e2 : pos (grid0.coords (⟨t.val - 1, Nat.lt_of_le_of_lt (Nat.sub_le _ _) t.isLt⟩ : Fin grid0.N))
          = ⟨(pos (grid0.coords t)).val - 1, Nat.lt_of_le_of_lt (Nat.sub_le _ _) (pos (grid0.coords t)).isLt⟩ := Fin.ext (by
        show (pos (grid0.coords (⟨t.val - 1, _⟩ : Fin grid0.N))).val = (pos (grid0.coords t)).val - 1
        omega)
      have e3 : (tile (grid0.coords (⟨t.val - 1, Nat.lt_of_le_of_lt (Nat.sub_le _ _) t.isLt⟩ : Fin grid0.N))).val = (tile (grid0.coords t)).val := by omega
      rw [e2, ← heq hpos, e3]
  rw [Dat.before_out_kept _ 3 rfl t ht hfl (fun _ => rfl) (fun _ _ => rfl)]
  exact after_out m hT c _

/-! ## The body obligation, at a generic point -/

/-- What the body is called with at point `t`, the windows one by one, -/
def bodyPre (c : Dev nD) (t : Fin (cfgT).N) : sProp 𝕄 :=
  iprop((dats m hT 0 c).Φ t.castSucc ∗ (dats m hT 0 c).owesAt () t.castSucc
    ∗ (∃ d, owns (c : Thread nD τ) (sx m (okT m hT) t) fullShare ((dats m hT 0 c).before 0 t d))
    ∗ (∃ d, owns (c : Thread nD τ) (sw m (okT m hT) t) fullShare ((dats m hT 0 c).before 1 t d))
    ∗ (∃ d, owns (c : Thread nD τ) (sb m (okT m hT) t) fullShare ((dats m hT 0 c).before 2 t d))
    ∗ (∃ d, owns (c : Thread nD τ) (so m (okT m hT) t) fullShare ((dats m hT 0 c).before 3 t d)))

/-- and what it returns. -/
def bodyPost (c : Dev nD) (t : Fin (cfgT).N) : sProp 𝕄 :=
  iprop((dats m hT 0 c).Φ t.succ ∗ (dats m hT 0 c).owesAt () t.succ
    ∗ owns (c : Thread nD τ) (sx m (okT m hT) t) fullShare ((dats m hT 0 c).after 0 t)
    ∗ owns (c : Thread nD τ) (sw m (okT m hT) t) fullShare ((dats m hT 0 c).after 1 t)
    ∗ owns (c : Thread nD τ) (sb m (okT m hT) t) fullShare ((dats m hT 0 c).after 2 t)
    ∗ owns (c : Thread nD τ) (so m (okT m hT) t) fullShare ((dats m hT 0 c).after 3 t))

/-- `outsAt` at any point is the point's step over what the point before left (at the first point, over anything). -/
theorem outsAt_eq (c : Dev nD) (t : Fin (cfgT).N) :
    outsAt m hT c t.val t.isLt = stepOut m hT c t
      (if h : t.val = 0 then junkBlock else outsAt m hT c (t.val - 1) (Nat.lt_of_le_of_lt (Nat.sub_le _ _) t.isLt)) := by
  obtain ⟨n, hn⟩ := t
  cases n with
  | zero => rfl
  | succ n => rfl

set_option maxHeartbeats 1600000 in
/-- The body at any point: the inputs' buffers hold their blocks; the two flag words say which case the point
    is in; at a point that continues a group the output buffer holds what the point before left; so the case's
    run applies, and the pieces it wrote, which cover the block, read back as `outsAt`. -/
theorem sound_body (c : Dev nD) (t : Fin (cfgT).N) :
    bodyPre m hT c t ⊢ wp frame (wpE (defs₀ (F := F)) Variants.none c none) Set.univ (bodyAt m (okT m hT) t) (fun _ => bodyPost m hT c t) := by
  unfold bodyPre bodyPost bodyAt
  simp only [found_x, found_w, found_bias]
  rw [show (dats m hT 0 c).Φ t.succ = (dats m hT 0 c).Φ t.castSucc from rfl,
    show (dats m hT 0 c).owesAt () t.succ = (dats m hT 0 c).owesAt () t.castSucc from rfl,
    after_x, after_w, after_bias, after_out, outsAt_eq]
  rw [show (dats m hT 0 c).Φ t.castSucc = iprop(Pipeline.ΦA spec0 c ∗ Pipeline.ΦT pre0 (tbl m) c) from rfl, tables_eq]
  unfold stepOut
  by_cases h0 : flagSet (wNew m c (grid0.coords t))
  · by_cases h1 : flagSet (wLast m c (grid0.coords t))
    · rw [dif_pos h0, dif_pos h1]; unfold outA
      iintro ⟨⟨HΦ, ⟨HT0, HT1, HT2, HT3, HT4⟩⟩, Ho, ⟨%d0, H0⟩, ⟨%d1, H1⟩, ⟨%d2, H2⟩, ⟨%d3, H3⟩⟩
      iapply ((runA c (grid0.coords t) _ _ _ _ _ _ _ _ (iblk m (okT m hT) c 0 t) (iblk m (okT m hT) c 1 t) (iblk m (okT m hT) c 2 t) _
        (tbl m 0) (tbl m 1) (tbl m 2) (tbl m 3) (tbl m 4) h0 h1 (hyT m hT c t)).2 Set.univ _)
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [HT3]; · iexact HT3
      isplitl [HT4]; · iexact HT4
      iintro ⟨H0, H1, H2, ⟨%e3, H3⟩, HT0, HT1, HT2, HT3, HT4⟩
      isplitl [HΦ HT0 HT1 HT2 HT3 HT4]
      · isplitl [HΦ]
        · iexact HΦ
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      unfold owns; iexists _; isplitr
      swap; · iexact H3
      ipureintro
      refine (View.read_writes_of_cover _ _ VO VO.junk _ (coverA c _ _ _ _ _ _ _ _ _ _ _ _ _ _ _ _ _ _ _ _ _)).trans ?_
      rfl
    · rw [dif_pos h0, dif_neg h1]; unfold outB
      iintro ⟨⟨HΦ, ⟨HT0, HT1, HT2, HT3, HT4⟩⟩, Ho, ⟨%d0, H0⟩, ⟨%d1, H1⟩, ⟨%d2, H2⟩, ⟨%d3, H3⟩⟩
      iapply ((runB c (grid0.coords t) _ _ _ _ _ _ _ _ (iblk m (okT m hT) c 0 t) (iblk m (okT m hT) c 1 t) (iblk m (okT m hT) c 2 t) _
        (tbl m 0) (tbl m 1) (tbl m 2) (tbl m 3) (tbl m 4) h0 h1 (hyT m hT c t)).2 Set.univ _)
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [HT3]; · iexact HT3
      isplitl [HT4]; · iexact HT4
      iintro ⟨H0, H1, H2, ⟨%e3, H3⟩, HT0, HT1, HT2, HT3, HT4⟩
      isplitl [HΦ HT0 HT1 HT2 HT3 HT4]
      · isplitl [HΦ]
        · iexact HΦ
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      unfold owns; iexists _; isplitr
      swap; · iexact H3
      ipureintro
      refine (View.read_writes_of_cover _ _ VO VO.junk _ (coverB c _ _ _ _ _ _ _ _ _ _ _ _ _ _ _ _ _ _ _ _ _)).trans ?_
      rfl
  · have ht : t.val ≠ 0 := fun h => (not_new m hT c t h0).1 (by rw [h])
    simp only [found_out m hT c t h0]
    rw [dif_neg ht]
    by_cases h1 : flagSet (wLast m c (grid0.coords t))
    · rw [dif_neg h0, dif_pos h1]; unfold outC
      iintro ⟨⟨HΦ, ⟨HT0, HT1, HT2, HT3, HT4⟩⟩, Ho, ⟨%d0, H0⟩, ⟨%d1, H1⟩, ⟨%d2, H2⟩, ⟨%d3, H3⟩⟩
      iapply ((runC c (grid0.coords t) _ _ _ _ _ _ _ _ (iblk m (okT m hT) c 0 t) (iblk m (okT m hT) c 1 t) (iblk m (okT m hT) c 2 t) _
        (tbl m 0) (tbl m 1) (tbl m 2) (tbl m 3) (tbl m 4) h0 h1 (hyT m hT c t)).2 Set.univ _)
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [HT3]; · iexact HT3
      isplitl [HT4]; · iexact HT4
      iintro ⟨H0, H1, H2, ⟨%e3, H3⟩, HT0, HT1, HT2, HT3, HT4⟩
      isplitl [HΦ HT0 HT1 HT2 HT3 HT4]
      · isplitl [HΦ]
        · iexact HΦ
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      unfold owns; iexists _; isplitr
      swap; · iexact H3
      ipureintro
      exact View.read_writes_of_cover _ _ _ _ _ (coverC c _ _ _ _ _ _ _ _ _ _ _ _ _ _ _ _ _ _ _ _ _)
    · rw [dif_neg h0, dif_neg h1]; unfold outD
      iintro ⟨⟨HΦ, ⟨HT0, HT1, HT2, HT3, HT4⟩⟩, Ho, ⟨%d0, H0⟩, ⟨%d1, H1⟩, ⟨%d2, H2⟩, ⟨%d3, H3⟩⟩
      iapply ((runD c (grid0.coords t) _ _ _ _ _ _ _ _ (iblk m (okT m hT) c 0 t) (iblk m (okT m hT) c 1 t) (iblk m (okT m hT) c 2 t) _
        (tbl m 0) (tbl m 1) (tbl m 2) (tbl m 3) (tbl m 4) h0 h1 (hyT m hT c t)).2 Set.univ _)
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [HT3]; · iexact HT3
      isplitl [HT4]; · iexact HT4
      iintro ⟨H0, H1, H2, ⟨%e3, H3⟩, HT0, HT1, HT2, HT3, HT4⟩
      isplitl [HΦ HT0 HT1 HT2 HT3 HT4]
      · isplitl [HΦ]
        · iexact HΦ
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      unfold owns; iexists _; isplitr
      swap; · iexact H3
      ipureintro
      exact View.read_writes_of_cover _ _ _ _ _ (coverD c _ _ _ _ _ _ _ _ _ _ _ _ _ _ _ _ _ _ _ _ _)

/-- The library's body obligation, at every point. -/
theorem body_obligation (c : Dev nD) : BodyObligation (dats (F := F) m hT 0 c) (defs₀ (F := F)) Variants.none () Set.univ := fun t => by
  rw [bigSep_W0, bigSep_W0]
  exact sound_body m hT c t

/-! ## The run and the frame -/

set_option backward.isDefEq.respectTransparency.types false in
/-- From any memory with zero counters every weakly fair execution of @main terminates, and in every final
    state each array of the pipeline holds what the write-backs of the proof data leave there and every other
    unscoped buffer what it held when the region started. -/
theorem run_main : θ_run defs (onTc (τ := τ) (main (F := F))) (s₀ m ρ)
    (Pipeline.FramePost (Pipeline.pin pcfgs fun _ => adm m (okT m hT)) (dats m hT) 0 (V m)) :=
  Pipeline.θ_run_frameP pcfgs (fun _ => adm m (okT m hT)) (dats m hT) (0 : Fin 1) launch0 defs₀ Variants.none m ρ main
    (hbody := fun c => (body_obligation m hT c).loose) (hshare := fun c => (dats m hT 0 c).share_full fun _ => rfl)
    (howed := fun _ _ => rfl) (V := V m) (hmain := hmain m Variants.none) (hA := A_eq m hT) (hpf := V_tbl m) (hΦ := fun _ _ => rfl)

end Cert.KernelIdeal.Pipe

end
-- ==== Proof.Pieces.lean ====
/-
  What each case of the body leaves in the output block, entry by entry, at the ideal instance.

  With `g` the input block the position's table word names, the body slices rows g·256 … g·256+255 of the
  staged column of x, multiplies the weight block by them into a zero accumulator (at the ideal instance the
  exact sum over the 256 inner indices; the two changes of float format are the identity), adds the product
  to the output block — the zero block at a position that starts a group, else what the block held — and at
  a position that ends a group adds the bias column, broadcast along the batch.
-/
import proofs.«419409_j64768106824287_2_alg».proof.Proof.Data
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Pipe

open Cert.KernelIdeal Cert.KernelIdeal.Gen
open Idealize.ShloMosaic Idealize.ShloMosaic.TcCoe Idealize.ShloMosaic.ValueIdx
open Idealize.SL Idealize.SL.Sem

/-- Row `i` of input block `g` among the 32768 rows of the staged column of x. -/
def srow (g : Fin 128) (i : Fin 256) : Fin 32768 := ⟨g.val * 256 + i.val, by have := g.isLt; have := i.isLt; omega⟩

/-- One weight block times one input block of the staged column, at row `r` and batch column `b` of the tile. -/
def blockProd (x0 : Vec Ideal S32768x512 .bf16) (x1 : Vec Ideal S1x256x256 .f32) (g : Fin 128) (r : Fin 256) (b : Fin 512) : EReal :=
  ∑ l : Fin 256, (x1 (ix3 (0 : Fin 1) r l) : EReal) * (x0 (ix2 (srow g l) b) : EReal)

/-! ## The block product's dot: its operand indices at an output index, axis by axis -/

theorem lhs_dot_0 (j : S256x512.Idx) (q : dot_S256x256_S256x512_S256x512_1_0_0_1_n_n.contr.Idx) :
    (dot_S256x256_S256x512_S256x512_1_0_0_1_n_n.lhsIdx j q 0).val = (j 0).val := by
  unfold DotDims.lhsIdx
  rw [dif_neg (show ¬(0 : Fin S256x256.rank) ∈ dot_S256x256_S256x512_S256x512_1_0_0_1_n_n.lhsBatch by decide),
    dif_pos (show (0 : Fin S256x256.rank) ∈ dot_S256x256_S256x512_S256x512_1_0_0_1_n_n.lhsNonContracting by decide)]
  rfl
theorem lhs_dot_1 (j : S256x512.Idx) (q : dot_S256x256_S256x512_S256x512_1_0_0_1_n_n.contr.Idx) :
    (dot_S256x256_S256x512_S256x512_1_0_0_1_n_n.lhsIdx j q 1).val = (q ⟨0, by decide⟩).val :=
  dot_S256x256_S256x512_S256x512_1_0_0_1_n_n.lhsIdx_val_of_single rfl j q
theorem rhs_dot_0 (j : S256x512.Idx) (q : dot_S256x256_S256x512_S256x512_1_0_0_1_n_n.contr.Idx) :
    (dot_S256x256_S256x512_S256x512_1_0_0_1_n_n.rhsIdx j q 0).val = (q ⟨0, by decide⟩).val :=
  dot_S256x256_S256x512_S256x512_1_0_0_1_n_n.rhsIdx_val_of_single rfl j q
theorem rhs_dot_1 (j : S256x512.Idx) (q : dot_S256x256_S256x512_S256x512_1_0_0_1_n_n.contr.Idx) :
    (dot_S256x256_S256x512_S256x512_1_0_0_1_n_n.rhsIdx j q 1).val = (j 1).val := by
  unfold DotDims.rhsIdx
  rw [dif_neg (show ¬(1 : Fin S256x512.rank) ∈ dot_S256x256_S256x512_S256x512_1_0_0_1_n_n.rhsBatch by decide),
    dif_pos (show (1 : Fin S256x512.rank) ∈ dot_S256x256_S256x512_S256x512_1_0_0_1_n_n.rhsNonContracting by decide)]
  rfl

/-! ## The three payloads at an entry -/

/-- The zero fill is zero everywhere. -/
theorem pay1_apply (r : Fin 256) (b : Fin 512) : (k0_pay1 (F := Ideal) (ix2 r b) : EReal) = 0 :=
  Ideal.ofBits_zero_f32

/-- The accumulation: what the block held plus the weight block times the loaded rows. -/
theorem pay2_apply (v13 : Vec Ideal S256x512 .bf16) (v15 : Vec Ideal S1x256x256 .f32) (v19 : Vec Ideal S256x512 .f32)
    (r : Fin 256) (b : Fin 512) :
    (k0_pay2 v13 v15 v19 (ix2 r b) : EReal)
      = v19 (ix2 r b) + ∑ l : Fin 256, (v15 (ix3 (0 : Fin 1) r l) : EReal) * (v13 (ix2 l b) : EReal) := by
  unfold k0_pay2
  refine (addf_apply _ _ _).trans ?_
  refine congrArg₂ (· + ·) (congrFun (shapeCast_self v19 _) _) ?_
  refine (Ideal.matmul_constant_zero_apply dot_S256x256_S256x512_S256x512_1_0_0_1_n_n none _ _ _).trans ?_
  refine (Equiv.sum_comp (contrEquiv1 dot_S256x256_S256x512_S256x512_1_0_0_1_n_n 256 rfl rfl).symm _).symm.trans ?_
  refine Finset.sum_congr rfl fun l _ => ?_
  have hk := contrEquiv1_symm_val dot_S256x256_S256x512_S256x512_1_0_0_1_n_n 256 rfl rfl l
  have el : dot_S256x256_S256x512_S256x512_1_0_0_1_n_n.lhsIdx (ix2 r b)
      ((contrEquiv1 dot_S256x256_S256x512_S256x512_1_0_0_1_n_n 256 rfl rfl).symm l) = ix2 r l := funext fun a => Fin.ext (by
    match a with
    | ⟨0, _⟩ => exact lhs_dot_0 _ _
    | ⟨1, _⟩ => exact (lhs_dot_1 _ _).trans hk)
  have er : dot_S256x256_S256x512_S256x512_1_0_0_1_n_n.rhsIdx (ix2 r b)
      ((contrEquiv1 dot_S256x256_S256x512_S256x512_1_0_0_1_n_n 256 rfl rfl).symm l) = ix2 l b := funext fun a => Fin.ext (by
    match a with
    | ⟨0, _⟩ => exact (rhs_dot_0 _ _).trans hk
    | ⟨1, _⟩ => exact rhs_dot_1 _ _)
  refine congrArg₂ (· * ·) ?_ ?_
  · refine (congrArg _ el).trans ?_
    show (shapeCast S256x256 v15 shapeCasts_S1x256x256_S256x256 (ix2 r l) : EReal) = _
    exact shapeCast_apply v15 _ (ix2 r l) (ix3 (0 : Fin 1) r l) (by
      rw [Shape.rowMajor_val_three, Shape.rowMajor_val_two]
      show ((0 : ℕ) * 256 + r.val) * 256 + l.val = r.val * 256 + l.val
      omega)
  · refine (congrArg _ er).trans ?_
    exact congrFun (shapeCast_self v13 _) _

/-- The last step of a group: the accumulated block plus the bias column along the batch. -/
theorem pay3_apply (v25 : Vec Ideal S256x512 .f32) (v27 : Vec Ideal S256x1 .f32) (r : Fin 256) (b : Fin 512) :
    (k0_pay3 v25 v27 (ix2 r b) : EReal) = v25 (ix2 r b) + v27 (ix2 r 0) := by
  unfold k0_pay3
  refine (addf_apply _ _ _).trans ?_
  refine congrArg₂ (· + ·) (congrFun (shapeCast_self v25 _) _) ?_
  exact broadcastTo_apply v27 _ (ix2 r b) (ix2 r 0) (fun a => by
    match a with
    | ⟨0, _⟩ => show r.val = if (256 : ℕ) = 1 then 0 else r.val; rw [if_neg (by decide)]
    | ⟨1, _⟩ => show (0 : ℕ) = if (1 : ℕ) = 1 then 0 else b.val; rw [if_pos rfl])

/-! ## The slice of the staged column the body loads -/

/-- The 256 rows loaded at the offset computed from the table word `v` naming input block `g` are rows
    g·256 … g·256+255 of the staged column. -/
theorem ld_rows (x0 : Vec Ideal S32768x512 .bf16) (v : BitVec 32) (g : Fin 128) (hg : v.toNat = g.val)
    (inb : ∀ a, (k0_off3 v) a + S256x512.size a ≤ S32768x512.size a) (l : Fin 256) (b : Fin 512) :
    View.ld x0 (Rect.unit (s := S32768x512) (k0_off3 v) S256x512.size inb) (ix2 l b) = x0 (ix2 (srow g l) b) := by
  have hmul : (v * 256#32).toNat = g.val * 256 := by
    rw [BitVec.toNat_mul, hg]
    show g.val * 256 % 2 ^ 32 = g.val * 256
    have := g.isLt; omega
  show x0 ((Rect.unit (s := S32768x512) (k0_off3 v) S256x512.size inb).idx (ix2 l b)) = _
  refine congrArg x0 (funext fun a => Fin.ext ?_)
  match a with
  | ⟨0, _⟩ =>
    show (v * 256#32).toNat + 1 * l.val = g.val * 256 + l.val
    rw [hmul, Nat.one_mul]
  | ⟨1, _⟩ =>
    show 0 + 1 * b.val = b.val
    omega

/-! ## A block read back through the whole box after a last store through it -/

/-- A load through the whole box of what stores ending with one through the whole box left reads that last payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-! ## What the run's loads read -/

theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

/-- A whole staging memref holding the block `X`, loaded through its whole box, reads `X`. -/
theorem readAt_whole {S : Shape} {e : EltTy} (m : Memref sig .tc .vmem S e) (h : m.IsWhole) {off : Fin S.rank → Nat}
    (hz : off = fun _ => 0) (inb : ∀ a, off a + S.size a ≤ S.size a) (X : Vec Ideal S e) :
    m.view.readAt (Elt Ideal) (Rect.unit off S.size inb).toLoadRect (h.unread X) = X := by
  rw [View.readAt_eq_ld, h.read_unread, View.ld_unit_zero hz]

/-- The rows the body slices from the staged column, read off the staging memref. -/
theorem rows_eq (arg7 : Memref sig .tc .vmem S32768x512 .bf16) (harg7 : arg7.IsWhole) (x0 : Vec Ideal S32768x512 .bf16)
    (v : BitVec 32) (g : Fin 128) (hg : v.toNat = g.val)
    (inb : ∀ a, (k0_off3 v) a + S256x512.size a ≤ S32768x512.size a) (l : Fin 256) (b : Fin 512) :
    arg7.view.readAt (Elt Ideal) (Rect.unit (s := S32768x512) (k0_off3 v) S256x512.size inb).toLoadRect (harg7.unread x0) (ix2 l b)
      = x0 (ix2 (srow g l) b) := by
  rw [View.readAt_eq_ld, harg7.read_unread]
  exact ld_rows x0 v g hg inb l b

/-- The sum the accumulation adds, over the blocks as loaded, is the block product. -/
theorem prod_eq (arg7 : Memref sig .tc .vmem S32768x512 .bf16) (harg7 : arg7.IsWhole) (arg8 : Memref sig .tc .vmem S1x256x256 .f32) (harg8 : arg8.IsWhole)
    (x0 : Vec Ideal S32768x512 .bf16) (x1 : Vec Ideal S1x256x256 .f32)
    (v : BitVec 32) (g : Fin 128) (hg : v.toNat = g.val)
    (inb : ∀ a, (k0_off3 v) a + S256x512.size a ≤ S32768x512.size a) (r : Fin 256) (b : Fin 512) :
    (∑ l : Fin 256,
      (arg8.view.readAt (Elt Ideal) (Rect.unit (s := S1x256x256) ![0, 0, 0] S1x256x256.size inb_S1x256x256_S1x256x256_0_0_0).toLoadRect (harg8.unread x1) (ix3 (0 : Fin 1) r l) : EReal)
        * (arg7.view.readAt (Elt Ideal) (Rect.unit (s := S32768x512) (k0_off3 v) S256x512.size inb).toLoadRect (harg7.unread x0) (ix2 l b) : EReal))
      = blockProd x0 x1 g r b := by
  unfold blockProd
  refine Finset.sum_congr rfl fun l _ => ?_
  rw [readAt_whole arg8 harg8 zero3, rows_eq arg7 harg7 x0 v g hg inb l b]

theorem outA_apply (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec Ideal S32768x512 .bf16) (x1 : Vec Ideal S1x256x256 .f32) (x2 : Vec Ideal S256x1 .f32) (xo : Vec Ideal S256x512 .f32)
    (xt0 : TbBuf (F := Ideal) c tOrder) (xt1 : TbBuf (F := Ideal) c tIn) (xt2 : TbBuf (F := Ideal) c tOut) (xt3 : TbBuf (F := Ideal) c tNew) (xt4 : TbBuf (F := Ideal) c tLast)
    (hc0 : flagSet (wordAt c tNew xt3 (k0_off1 i) (Gen.k0_off1_inb i)))
    (hc1 : flagSet (wordAt c tLast xt4 (k0_off1 i) (Gen.k0_off1_inb i)))
    (hw : k0_chk1 (wordAt c tIn xt1 (k0_off2 i) (Gen.k0_off2_inb i)))
    (g : Fin 128) (hg : (wordAt c tIn xt1 (k0_off2 i) (Gen.k0_off2_inb i)).toNat = g.val) (r : Fin 256) (b : Fin 512) :
    (outA c i arg7 harg7 arg8 harg8 arg9 harg9 arg10 harg10 x0 x1 x2 xo xt0 xt1 xt2 xt3 xt4 hc0 hc1 hw (ix2 r b) : EReal) = (0 + blockProd x0 x1 g r b) + x2 (ix2 r 0) := by
  unfold outA
  rw [View.read_writes_eq_canon _ _ _ (coverA c i arg7 harg7 arg8 harg8 arg9 harg9 arg10 harg10 x0 x1 x2 xo xt0 xt1 xt2 xt3 xt4 hc0 hc1 hw)]
  unfold runA
  dsimp only
  rw [View.canon_cons_unit_zero (S := S256x512) zero2]
  refine (pay3_apply _ _ r b).trans ?_
  refine congrArg₂ (· + ·) ?_ (congrFun (readAt_whole arg9 harg9 zero2 _ x2) _)
  unfold runA.sl.v25 runA.sl.H3_2
  rw [readCov_cons_unit_zero _ zero2]
  refine (pay2_apply _ _ _ r b).trans ?_
  refine congrArg₂ (· + ·) ?_ (prod_eq arg7 harg7 arg8 harg8 x0 x1 _ g hg _ r b)
  unfold runA.sl.v19 runA.sl.H3_1
  rw [View.readCov_unit_zero (S := S256x512) _ zero2]
  exact pay1_apply r b

theorem outB_apply (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec Ideal S32768x512 .bf16) (x1 : Vec Ideal S1x256x256 .f32) (x2 : Vec Ideal S256x1 .f32) (xo : Vec Ideal S256x512 .f32)
    (xt0 : TbBuf (F := Ideal) c tOrder) (xt1 : TbBuf (F := Ideal) c tIn) (xt2 : TbBuf (F := Ideal) c tOut) (xt3 : TbBuf (F := Ideal) c tNew) (xt4 : TbBuf (F := Ideal) c tLast)
    (hc0 : flagSet (wordAt c tNew xt3 (k0_off1 i) (Gen.k0_off1_inb i)))
    (hc1 : ¬flagSet (wordAt c tLast xt4 (k0_off1 i) (Gen.k0_off1_inb i)))
    (hw : k0_chk1 (wordAt c tIn xt1 (k0_off2 i) (Gen.k0_off2_inb i)))
    (g : Fin 128) (hg : (wordAt c tIn xt1 (k0_off2 i) (Gen.k0_off2_inb i)).toNat = g.val) (r : Fin 256) (b : Fin 512) :
    (outB c i arg7 harg7 arg8 harg8 arg9 harg9 arg10 harg10 x0 x1 x2 xo xt0 xt1 xt2 xt3 xt4 hc0 hc1 hw (ix2 r b) : EReal) = 0 + blockProd x0 x1 g r b := by
  unfold outB
  rw [View.read_writes_eq_canon _ _ _ (coverB c i arg7 harg7 arg8 harg8 arg9 harg9 arg10 harg10 x0 x1 x2 xo xt0 xt1 xt2 xt3 xt4 hc0 hc1 hw)]
  unfold runB
  dsimp only
  rw [View.canon_cons_unit_zero (S := S256x512) zero2]
  refine (pay2_apply _ _ _ r b).trans ?_
  refine congrArg₂ (· + ·) ?_ (prod_eq arg7 harg7 arg8 harg8 x0 x1 _ g hg _ r b)
  unfold runB.sl.v19 runB.sl.H3_1
  rw [View.readCov_unit_zero (S := S256x512) _ zero2]
  exact pay1_apply r b

theorem outC_apply (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec Ideal S32768x512 .bf16) (x1 : Vec Ideal S1x256x256 .f32) (x2 : Vec Ideal S256x1 .f32) (xo : Vec Ideal S256x512 .f32)
    (xt0 : TbBuf (F := Ideal) c tOrder) (xt1 : TbBuf (F := Ideal) c tIn) (xt2 : TbBuf (F := Ideal) c tOut) (xt3 : TbBuf (F := Ideal) c tNew) (xt4 : TbBuf (F := Ideal) c tLast)
    (hc0 : ¬flagSet (wordAt c tNew xt3 (k0_off1 i) (Gen.k0_off1_inb i)))
    (hc1 : flagSet (wordAt c tLast xt4 (k0_off1 i) (Gen.k0_off1_inb i)))
    (hw : k0_chk1 (wordAt c tIn xt1 (k0_off2 i) (Gen.k0_off2_inb i)))
    (g : Fin 128) (hg : (wordAt c tIn xt1 (k0_off2 i) (Gen.k0_off2_inb i)).toNat = g.val) (r : Fin 256) (b : Fin 512) :
    (outC c i arg7 harg7 arg8 harg8 arg9 harg9 arg10 harg10 x0 x1 x2 xo xt0 xt1 xt2 xt3 xt4 hc0 hc1 hw (ix2 r b) : EReal) = (xo (ix2 r b) + blockProd x0 x1 g r b) + x2 (ix2 r 0) := by
  unfold outC
  rw [View.read_writes_eq_canon _ _ _ (coverC c i arg7 harg7 arg8 harg8 arg9 harg9 arg10 harg10 x0 x1 x2 xo xt0 xt1 xt2 xt3 xt4 hc0 hc1 hw)]
  unfold runC
  dsimp only
  rw [View.canon_cons_unit_zero (S := S256x512) zero2]
  refine (pay3_apply _ _ r b).trans ?_
  refine congrArg₂ (· + ·) ?_ (congrFun (readAt_whole arg9 harg9 zero2 _ x2) _)
  unfold runC.sl.v25 runC.sl.H3_1
  rw [View.readCov_unit_zero (S := S256x512) _ zero2]
  refine (pay2_apply _ _ _ r b).trans ?_
  refine congrArg₂ (· + ·) ?_ (prod_eq arg7 harg7 arg8 harg8 x0 x1 _ g hg _ r b)
  exact congrFun (readAt_whole arg10 harg10 zero2 _ xo) _

theorem outD_apply (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec Ideal S32768x512 .bf16) (x1 : Vec Ideal S1x256x256 .f32) (x2 : Vec Ideal S256x1 .f32) (xo : Vec Ideal S256x512 .f32)
    (xt0 : TbBuf (F := Ideal) c tOrder) (xt1 : TbBuf (F := Ideal) c tIn) (xt2 : TbBuf (F := Ideal) c tOut) (xt3 : TbBuf (F := Ideal) c tNew) (xt4 : TbBuf (F := Ideal) c tLast)
    (hc0 : ¬flagSet (wordAt c tNew xt3 (k0_off1 i) (Gen.k0_off1_inb i)))
    (hc1 : ¬flagSet (wordAt c tLast xt4 (k0_off1 i) (Gen.k0_off1_inb i)))
    (hw : k0_chk1 (wordAt c tIn xt1 (k0_off2 i) (Gen.k0_off2_inb i)))
    (g : Fin 128) (hg : (wordAt c tIn xt1 (k0_off2 i) (Gen.k0_off2_inb i)).toNat = g.val) (r : Fin 256) (b : Fin 512) :
    (outD c i arg7 harg7 arg8 harg8 arg9 harg9 arg10 harg10 x0 x1 x2 xo xt0 xt1 xt2 xt3 xt4 hc0 hc1 hw (ix2 r b) : EReal) = xo (ix2 r b) + blockProd x0 x1 g r b := by
  unfold outD
  rw [View.read_writes_eq_canon _ _ _ (coverD c i arg7 harg7 arg8 harg8 arg9 harg9 arg10 harg10 x0 x1 x2 xo xt0 xt1 xt2 xt3 xt4 hc0 hc1 hw)]
  unfold runD
  dsimp only
  rw [View.canon_unit_zero (S := S256x512) zero2]
  refine (pay2_apply _ _ _ r b).trans ?_
  refine congrArg₂ (· + ·) ?_ (prod_eq arg7 harg7 arg8 harg8 x0 x1 _ g hg _ r b)
  exact congrFun (readAt_whole arg10 harg10 zero2 _ xo) _

end Cert.KernelIdeal.Pipe

end
-- ==== Proof.Blocks.lean ====
/-
  The three input windows' blocks at a grid point, entry by entry, in terms of the argument arrays, at
  the ideal instance.

  The staged column of x at batch tile τ is columns τ·512 … τ·512+511 of x (the host's change of float
  format is the identity at the ideal instance); the weight block is the padded block the sort put at the
  position: a real block of the weights when its number is below 819, else a zero block; the bias block is
  rows o·256 … o·256+255 of the bias column, o the position's output block.
-/
import proofs.«419409_j64768106824287_2_alg».proof.Proof.Data
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.Pipe

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (hT : TableFacts m)

/-- The three argument arrays as launched on core `c`, at their literal types. -/
abbrev argX (c : Dev nD) : Vec Ideal S32768x1024 .f32 := m ((c : Thread nD τ).loc main_arg0)
abbrev argW (c : Dev nD) : Vec Ideal S819x256x256 .f32 := m ((c : Thread nD τ).loc main_arg1)
abbrev argB (c : Dev nD) : Vec Ideal S16384x1 .f32 := m ((c : Thread nD τ).loc main_arg2)

/-- Column `b` of batch tile `τ` among the 1024 batch columns. -/
def tcol (τ' : Fin 2) (b : Fin 512) : Fin 1024 := ⟨τ'.val * 512 + b.val, by have := τ'.isLt; have := b.isLt; omega⟩
/-- Row `r` of output block `o` among the 16384 output rows. -/
def brow (o : Fin 64) (r : Fin 256) : Fin 16384 := ⟨o.val * 256 + r.val, by have := o.isLt; have := r.isLt; omega⟩

/-- The position's output block, as an index. -/
def outBlk (n : Fin 883) : Fin 64 := ⟨(outAt m n).toNat, hT.out_lt n⟩
/-- The position's input block, as an index. -/
def inBlk (n : Fin 883) : Fin 128 := ⟨(inAt m n).toNat, hT.in_lt n⟩

/-! ## The arrays the windows read, when the region starts -/

/-- The staged copy of x is x: the host's narrowing of the float format is the identity on extended reals. -/
theorem V_x30 (c : Dev nD) (j : S32768x1024.Idx) : ((V m c main_v30 : Vec Ideal S32768x1024 .bf16) j : EReal) = argX m c j := by
  have h : (V m c main_v30 : Vec Ideal S32768x1024 .bf16)
      = truncf (F := Ideal) (s := S32768x1024) (φ := .f32) .bf16 (argX m c) bitsLt_bf16_f32 := by
    dsimp only [V]
    simp only [hostOps0, hostOps0_1, hostOps0_2, List.flatten_cons, List.flatten_nil, List.append_nil, List.cons_append, List.nil_append]
    after_results
  rw [h]
  rfl

/-- The padded weights: the 819 real blocks, then 64 blocks of the zero word. -/
theorem V_w3 (c : Dev nD) : (V m c main_v3 : Vec Ideal S883x256x256 .f32)
    = concatenate (α := EReal) S883x256x256 0 [⟨S819x256x256, argW m c⟩,
        ⟨S64x256x256, broadcastInDim S64x256x256 ![] bcast_S_S64x256x256 (constant (F := Ideal) S_ .f32 0x00000000#32)⟩]
        concatenates_S819x256x256_S64x256x256_S883x256x256_d0 := by
  dsimp only [V]
  simp only [hostOps0, hostOps0_1, hostOps0_2, List.flatten_cons, List.flatten_nil, List.append_nil, List.cons_append, List.nil_append]
  after_results

/-- The padded weights at block `o`: block `o` of the weights when `o` is below 819, else zero (the padding's word is
    the zero word, which reads 0). -/
theorem padW_apply (W : Vec Ideal S819x256x256 .f32) (o : Fin 883) (r l : Fin 256) :
    concatenate (α := EReal) S883x256x256 0 [⟨S819x256x256, W⟩,
        ⟨S64x256x256, broadcastInDim S64x256x256 ![] bcast_S_S64x256x256 (constant (F := Ideal) S_ .f32 0x00000000#32)⟩]
        concatenates_S819x256x256_S64x256x256_S883x256x256_d0 (ix3 o r l)
      = if h : o.val < 819 then (W (ix3 ⟨o.val, h⟩ r l) : EReal) else 0 := by
  by_cases h : o.val < 819
  · rw [dif_pos h]
    exact concatenate_pair_apply_left (t := S883x256x256) (s₁ := S819x256x256) (s₂ := S64x256x256) _ _ _ _ (ix3 o r l) rfl (ix3 ⟨o.val, h⟩ r l) fun b => by
      match b with
      | ⟨0, _⟩ => rfl
      | ⟨1, _⟩ => rfl
      | ⟨2, _⟩ => rfl
  · rw [dif_neg h]
    have ho := o.isLt
    refine (concatenate_pair_apply_right (t := S883x256x256) (s₁ := S819x256x256) (s₂ := S64x256x256) _ _ _ _ (ix3 o r l) rfl rfl
      (ix3 (⟨o.val - 819, by omega⟩ : Fin 64) r l) (fun b hb => ?_) ?_).trans ?_
    · match b with
      | ⟨0, _⟩ => exact absurd rfl hb
      | ⟨1, _⟩ => rfl
      | ⟨2, _⟩ => rfl
    · show o.val - 819 + 819 = o.val
      omega
    · exact Ideal.ofBits_zero_f32

/-! ## Where a block's entry sits in its array, at any admissible tables

    With the tables a variable: the block index of a table-driven window is a word of the tables, and the
    entry's coordinate on each axis is block index times block extent plus the coordinate in the block. -/

/-- Entry (0, r, l) of the weight block at a point sits at (o, r, l) of the padded weights, `o` the order word. -/
theorem emb_w (pf : pre0.Contents (Elt Ideal)) (hO : ok0 pf) (s : Fin (cfg0 (F := Ideal) ⟨pf, hO⟩).N) (r l : Fin 256) (o : Nat) (ho883 : o < 883)
    (ho : ((pf 0 (ix1 (pos (grid0.coords s))) : BitVec 32)).toNat = o) :
    (((cfg0 (F := Ideal) ⟨pf, hO⟩).win 1).blk s).view.emb (ix3 (0 : Fin 1) r l) = (ix3 (⟨o, ho883⟩ : Fin 883) r l : S883x256x256.Idx) := by
  have hidx : ((cfg0 (F := Ideal) ⟨pf, hO⟩).win 1).index s = cc0_transform_1 Gen.k0_off1_inb Gen.numel1_S1 pf (grid0.coords s) := rfl
  funext d
  apply Fin.ext
  match d with
  | ⟨0, h0⟩ =>
    show ((cfg0 (F := Ideal) ⟨pf, hO⟩).win 1).index s ⟨0, h0⟩ * 1 + 1 * 0 = o
    rw [hidx, index_w_pf]
    show ((pf 0 (ix1 (pos (grid0.coords s))) : BitVec 32)).toNat * 1 + 1 * 0 = o
    omega
  | ⟨1, h1⟩ =>
    show ((cfg0 (F := Ideal) ⟨pf, hO⟩).win 1).index s ⟨1, h1⟩ * 256 + 1 * r.val = r.val
    rw [hidx, index_w_pf]
    show 0 * 256 + 1 * r.val = r.val
    omega
  | ⟨2, h2⟩ =>
    show ((cfg0 (F := Ideal) ⟨pf, hO⟩).win 1).index s ⟨2, h2⟩ * 256 + 1 * l.val = l.val
    rw [hidx, index_w_pf]
    show 0 * 256 + 1 * l.val = l.val
    omega

/-- Entry (r, 0) of the bias block at a point sits at row o·256 + r of the bias column, `o` the output-block word. -/
theorem emb_bias (pf : pre0.Contents (Elt Ideal)) (hO : ok0 pf) (s : Fin (cfg0 (F := Ideal) ⟨pf, hO⟩).N) (r : Fin 256) (o : Nat) (ho64 : o < 64)
    (ho : ((pf 2 (ix1 (pos (grid0.coords s))) : BitVec 32)).toNat = o) :
    (((cfg0 (F := Ideal) ⟨pf, hO⟩).win 2).blk s).view.emb (ix2 r (0 : Fin 1)) = (ix2 (brow ⟨o, ho64⟩ r) (0 : Fin 1) : S16384x1.Idx) := by
  have hidx : ((cfg0 (F := Ideal) ⟨pf, hO⟩).win 2).index s = cc0_transform_2 Gen.k0_off1_inb Gen.numel1_S1 pf (grid0.coords s) := rfl
  funext d
  apply Fin.ext
  match d with
  | ⟨0, h0⟩ =>
    show ((cfg0 (F := Ideal) ⟨pf, hO⟩).win 2).index s ⟨0, h0⟩ * 256 + 1 * r.val = o * 256 + r.val
    rw [hidx, index_bias_pf]
    show ((pf 2 (ix1 (pos (grid0.coords s))) : BitVec 32)).toNat * 256 + 1 * r.val = o * 256 + r.val
    omega
  | ⟨1, h1⟩ =>
    show ((cfg0 (F := Ideal) ⟨pf, hO⟩).win 2).index s ⟨1, h1⟩ * 1 + 1 * 0 = 0
    rw [hidx, index_bias_pf]
    rfl

/-! ## The three blocks, entry by entry -/

theorem iblk_x (c : Dev nD) (t : Fin (cfgM m (okT m hT)).N) (a : Fin 32768) (b : Fin 512) :
    ((iblk m (okT m hT) c 0 t : Vec Ideal S32768x512 .bf16) (ix2 a b) : EReal)
      = (argX m c (ix2 a (tcol (tile (grid0.coords t)) b)) : EReal) := by
  have hidx : ∀ (ad : (pcfg0 (F := Ideal)).Adm) (s : Fin (cfg0 ad).N),
      ((cfg0 ad).win 0).index s = cc0_transform_0 (grid0.coords s) := fun _ _ => rfl
  unfold iblk
  show ((V m c main_v30 : Vec Ideal S32768x1024 .bf16) _ : EReal) = _
  refine (V_x30 m c _).trans (congrArg (argX m c) (funext fun d => Fin.ext ?_))
  match d with
  | ⟨0, h0⟩ =>
    show ((cfgM m (okT m hT)).win 0).index t ⟨0, h0⟩ * 32768 + 1 * a.val = a.val
    rw [hidx (adm m (okT m hT)) t]
    show 0 * 32768 + 1 * a.val = a.val
    omega
  | ⟨1, h1⟩ =>
    show ((cfgM m (okT m hT)).win 0).index t ⟨1, h1⟩ * 512 + 1 * b.val = (tile (grid0.coords t)).val * 512 + b.val
    rw [hidx (adm m (okT m hT)) t]
    show (BitVec.ofNat 32 ((grid0.coords t) 0).val).toNat * 512 + 1 * b.val = ((grid0.coords t) 0).val * 512 + b.val
    rw [toNat_coord0]
    omega

theorem iblk_w (c : Dev nD) (t : Fin (cfgM m (okT m hT)).N) (r l : Fin 256) :
    ((iblk m (okT m hT) c 1 t : Vec Ideal S1x256x256 .f32) (ix3 (0 : Fin 1) r l) : EReal)
      = if h : (orderAt m (pos (grid0.coords t))).toNat < 819 then (argW m c (ix3 ⟨(orderAt m (pos (grid0.coords t))).toNat, h⟩ r l) : EReal) else 0 := by
  have hj := emb_w (tbl m) (okT m hT) t r l (orderAt m (pos (grid0.coords t))).toNat (hT.order_lt _) (by unfold orderAt; rfl)
  unfold iblk
  show ((V m c main_v3 : Vec Ideal S883x256x256 .f32) _ : EReal) = _
  refine (congrArg (V m c main_v3 : Vec Ideal S883x256x256 .f32) hj).trans ?_
  rw [V_w3]
  exact padW_apply (argW m c) ⟨_, hT.order_lt _⟩ r l

theorem iblk_bias (c : Dev nD) (t : Fin (cfgM m (okT m hT)).N) (r : Fin 256) :
    ((iblk m (okT m hT) c 2 t : Vec Ideal S256x1 .f32) (ix2 r (0 : Fin 1)) : EReal)
      = (argB m c (ix2 (brow (outBlk m hT (pos (grid0.coords t))) r) (0 : Fin 1)) : EReal) := by
  have hj := emb_bias (tbl m) (okT m hT) t r (outAt m (pos (grid0.coords t))).toNat (hT.out_lt _) (by unfold outAt; rfl)
  unfold iblk
  show ((V m c main_arg2 : Vec Ideal S16384x1 .f32) _ : EReal) = _
  refine (congrArg (V m c main_arg2 : Vec Ideal S16384x1 .f32) hj).trans ?_
  rw [V_bias]
  rfl

end Cert.KernelIdeal.Pipe

end
-- ==== Proof.Spec.lean ====
/-
  The block-sparse linear map as one function of the argument arrays, and the two pieces of pure
  mathematics that join the kernel's schedule to it.

  Output row `o·256 + r`, batch column `col`:
      y = Σ over blocks n with out(n) = o of  Σ_i W n r i · x (in(n)·256 + i) col,   plus bias (o·256 + r).

  The kernel pads the 819 blocks with 64 all-zero blocks, one aimed at each output block, sorts the
  883 padded blocks by output block, and walks the sorted positions keeping a running sum in the
  output block: reset at the first position of a group, add the position's product, add the bias at
  the group's last position.  Two facts carry that back to the formula above:
  `sum_padded` — summing over sorted positions is summing over padded blocks (the sort is a
  permutation), and a padded block adds zero because its weights are zero;
  `runAcc_last` — over a monotone sequence of output blocks, what the running sum holds at a group's
  last position is the sum over the whole group, plus the bias.
-/
import Mathlib.Data.EReal.Basic
import Mathlib.Algebra.BigOperators.Fin
import Mathlib.Order.Monotone.Basic

noncomputable section

namespace Cert.BlockSparse

open Finset

/-- Row `i` of input block `k` of `x`. -/
def xrow (k : Fin 128) (i : Fin 256) : Fin 32768 := ⟨k.val * 256 + i.val, by have := k.isLt; have := i.isLt; omega⟩
/-- Row `r` of output block `o`. -/
def orow (o : Fin 64) (r : Fin 256) : Fin 16384 := ⟨o.val * 256 + r.val, by have := o.isLt; have := r.isLt; omega⟩

/-- One weight block times one input block, at output-block row `r` and batch column `col`. -/
def contrib (X : Fin 32768 → Fin 1024 → EReal) (Wn : Fin 256 → Fin 256 → EReal) (k : Fin 128) (r : Fin 256) (col : Fin 1024) : EReal :=
  ∑ i : Fin 256, Wn r i * X (xrow k i) col

/-- The block-sparse linear map at output block `o`, row `r` of it, batch column `col`. -/
def blockSparse (X : Fin 32768 → Fin 1024 → EReal) (W : Fin 819 → Fin 256 → Fin 256 → EReal) (B : Fin 16384 → EReal)
    (inI : Fin 819 → Fin 128) (outI : Fin 819 → Fin 64) (o : Fin 64) (r : Fin 256) (col : Fin 1024) : EReal :=
  (∑ n : Fin 819, if outI n = o then contrib X (W n) (inI n) r col else 0) + B (orow o r)

/-! ## The padded tables -/

/-- The weights padded with 64 zero blocks. -/
def padW (W : Fin 819 → Fin 256 → Fin 256 → EReal) (k : Fin 883) : Fin 256 → Fin 256 → EReal :=
  if h : k.val < 819 then W ⟨k.val, h⟩ else fun _ _ => 0
/-- The input-block indices padded with zeros. -/
def padIn (inI : Fin 819 → Fin 128) (k : Fin 883) : Fin 128 := if h : k.val < 819 then inI ⟨k.val, h⟩ else 0
/-- The output-block indices padded with 0, 1, …, 63: padded block `819 + o` is aimed at output block `o`. -/
def padOut (outI : Fin 819 → Fin 64) (k : Fin 883) : Fin 64 :=
  if h : k.val < 819 then outI ⟨k.val, h⟩ else ⟨k.val - 819, by have := k.isLt; omega⟩

/-- Every output block is some padded block's target, so under any permutation some position's. -/
theorem exists_position (outI : Fin 819 → Fin 64) (σ : Equiv.Perm (Fin 883)) (o : Fin 64) : ∃ p, padOut outI (σ p) = o := by
  have hk : 819 + o.val < 883 := by have := o.isLt; omega
  refine ⟨σ.symm ⟨819 + o.val, hk⟩, ?_⟩
  rw [Equiv.apply_symm_apply]
  have h : ¬ ((⟨819 + o.val, hk⟩ : Fin 883).val < 819) := by
    show ¬ (819 + o.val < 819)
    omega
  unfold padOut
  rw [dif_neg h]
  apply Fin.ext
  show 819 + o.val - 819 = o.val
  omega

/-- A sum over the 883 padded blocks is the sum over the 819 real ones plus the sum over the 64 added ones. -/
theorem sum_fin883 {M : Type} [AddCommMonoid M] (f : Fin 883 → M) :
    ∑ k : Fin 883, f k
      = (∑ n : Fin 819, f ⟨n.val, by have := n.isLt; omega⟩) + ∑ j : Fin 64, f ⟨819 + j.val, by have := j.isLt; omega⟩ :=
  Fin.sum_univ_add (a := 819) (b := 64) f

/-- On a real block the padded tables are the unpadded ones. -/
theorem padW_real (W : Fin 819 → Fin 256 → Fin 256 → EReal) (n : Fin 819) (h : n.val < 883) : padW W ⟨n.val, h⟩ = W n := by
  unfold padW
  rw [dif_pos (show (⟨n.val, h⟩ : Fin 883).val < 819 from n.isLt)]
theorem padIn_real (inI : Fin 819 → Fin 128) (n : Fin 819) (h : n.val < 883) : padIn inI ⟨n.val, h⟩ = inI n := by
  unfold padIn
  rw [dif_pos (show (⟨n.val, h⟩ : Fin 883).val < 819 from n.isLt)]
theorem padOut_real (outI : Fin 819 → Fin 64) (n : Fin 819) (h : n.val < 883) : padOut outI ⟨n.val, h⟩ = outI n := by
  unfold padOut
  rw [dif_pos (show (⟨n.val, h⟩ : Fin 883).val < 819 from n.isLt)]

/-- An added block's weights are zero, so its product is zero. -/
theorem contrib_pad (X : Fin 32768 → Fin 1024 → EReal) (W : Fin 819 → Fin 256 → Fin 256 → EReal) (k : Fin 883) (h : ¬ k.val < 819)
    (kin : Fin 128) (r : Fin 256) (col : Fin 1024) : contrib X (padW W k) kin r col = 0 := by
  unfold padW
  rw [dif_neg h]
  unfold contrib
  apply Finset.sum_eq_zero
  intro i _
  exact zero_mul _

/-- Summing the products over the positions of a permutation of the padded blocks aimed at `o` is summing
    them over the real blocks aimed at `o`: re-index by the permutation, split off the 64 padded blocks,
    whose weights are zero. -/
theorem sum_padded (X : Fin 32768 → Fin 1024 → EReal) (W : Fin 819 → Fin 256 → Fin 256 → EReal)
    (inI : Fin 819 → Fin 128) (outI : Fin 819 → Fin 64) (σ : Equiv.Perm (Fin 883)) (o : Fin 64) (r : Fin 256) (col : Fin 1024) :
    (∑ p : Fin 883, if padOut outI (σ p) = o then contrib X (padW W (σ p)) (padIn inI (σ p)) r col else 0)
      = ∑ n : Fin 819, if outI n = o then contrib X (W n) (inI n) r col else 0 := by
  rw [Equiv.sum_comp σ (fun k => if padOut outI k = o then contrib X (padW W k) (padIn inI k) r col else 0), sum_fin883]
  have hz : ∀ j : Fin 64, ∀ hj : 819 + j.val < 883,
      (if padOut outI ⟨819 + j.val, hj⟩ = o
        then contrib X (padW W ⟨819 + j.val, hj⟩) (padIn inI ⟨819 + j.val, hj⟩) r col else 0) = 0 := by
    intro j hj
    have hge : ¬ ((⟨819 + j.val, hj⟩ : Fin 883).val < 819) := by
      show ¬ (819 + j.val < 819)
      omega
    rw [contrib_pad X W _ hge, ite_self]
  rw [Finset.sum_eq_zero (fun j _ => hz j _), add_zero]
  apply Finset.sum_congr rfl
  intro n _
  rw [padOut_real, padW_real, padIn_real]

/-! ## The running sum over sorted positions -/

/-- Position `p` starts a group: it is the first position, or its output block differs from the one before. -/
def isNew (s : Fin 883 → Fin 64) (p : Fin 883) : Prop := p.val = 0 ∨ ∃ h : 0 < p.val, s p ≠ s ⟨p.val - 1, by have := p.isLt; omega⟩
/-- Position `p` ends a group: it is the last position, or the next one's output block differs. -/
def isLast (s : Fin 883 → Fin 64) (p : Fin 883) : Prop := p.val + 1 = 883 ∨ ∃ h : p.val + 1 < 883, s ⟨p.val + 1, h⟩ ≠ s p

open Classical in
/-- What the output block holds after position `p`: the running sum restarted at a group's first position,
    the position's term added, the bias added at the group's last position. -/
def runAcc {M : Type} [AddCommMonoid M] (s : Fin 883 → Fin 64) (c : Fin 883 → M) (b : Fin 64 → M) : (p : ℕ) → p < 883 → M
  | 0, h => if isLast s ⟨0, h⟩ then (0 + c ⟨0, h⟩) + b (s ⟨0, h⟩) else 0 + c ⟨0, h⟩
  | p + 1, h =>
    if isLast s ⟨p + 1, h⟩ then
      ((if isNew s ⟨p + 1, h⟩ then 0 else runAcc s c b p (Nat.lt_of_succ_lt h)) + c ⟨p + 1, h⟩) + b (s ⟨p + 1, h⟩)
    else (if isNew s ⟨p + 1, h⟩ then 0 else runAcc s c b p (Nat.lt_of_succ_lt h)) + c ⟨p + 1, h⟩

/-- Extending the range of positions by one adds that position's term, when it belongs to the group. -/
theorem sum_le_succ {M : Type} [AddCommMonoid M] (s : Fin 883 → Fin 64) (c : Fin 883 → M) (p : ℕ) (hp : p + 1 < 883)
    (t : Fin 64) (ht : s ⟨p + 1, hp⟩ = t) :
    (∑ q : Fin 883, if q.val ≤ p + 1 ∧ s q = t then c q else 0)
      = (∑ q : Fin 883, if q.val ≤ p ∧ s q = t then c q else 0) + c ⟨p + 1, hp⟩ := by
  have h1 : c ⟨p + 1, hp⟩ = ∑ q : Fin 883, if q = ⟨p + 1, hp⟩ then c q else 0 := by
    rw [Finset.sum_ite_eq', if_pos (Finset.mem_univ _)]
  rw [h1, ← Finset.sum_add_distrib]
  apply Finset.sum_congr rfl
  intro q _
  by_cases hq : q = ⟨p + 1, hp⟩
  · have hv : q.val = p + 1 := by rw [hq]
    have hst : s q = t := by rw [hq]; exact ht
    rw [if_pos ⟨le_of_eq hv, hst⟩, if_neg (fun h => by have := h.1; omega), if_pos hq, zero_add]
  · have hv : q.val ≠ p + 1 := fun h => hq (Fin.ext h)
    rw [if_neg hq, add_zero]
    by_cases hc : q.val ≤ p ∧ s q = t
    · rw [if_pos hc, if_pos ⟨Nat.le_succ_of_le hc.1, hc.2⟩]
    · rw [if_neg hc, if_neg (fun h => hc ⟨by have := h.1; omega, h.2⟩)]

open Classical in
/-- The running sum after position `p` is the sum of the terms of the positions up to `p` in the group of `p`,
    plus the bias when `p` ends its group. -/
theorem runAcc_eq {M : Type} [AddCommMonoid M] (s : Fin 883 → Fin 64) (hs : Monotone s) (c : Fin 883 → M) (b : Fin 64 → M) :
    ∀ (p : ℕ) (hp : p < 883), runAcc s c b p hp =
      if isLast s ⟨p, hp⟩ then (∑ q : Fin 883, if q.val ≤ p ∧ s q = s ⟨p, hp⟩ then c q else 0) + b (s ⟨p, hp⟩)
      else ∑ q : Fin 883, if q.val ≤ p ∧ s q = s ⟨p, hp⟩ then c q else 0 := by
  intro p
  induction p with
  | zero =>
    intro hp
    have h0 : (0 : M) + c ⟨0, hp⟩ = ∑ q : Fin 883, if q.val ≤ 0 ∧ s q = s ⟨0, hp⟩ then c q else 0 := by
      rw [zero_add, Finset.sum_eq_single (⟨0, hp⟩ : Fin 883)]
      · rw [if_pos ⟨le_refl _, rfl⟩]
      · intro q _ hq
        have hv : q.val ≠ 0 := fun h => hq (Fin.ext h)
        rw [if_neg (fun h => hv (Nat.le_zero.mp h.1))]
      · intro h
        exact absurd (Finset.mem_univ _) h
    rw [runAcc, h0]
  | succ p ih =>
    intro hp
    have hp' : p < 883 := Nat.lt_of_succ_lt hp
    have hle : s ⟨p, hp'⟩ ≤ s ⟨p + 1, hp⟩ := hs (Fin.le_def.mpr (Nat.le_succ p))
    have core : (if isNew s ⟨p + 1, hp⟩ then 0 else runAcc s c b p hp') + c ⟨p + 1, hp⟩
        = ∑ q : Fin 883, if q.val ≤ p + 1 ∧ s q = s ⟨p + 1, hp⟩ then c q else 0 := by
      rw [sum_le_succ s c p hp (s ⟨p + 1, hp⟩) rfl]
      congr 1
      by_cases hn : isNew s ⟨p + 1, hp⟩
      · -- a new group: no earlier position belongs to it
        rw [if_pos hn]
        have hne : s ⟨p + 1, hp⟩ ≠ s ⟨p, hp'⟩ := by
          rcases hn with h | ⟨_, h⟩
          · exact absurd h (Nat.succ_ne_zero p)
          · exact h
        have hlt : s ⟨p, hp'⟩ < s ⟨p + 1, hp⟩ := lt_of_le_of_ne hle (Ne.symm hne)
        symm
        apply Finset.sum_eq_zero
        intro q _
        rw [if_neg]
        rintro ⟨hq, he⟩
        have h2 : s q ≤ s ⟨p, hp'⟩ := hs (Fin.le_def.mpr hq)
        rw [he] at h2
        exact absurd hlt (not_lt.mpr h2)
      · -- the same group as the position before, which therefore does not end its group
        rw [if_neg hn]
        have heq : s ⟨p + 1, hp⟩ = s ⟨p, hp'⟩ := by
          by_contra hne
          exact hn (Or.inr ⟨Nat.succ_pos p, hne⟩)
        have hnl : ¬ isLast s ⟨p, hp'⟩ := by
          rintro (h | ⟨_, hne⟩)
          · have h' : p + 1 = 883 := h
            omega
          · exact hne heq
        rw [ih hp', if_neg hnl, heq]
    rw [runAcc, core]

/-- Over a monotone sequence of output blocks, at a group's last position the running sum is the sum of
    the terms of every position of that group, plus the group's bias. -/
theorem runAcc_last {M : Type} [AddCommMonoid M] (s : Fin 883 → Fin 64) (hs : Monotone s) (c : Fin 883 → M) (b : Fin 64 → M)
    (p : Fin 883) (hl : isLast s p) :
    runAcc s c b p.val p.isLt = (∑ q : Fin 883, if s q = s p then c q else 0) + b (s p) := by
  have hl' : isLast s ⟨p.val, p.isLt⟩ := hl
  rw [runAcc_eq s hs c b p.val p.isLt, if_pos hl']
  show (∑ q : Fin 883, if q.val ≤ p.val ∧ s q = s p then c q else 0) + b (s p) = _
  congr 1
  apply Finset.sum_congr rfl
  intro q _
  by_cases he : s q = s p
  · by_cases hq : q.val ≤ p.val
    · rw [if_pos ⟨hq, he⟩, if_pos he]
    · -- a later position of the same group would contradict that `p` ends it
      exfalso
      rcases hl with h | ⟨h, hne⟩
      · have := q.isLt
        omega
      · have h1 : s p ≤ s ⟨p.val + 1, h⟩ := hs (Fin.le_def.mpr (Nat.le_succ p.val))
        have h2 : s ⟨p.val + 1, h⟩ ≤ s q := hs (Fin.le_def.mpr (show p.val + 1 ≤ q.val by omega))
        rw [he] at h2
        exact hne (le_antisymm h2 h1)
  · rw [if_neg (fun h => he h.2), if_neg he]

end Cert.BlockSparse

end
-- ==== Proof.Accum.lean ====
/-
  The output block after each grid point is the running sum over sorted positions.

  Fix a batch tile, a row `r` of the output block and a column `b` of the tile.  Along the 883 positions of the
  tile's sweep, the entry (r, b) of what the output window's buffer holds after position `n` is `runAcc` of:
  the positions' output blocks, the positions' products (weight block times the input block the position
  names, at (r, b)), and the bias entry of row `r` of an output block.  By induction on the position: the two
  flag words are the statements "starts a group" and "ends a group" about neighbouring output-block words, and
  each of the body's four cases is one branch of `runAcc`'s step.
-/
import proofs.«419409_j64768106824287_2_alg».proof.Proof.Pieces
import proofs.«419409_j64768106824287_2_alg».proof.Proof.Blocks
import proofs.«419409_j64768106824287_2_alg».proof.Proof.Spec

set_option maxRecDepth 16384

noncomputable section

namespace Cert.KernelIdeal.Pipe

open Cert.KernelIdeal Cert.KernelIdeal.Gen Cert.BlockSparse
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (hT : TableFacts m)

/-- The grid point of batch tile `τ'` and sorted position `n`. -/
noncomputable def pt (τ' : Fin 2) (n : Fin 883) : Fin (cfgM m (okT m hT)).N :=
  ⟨τ'.val * 883 + n.val, by have := τ'.isLt; have := n.isLt; have h : (cfgM m (okT m hT)).N = 1766 := N_0; omega⟩

theorem pt_tile (τ' : Fin 2) (n : Fin 883) : tile (grid0.coords (pt m hT τ' n)) = τ' := by
  apply Fin.ext
  refine (coords_tile (pt m hT τ' n)).trans ?_
  show (τ'.val * 883 + n.val) / 883 = τ'.val
  have := n.isLt
  omega
theorem pt_pos (τ' : Fin 2) (n : Fin 883) : pos (grid0.coords (pt m hT τ' n)) = n := by
  apply Fin.ext
  refine (coords_pos (pt m hT τ' n)).trans ?_
  show (τ'.val * 883 + n.val) % 883 = n.val
  have := n.isLt
  omega

/-- The positions' output blocks. -/
def sOut (n : Fin 883) : Fin 64 := outBlk m hT n

/-- Position `n`'s product at (r, b) in tile `τ'`: its weight block times the input block it names. -/
def cTerm (c : Dev nD) (τ' : Fin 2) (r : Fin 256) (b : Fin 512) (n : Fin 883) : EReal :=
  blockProd (iblk m (okT m hT) c 0 (pt m hT τ' n)) (iblk m (okT m hT) c 1 (pt m hT τ' n)) (inBlk m hT n) r b

/-- Row `r` of output block `o` of the bias column. -/
def biasAt (c : Dev nD) (r : Fin 256) (o : Fin 64) : EReal := (argB m c (ix2 (brow o r) (0 : Fin 1)) : EReal)

/-- A position's output block is its output-block word, as a number. -/
theorem sOut_val (n : Fin 883) : (sOut m hT n).val = (outAt m n).toNat := by
  unfold sOut outBlk
  exact Fin.val_mk _

/-- Two positions have the same output block exactly when their output-block words are equal. -/
theorem sOut_eq_iff (n n' : Fin 883) : sOut m hT n = sOut m hT n' ↔ outAt m n = outAt m n' := by
  constructor
  · intro h
    have h2 : (sOut m hT n).val = (sOut m hT n').val := by rw [h]
    rw [sOut_val, sOut_val] at h2
    exact BitVec.eq_of_toNat_eq h2
  · intro h
    apply Fin.ext
    rw [sOut_val, sOut_val, h]

/-- The flag words are the group boundaries of the sequence of output blocks. -/
theorem flagNew_iff (c : Dev nD) (τ' : Fin 2) (n : Fin 883) :
    flagSet (wNew m c (grid0.coords (pt m hT τ' n))) ↔ isNew (sOut m hT) n := by
  rw [wNew_eq, flagSet_iff, pt_pos, hT.new_iff]
  unfold isNew
  constructor
  · rintro (h | ⟨h, hne⟩)
    · exact Or.inl h
    · exact Or.inr ⟨h, fun he => hne ((sOut_eq_iff m hT _ _).mp he)⟩
  · rintro (h | ⟨h, hne⟩)
    · exact Or.inl h
    · exact Or.inr ⟨h, fun he => hne ((sOut_eq_iff m hT _ _).mpr he)⟩
theorem flagLast_iff (c : Dev nD) (τ' : Fin 2) (n : Fin 883) :
    flagSet (wLast m c (grid0.coords (pt m hT τ' n))) ↔ isLast (sOut m hT) n := by
  rw [wLast_eq, flagSet_iff, pt_pos, hT.last_iff]
  unfold isLast
  constructor
  · rintro (h | ⟨h, hne⟩)
    · exact Or.inl h
    · exact Or.inr ⟨h, fun he => hne ((sOut_eq_iff m hT _ _).mp he)⟩
  · rintro (h | ⟨h, hne⟩)
    · exact Or.inl h
    · exact Or.inr ⟨h, fun he => hne ((sOut_eq_iff m hT _ _).mpr he)⟩

/-- The input block a position names is its input-block word, as a number. -/
theorem inBlk_word (c : Dev nD) (τ' : Fin 2) (n : Fin 883) :
    (wIn m c (grid0.coords (pt m hT τ' n))).toNat = (inBlk m hT n).val := by
  rw [wIn_eq, pt_pos]
  unfold inBlk
  exact (Fin.val_mk _).symm

/-- The bias block at a position's point, at row `r`, is row `r` of the position's output block of the bias column. -/
theorem bias_entry (c : Dev nD) (τ' : Fin 2) (r : Fin 256) (n : Fin 883) :
    ((iblk m (okT m hT) c 2 (pt m hT τ' n) : Vec Ideal S256x1 .f32) (ix2 r (0 : Fin 1)) : EReal) = biasAt m c r (sOut m hT n) := by
  rw [iblk_bias, pt_pos]
  unfold biasAt sOut
  rfl

open Classical in
/-- One point's step, entry by entry: restart or keep what the block held, add the position's product, and at a
    position that ends its group add the bias. -/
theorem stepOut_apply (c : Dev nD) (τ' : Fin 2) (r : Fin 256) (b : Fin 512) (n : Fin 883) (xo : Vec Ideal S256x512 .f32) :
    ((stepOut m hT c (pt m hT τ' n) xo : Vec Ideal S256x512 .f32) (ix2 r b) : EReal)
      = if isLast (sOut m hT) n then
          ((if isNew (sOut m hT) n then 0 else (xo (ix2 r b) : EReal)) + cTerm m hT c τ' r b n) + biasAt m c r (sOut m hT n)
        else (if isNew (sOut m hT) n then 0 else (xo (ix2 r b) : EReal)) + cTerm m hT c τ' r b n := by
  have hg := inBlk_word m hT c τ' n
  have hb := bias_entry m hT c τ' r n
  unfold stepOut
  by_cases h0 : flagSet (wNew m c (grid0.coords (pt m hT τ' n)))
  · have hn : isNew (sOut m hT) n := (flagNew_iff m hT c τ' n).mp h0
    by_cases h1 : flagSet (wLast m c (grid0.coords (pt m hT τ' n)))
    · have hl : isLast (sOut m hT) n := (flagLast_iff m hT c τ' n).mp h1
      rw [dif_pos h0, dif_pos h1, if_pos hl, if_pos hn]
      refine (outA_apply c (grid0.coords (pt m hT τ' n)) _ _ _ _ _ _ _ _ _ _ _ _ _ _ _ _ _ _ _ _ (inBlk m hT n) hg r b).trans ?_
      unfold cTerm
      rw [hb]
    · have hl : ¬ isLast (sOut m hT) n := fun h => h1 ((flagLast_iff m hT c τ' n).mpr h)
      rw [dif_pos h0, dif_neg h1, if_neg hl, if_pos hn]
      refine (outB_apply c (grid0.coords (pt m hT τ' n)) _ _ _ _ _ _ _ _ _ _ _ _ _ _ _ _ _ _ _ _ (inBlk m hT n) hg r b).trans ?_
      unfold cTerm
      rfl
  · have hn : ¬ isNew (sOut m hT) n := fun h => h0 ((flagNew_iff m hT c τ' n).mpr h)
    by_cases h1 : flagSet (wLast m c (grid0.coords (pt m hT τ' n)))
    · have hl : isLast (sOut m hT) n := (flagLast_iff m hT c τ' n).mp h1
      rw [dif_neg h0, dif_pos h1, if_pos hl, if_neg hn]
      refine (outC_apply c (grid0.coords (pt m hT τ' n)) _ _ _ _ _ _ _ _ _ _ _ _ _ _ _ _ _ _ _ _ (inBlk m hT n) hg r b).trans ?_
      unfold cTerm
      rw [hb]
    · have hl : ¬ isLast (sOut m hT) n := fun h => h1 ((flagLast_iff m hT c τ' n).mpr h)
      rw [dif_neg h0, dif_neg h1, if_neg hl, if_neg hn]
      refine (outD_apply c (grid0.coords (pt m hT τ' n)) _ _ _ _ _ _ _ _ _ _ _ _ _ _ _ _ _ _ _ _ (inBlk m hT n) hg r b).trans ?_
      unfold cTerm
      rfl

/-- What the block holds after a point depends on the point's number only. -/
theorem outsAt_congr (c : Dev nD) (a a' : ℕ) (h : a = a') (ha : a < (cfgM m (okT m hT)).N) (ha' : a' < (cfgM m (okT m hT)).N) :
    outsAt m hT c a ha = outsAt m hT c a' ha' := by
  subst h
  rfl

/-- The accumulation along a tile's sweep, by induction on the position. -/
theorem outsAt_runAcc_aux (c : Dev nD) (τ' : Fin 2) (r : Fin 256) (b : Fin 512) : ∀ (k : ℕ) (hk : k < 883),
    ((outsAt m hT c (pt m hT τ' ⟨k, hk⟩).val (pt m hT τ' ⟨k, hk⟩).isLt : Vec Ideal S256x512 .f32) (ix2 r b) : EReal)
      = runAcc (sOut m hT) (cTerm m hT c τ' r b) (biasAt m c r) k hk := by
  intro k
  induction k with
  | zero =>
    intro hk
    -- the first position starts a group
    have hn : isNew (sOut m hT) ⟨0, hk⟩ := Or.inl rfl
    rw [outsAt_eq m hT c (pt m hT τ' ⟨0, hk⟩), stepOut_apply, runAcc, if_pos hn]
  | succ k ih =>
    intro hk
    have hk' : k < 883 := Nat.lt_of_succ_lt hk
    have ht : (pt m hT τ' ⟨k + 1, hk⟩).val ≠ 0 := by
      show τ'.val * 883 + (k + 1) ≠ 0
      omega
    -- the point before is the position before, in the same tile
    have hx : outsAt m hT c ((pt m hT τ' ⟨k + 1, hk⟩).val - 1) (Nat.lt_of_le_of_lt (Nat.sub_le _ _) (pt m hT τ' ⟨k + 1, hk⟩).isLt)
        = outsAt m hT c (pt m hT τ' ⟨k, hk'⟩).val (pt m hT τ' ⟨k, hk'⟩).isLt :=
      outsAt_congr m hT c _ _ (by show τ'.val * 883 + (k + 1) - 1 = τ'.val * 883 + k; omega) _ _
    rw [outsAt_eq m hT c (pt m hT τ' ⟨k + 1, hk⟩), stepOut_apply, dif_neg ht, hx, ih hk', runAcc]

/-- THE ACCUMULATION, ENTRY BY ENTRY. -/
theorem outsAt_runAcc (c : Dev nD) (τ' : Fin 2) (r : Fin 256) (b : Fin 512) (n : Fin 883) :
    ((outsAt m hT c (pt m hT τ' n).val (pt m hT τ' n).isLt : Vec Ideal S256x512 .f32) (ix2 r b) : EReal)
      = runAcc (sOut m hT) (cTerm m hT c τ' r b) (biasAt m c r) n.val n.isLt :=
  outsAt_runAcc_aux m hT c τ' r b n.val n.isLt

end Cert.KernelIdeal.Pipe

end
-- ==== Proof.SpecArr.lean ====
/-
  The block-sparse linear map over the programs' array types: the specification of `Spec.lean` read off
  arrays indexed by shape multi-indices, the two index arrays read as words.  An index word is taken
  modulo its range so that the function is total; under the precondition (every word in range) that is the word.
-/
import proofs.«419409_j64768106824287_2_alg».proof.Proof.Spec
import Idealize.ShloMosaic.PureOps.Ideal
import Idealize.ShloMosaic.Lib.ValueIdx

noncomputable section

namespace Cert.BlockSparse

open Idealize.ShloMosaic Idealize.ShloMosaic.ValueIdx

/-- `x` as a function of row and batch column. -/
def Xof (x : (⟨2, ![32768, 1024]⟩ : Shape).Idx → EReal) : Fin 32768 → Fin 1024 → EReal := fun a b => x (ix2 a b)
/-- The weight blocks as a function of block, row, column. -/
def Wof (w : (⟨3, ![819, 256, 256]⟩ : Shape).Idx → EReal) : Fin 819 → Fin 256 → Fin 256 → EReal := fun n r i => w (ix3 n r i)
/-- The bias column as a function of row. -/
def Bof (b : (⟨2, ![16384, 1]⟩ : Shape).Idx → EReal) : Fin 16384 → EReal := fun a => b (ix2 a 0)
/-- Block `n`'s input block, read off its index word. -/
def inOf (ii : (⟨1, ![819]⟩ : Shape).Idx → BitVec 32) (n : Fin 819) : Fin 128 := ⟨(ii (ix1 n)).toNat % 128, Nat.mod_lt _ (by decide)⟩
/-- Block `n`'s output block, read off its index word. -/
def outOf (oi : (⟨1, ![819]⟩ : Shape).Idx → BitVec 32) (n : Fin 819) : Fin 64 := ⟨(oi (ix1 n)).toNat % 64, Nat.mod_lt _ (by decide)⟩

/-- The result array: entry (row, col) is the block-sparse map at output block row / 256, its row row % 256. -/
def specArr (x : (⟨2, ![32768, 1024]⟩ : Shape).Idx → EReal) (w : (⟨3, ![819, 256, 256]⟩ : Shape).Idx → EReal)
    (b : (⟨2, ![16384, 1]⟩ : Shape).Idx → EReal) (ii oi : (⟨1, ![819]⟩ : Shape).Idx → BitVec 32) :
    (⟨2, ![16384, 1024]⟩ : Shape).Idx → EReal := fun j =>
  blockSparse (Xof x) (Wof w) (Bof b) (inOf ii) (outOf oi)
    ⟨(j 0).val / 256, by have : (j 0).val < 16384 := (j 0).isLt; omega⟩
    ⟨(j 0).val % 256, Nat.mod_lt _ (by decide)⟩
    ⟨(j 1).val, (j 1).isLt⟩

end Cert.BlockSparse

end
-- ==== Proof.Group.lean ====
/-
  A group's terms are the real blocks' contributions.

  Through the sort's permutation σ the position `n` holds padded block σ n: its weight block is the padded
  weights' block σ n (a real block, or zeros), the input block it names is the padded input-block index of σ n,
  its output block the padded output-block index of σ n.  So a position's product is `contrib` of the padded
  tables at σ n, and the sum over the positions aimed at output block `o` is, by `sum_padded`, the sum over the
  real blocks aimed at `o`.
-/
import proofs.«419409_j64768106824287_2_alg».proof.Proof.Accum
import proofs.«419409_j64768106824287_2_alg».proof.Proof.SpecArr

set_option maxRecDepth 16384

noncomputable section

namespace Cert.KernelIdeal.Pipe

open Cert.KernelIdeal Cert.KernelIdeal.Gen Cert.BlockSparse
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (hT : TableFacts m)

/-- The two index arguments on core `c` at their literal type. -/
abbrev argIdxIn (c : Dev nD) : (⟨1, ![819]⟩ : Shape).Idx → BitVec 32 := m ((c : Thread nD τ).loc main_arg3)
abbrev argIdxOut (c : Dev nD) : (⟨1, ![819]⟩ : Shape).Idx → BitVec 32 := m ((c : Thread nD τ).loc main_arg4)

/-- There is one core, so the index words on core `c` are the launched words. -/
theorem argIn_eq (c : Dev nD) (k : Fin 819) : argIdxIn m c (ix1 k) = inIdxW m k := by
  have hc : c = 0 := Subsingleton.elim _ _
  subst hc
  rfl
theorem argOut_eq (c : Dev nD) (k : Fin 819) : argIdxOut m c (ix1 k) = outIdxW m k := by
  have hc : c = 0 := Subsingleton.elim _ _
  subst hc
  rfl

/-- The input block position `q` names is the padded input-block index of the padded block σ q: a real block's
    word is in range, so taking it modulo 128 leaves it; an added block's word is zero. -/
theorem inBlk_eq (σ : Equiv.Perm (Fin 883))
    (hσ : ∀ n, (orderAt m n).toNat = (σ n).val ∧ inAt m n = inPadW m (σ n) ∧ outAt m n = outPadW m (σ n))
    (hin : ∀ k : Fin 819, (inIdxW m k).toNat < 128) (c : Dev nD) (q : Fin 883) :
    inBlk m hT q = padIn (inOf (argIdxIn m c)) (σ q) := by
  apply Fin.ext
  dsimp only [inBlk]
  rw [(hσ q).2.1]
  unfold inPadW padIn
  by_cases h : (σ q).val < 819
  · rw [dif_pos h, dif_pos h]
    dsimp only [inOf]
    rw [argIn_eq, Nat.mod_eq_of_lt (hin _)]
  · rw [dif_neg h, dif_neg h]
    rfl

/-- The output block of position `q` is the padded output-block index of the padded block σ q: a real block's
    word is in range, so taking it modulo 64 leaves it; added block 819 + j carries the word j. -/
theorem sOut_eq (σ : Equiv.Perm (Fin 883))
    (hσ : ∀ n, (orderAt m n).toNat = (σ n).val ∧ inAt m n = inPadW m (σ n) ∧ outAt m n = outPadW m (σ n))
    (hout : ∀ k : Fin 819, (outIdxW m k).toNat < 64) (c : Dev nD) (q : Fin 883) :
    sOut m hT q = padOut (outOf (argIdxOut m c)) (σ q) := by
  apply Fin.ext
  dsimp only [sOut, outBlk]
  rw [(hσ q).2.2]
  unfold outPadW padOut
  by_cases h : (σ q).val < 819
  · rw [dif_pos h, dif_pos h]
    dsimp only [outOf]
    rw [argOut_eq, Nat.mod_eq_of_lt (hout _)]
  · rw [dif_neg h, dif_neg h]
    dsimp only
    rw [BitVec.toNat_ofNat]
    exact Nat.mod_eq_of_lt (by have := (σ q).isLt; omega)

/-- Position `q`'s product is the contribution of the padded block σ q: its weight block is the padded weights'
    block σ q, the rows of the staged column it reads are the rows of x of the padded input block of σ q, in the
    tile's columns. -/
theorem cTerm_eq (σ : Equiv.Perm (Fin 883))
    (hσ : ∀ n, (orderAt m n).toNat = (σ n).val ∧ inAt m n = inPadW m (σ n) ∧ outAt m n = outPadW m (σ n))
    (hin : ∀ k : Fin 819, (inIdxW m k).toNat < 128) (c : Dev nD) (τ' : Fin 2) (r : Fin 256) (b : Fin 512) (q : Fin 883) :
    cTerm m hT c τ' r b q
      = contrib (Xof (argX m c)) (padW (Wof (argW m c)) (σ q)) (padIn (inOf (argIdxIn m c)) (σ q)) r (tcol τ' b) := by
  unfold cTerm blockProd contrib
  refine Finset.sum_congr rfl fun l _ => congrArg₂ (· * ·) ?_ ?_
  · rw [iblk_w m hT, pt_pos m hT]
    unfold padW
    by_cases h : (σ q).val < 819
    · have h' : (orderAt m q).toNat < 819 := by rw [(hσ q).1]; exact h
      have e : (⟨(orderAt m q).toNat, h'⟩ : Fin 819) = ⟨(σ q).val, h⟩ := Fin.ext (hσ q).1
      rw [dif_pos h', dif_pos h, e]
      rfl
    · have h' : ¬ (orderAt m q).toNat < 819 := by rw [(hσ q).1]; exact h
      rw [dif_neg h', dif_neg h]
  · rw [iblk_x m hT, pt_tile m hT, inBlk_eq m hT σ hσ hin c q]
    rfl

/-- The sum of the products of the positions aimed at output block `o`, at (r, b) of tile `τ'`, is the sum of the
    contributions of the real blocks aimed at `o`, at row `r` and batch column τ'·512 + b. -/
theorem group_sum (hin : ∀ k : Fin 819, (inIdxW m k).toNat < 128) (hout : ∀ k : Fin 819, (outIdxW m k).toNat < 64)
    (c : Dev nD) (τ' : Fin 2) (r : Fin 256) (b : Fin 512) (o : Fin 64) :
    (∑ q : Fin 883, if sOut m hT q = o then cTerm m hT c τ' r b q else 0)
      = ∑ n : Fin 819, if outOf (argIdxOut m c) n = o then
          contrib (Xof (argX m c)) (Wof (argW m c) n) (inOf (argIdxIn m c) n) r (tcol τ' b) else 0 := by
  obtain ⟨σ, hσ⟩ := hT.perm
  rw [← sum_padded (Xof (argX m c)) (Wof (argW m c)) (inOf (argIdxIn m c)) (outOf (argIdxOut m c)) σ o r (tcol τ' b)]
  refine Finset.sum_congr rfl fun q _ => ?_
  rw [sOut_eq m hT σ hσ hout c q, cTerm_eq m hT σ hσ hin c τ' r b q]

end Cert.KernelIdeal.Pipe

end
-- ==== Proof.Frame.lean ====
/-
  What a run of the kernel's program ends in, read off the launch's post, at any float instance and under
  the tables' facts: the result buffer holds what the write-backs of the output window leave there, and the
  five argument buffers hold what they held at the launch — four of them no window stages and the host
  prefix does not write, the bias column is an input window's array, which no write-back touches.
-/
import proofs.«419409_j64768106824287_2_alg».proof.Proof.Data
import Idealize.ShloMosaic.Lib.Pipeline.Cells

set_option maxRecDepth 16384

noncomputable section

namespace Cert.KernelIdeal.Pipe

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg) (hT : TableFacts m)

/-- Every weakly fair execution terminates with the result buffer at the output window's array after all
    write-backs, and the five arguments unchanged. -/
theorem run_post : θ_run defs (onTc (τ := τ) (main (F := F))) ⟨m, fun _ => 0, ρ⟩ (fun r => ∀ c : Dev nD,
      r.2.mem ((c.tc : Thread nD τ).loc main_v31) = (dats m hT 0 c).arrAt 3 (cfgM m (okT m hT)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 3,
      ((h c).2 main_arg0 (by decide : main_arg0 ∈ Pipeline.restRefs sig spec0)).trans (V_x m c),
      ((h c).2 main_arg1 (by decide : main_arg1 ∈ Pipeline.restRefs sig spec0)).trans (V_w m c),
      ((h c).1 2).trans (((dats m hT 0 c).arrAt_in 2 rfl _).trans ((A_eq m hT c 2).trans (V_bias m c))),
      ((h c).2 main_arg3 (by decide : main_arg3 ∈ Pipeline.restRefs sig spec0)).trans (V_inIdx m c),
      ((h c).2 main_arg4 (by decide : main_arg4 ∈ Pipeline.restRefs sig spec0)).trans (V_outIdx m c)⟩) (run_main m ρ hT)

/-- The frame claim's post: the five arguments unchanged. -/
theorem frame (hT : TableFacts m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_post m ρ hT)

end Cert.KernelIdeal.Pipe

end
-- ==== Proof.KernelValue.lean ====
/-
  The kernel's result array is the specification.

  The output window's block is written back exactly after a position that ends a group (its block index
  changes at the next point, or the grid ends), and what is written back there is, entry by entry, the
  group's whole sum plus the bias (`runAcc_last`, the output blocks being sorted), which by `group_sum` is
  the block-sparse map at that output block.  Every output block is some position's (each has its padded
  block), so the written-back blocks cover the result array, and the array ends at the specification.
-/
import proofs.«419409_j64768106824287_2_alg».proof.Proof.Group
import proofs.«419409_j64768106824287_2_alg».proof.Proof.Frame
import Idealize.ShloMosaic.Lib.Pipeline.Value

set_option maxRecDepth 16384

noncomputable section

namespace Cert.KernelIdeal.Pipe

open Cert.KernelIdeal Cert.KernelIdeal.Gen Cert.BlockSparse
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (hT : TableFacts m)

/-- The output blocks along the positions are sorted. -/
theorem sOut_mono : Monotone (sOut m hT) := by
  intro n n' h
  rw [Fin.le_def, sOut_val, sOut_val]
  exact hT.sorted n n' h

/-- The output window's block index at the point of batch tile `τ'` and position `k`: the position's output
    block, and the tile. -/
theorem index_pt (τ' : Fin 2) (k : Fin 883) :
    ((cfgM m (okT m hT)).win 3).index (pt m hT τ' k) = ![(outAt m k).toNat, τ'.val] := by
  have hidx : ∀ (a : (pcfg0 (F := Ideal)).Adm) (s : Fin (cfg0 a).N),
      ((cfg0 a).win 3).index s = cc0_transform_3 Gen.k0_off1_inb Gen.numel1_S1 a.1 (grid0.coords s) := fun _ _ => rfl
  rw [hidx (adm m (okT m hT)) (pt m hT τ' k)]
  show cc0_transform_3 Gen.k0_off1_inb Gen.numel1_S1 (tbl m) (grid0.coords (pt m hT τ' k)) = _
  rw [index_out, pt_pos, pt_tile]

/-- The write-back schedule: the output window is written back after point (τ', n) exactly when position `n`
    ends a group. -/
theorem flush_iff (τ' : Fin 2) (n : Fin 883) :
    ((cfgM m (okT m hT)).win 3).flush (pt m hT τ' n) = true ↔ isLast (sOut m hT) n := by
  have hτ := τ'.isLt
  have hn := n.isLt
  have hv : (pt m hT τ' n).val = τ'.val * 883 + n.val := rfl
  simp only [Pipeline.Window.flush, Bool.and_eq_true, Bool.or_eq_true, decide_eq_true_eq]
  constructor
  · rintro ⟨-, hlast | ⟨hlt, hne⟩⟩
    · -- the grid's last point is the last position of the second tile
      have h1766 : (pt m hT τ' n).val + 1 = 1766 := hlast.trans N_0
      exact Or.inl (by rw [hv] at h1766; omega)
    · by_cases h883 : n.val + 1 = 883
      · exact Or.inl h883
      · -- the next point is the next position of the same tile
        have h : n.val + 1 < 883 := by omega
        refine Or.inr ⟨h, fun he => hne ?_⟩
        have e : (⟨(pt m hT τ' n).val + 1, hlt⟩ : Fin (cfgM m (okT m hT)).N) = pt m hT τ' ⟨n.val + 1, h⟩ :=
          Fin.ext (by show τ'.val * 883 + n.val + 1 = τ'.val * 883 + (n.val + 1); omega)
        rw [e, index_pt, index_pt, (sOut_eq_iff m hT _ _).mp he]
  · intro hl
    refine ⟨rfl, ?_⟩
    rcases hl with h | ⟨h, hne⟩
    · by_cases hτ1 : τ'.val = 1
      · -- the last position of the second tile: the grid ends
        exact Or.inl ((show (pt m hT τ' n).val + 1 = 1766 by rw [hv]; omega).trans N_0.symm)
      · -- the last position of the first tile: the next point is in the second tile
        have hlt : (pt m hT τ' n).val + 1 < (cfgM m (okT m hT)).N :=
          lt_of_lt_of_eq (show (pt m hT τ' n).val + 1 < 1766 by rw [hv]; omega) N_0.symm
        refine Or.inr ⟨hlt, fun he => ?_⟩
        have e : (⟨(pt m hT τ' n).val + 1, hlt⟩ : Fin (cfgM m (okT m hT)).N) = pt m hT ⟨τ'.val + 1, by omega⟩ ⟨0, by omega⟩ :=
          Fin.ext (by show τ'.val * 883 + n.val + 1 = (τ'.val + 1) * 883 + 0; omega)
        rw [e, index_pt, index_pt] at he
        have h1 := congrFun he (1 : Fin 2)
        simp only [Matrix.cons_val_one, Matrix.cons_val_zero, Matrix.head_cons, Matrix.cons_val_fin_one] at h1
        omega
    · -- the next point is the next position of the same tile, aimed at another output block
      have hlt : (pt m hT τ' n).val + 1 < (cfgM m (okT m hT)).N :=
        lt_of_lt_of_eq (show (pt m hT τ' n).val + 1 < 1766 by rw [hv]; omega) N_0.symm
      refine Or.inr ⟨hlt, fun he => hne ?_⟩
      have e : (⟨(pt m hT τ' n).val + 1, hlt⟩ : Fin (cfgM m (okT m hT)).N) = pt m hT τ' ⟨n.val + 1, h⟩ :=
        Fin.ext (by show τ'.val * 883 + n.val + 1 = τ'.val * 883 + (n.val + 1); omega)
      rw [e, index_pt, index_pt] at he
      have h0 := congrFun he (0 : Fin 2)
      simp only [Matrix.cons_val_zero] at h0
      exact (sOut_eq_iff m hT _ _).mpr (BitVec.eq_of_toNat_eq h0)

/-- Every output block has a position that ends its group: the positions aimed at the block are not none (the
    block's padded block sits at some position), and the largest of them is followed, if at all, by a position
    aimed elsewhere. -/
theorem exists_last (hout : ∀ k : Fin 819, (outIdxW m k).toNat < 64) (c : Dev nD) (o : Fin 64) :
    ∃ n : Fin 883, sOut m hT n = o ∧ isLast (sOut m hT) n := by
  classical
  obtain ⟨σ, hσ⟩ := hT.perm
  obtain ⟨p, hp⟩ := exists_position (outOf (argIdxOut m c)) σ o
  have hp' : sOut m hT p = o := (sOut_eq m hT σ hσ hout c p).trans hp
  let S : Finset (Fin 883) := Finset.univ.filter fun q => sOut m hT q = o
  have hne : S.Nonempty := ⟨p, Finset.mem_filter.mpr ⟨Finset.mem_univ _, hp'⟩⟩
  have hmax : sOut m hT (S.max' hne) = o := (Finset.mem_filter.mp (Finset.max'_mem S hne)).2
  have hle : ∀ q ∈ S, q ≤ S.max' hne := fun q hq => Finset.le_max' S q hq
  generalize S.max' hne = n at hmax hle
  refine ⟨n, hmax, ?_⟩
  by_cases h883 : n.val + 1 = 883
  · exact Or.inl h883
  · have h : n.val + 1 < 883 := by have := n.isLt; omega
    refine Or.inr ⟨h, fun he => ?_⟩
    have hq : (⟨n.val + 1, h⟩ : Fin 883) ∈ S := Finset.mem_filter.mpr ⟨Finset.mem_univ _, he.trans hmax⟩
    have h2 : n.val + 1 ≤ n.val := Fin.le_def.mp (hle _ hq)
    omega

/-- An index of the result array lies in the block of the point (τ', n) exactly when its row is one of the 256
    rows of the position's output block and its column one of the 512 columns of the tile. -/
theorem mem_blk (τ' : Fin 2) (n : Fin 883) (i : S16384x1024.Idx) :
    i ∈ (((cfgM m (okT m hT)).win 3).blk (pt m hT τ' n)).view.set ↔
      ((outAt m n).toNat * 256 ≤ (i 0).val ∧ (i 0).val < (outAt m n).toNat * 256 + 256)
        ∧ (τ'.val * 512 ≤ (i 1).val ∧ (i 1).val < τ'.val * 512 + 512) := by
  have key : ∀ (a : (pcfg0 (F := Ideal)).Adm) (s : Fin (cfg0 a).N),
      i ∈ (((cfg0 a).win 3).blk s).view.set ↔ ∀ ax : Fin 2, ((cfg0 a).win 3).index s ax * S256x512.size ax ≤ (i ax).val
        ∧ (i ax).val < ((cfg0 a).win 3).index s ax * S256x512.size ax + S256x512.size ax := by
    intro a s
    exact ((congrArg (fun X : Finset S16384x1024.Idx => i ∈ X)
      (View.set_slice_whole main_v31 (((cfg0 a).win 3).rect s))).to_iff).trans Rect.mem_set_unit
  rw [key (adm m (okT m hT)) (pt m hT τ' n), index_pt, Fin.forall_fin_two]
  simp only [Matrix.cons_val_zero, Matrix.cons_val_one, Matrix.head_cons, Matrix.cons_val_fin_one]

/-- The specification's array at an index whose row is row `r` of output block `o` is the block-sparse map at
    (o, r) and the index's column. -/
theorem specArr_at (x : (⟨2, ![32768, 1024]⟩ : Shape).Idx → EReal) (w : (⟨3, ![819, 256, 256]⟩ : Shape).Idx → EReal)
    (b : (⟨2, ![16384, 1]⟩ : Shape).Idx → EReal) (ii oi : (⟨1, ![819]⟩ : Shape).Idx → BitVec 32)
    (j : (⟨2, ![16384, 1024]⟩ : Shape).Idx) (o : Fin 64) (r : Fin 256) (col : Fin 1024)
    (h0 : (j 0).val = o.val * 256 + r.val) (h1 : (j 1).val = col.val) :
    specArr x w b ii oi j = blockSparse (Xof x) (Wof w) (Bof b) (inOf ii) (outOf oi) o r col := by
  have hr := r.isLt
  unfold specArr
  congr 1 <;> apply Fin.ext
  · show (j 0).val / 256 = o.val
    omega
  · show (j 0).val % 256 = r.val
    omega
  · exact h1

/-- Where an entry of a point's block sits in the result array: entry (r, b) of the block of the point (τ', n) is at
    row r of the position's output block and at column b of the tile. -/
theorem emb_pt (τ' : Fin 2) (n : Fin 883) (r : Fin 256) (b : Fin 512) (j : S16384x1024.Idx)
    (hj : j = (((cfgM m (okT m hT)).win 3).blk (pt m hT τ' n)).view.emb (ix2 r b)) :
    (j 0).val = (sOut m hT n).val * 256 + r.val ∧ (j 1).val = (tcol τ' b).val := by
  -- on each axis: the block index times the block's size plus the entry's coordinate; the tables a variable
  have hemb : ∀ (a : (pcfg0 (F := Ideal)).Adm) (s : Fin (cfg0 a).N) (y : S256x512.Idx) (ax : Fin 2),
      (((((cfg0 a).win 3).blk s).view.emb y) ax : Nat) = ((cfg0 a).win 3).index s ax * S256x512.size ax + (y ax).val :=
    fun a s y ax => Pipeline.Window.rect_emb_val ((cfg0 a).win 3) s y ax
  have e0 := hemb (adm m (okT m hT)) (pt m hT τ' n) (ix2 r b) 0
  have e1 := hemb (adm m (okT m hT)) (pt m hT τ' n) (ix2 r b) 1
  rw [index_pt] at e0 e1
  simp only [Matrix.cons_val_zero, Matrix.cons_val_one, Matrix.head_cons, Matrix.cons_val_fin_one] at e0 e1
  rw [← sOut_val m hT n] at e0
  subst hj
  exact ⟨e0, e1⟩

/-- WHAT A GROUP'S LAST POINT WRITES BACK is its block of the specification's array: entry (r, b) of the buffer is
    the whole group's sum plus the bias, which is the block-sparse map at the group's output block, row r, and
    column b of the tile; and entry (r, b) of the block sits in the array at that row and column. -/
theorem flushed_eq (hin : ∀ k : Fin 819, (inIdxW m k).toNat < 128) (hout : ∀ k : Fin 819, (outIdxW m k).toNat < 64)
    (c : Dev nD) (τ' : Fin 2) (n : Fin 883) (hl : isLast (sOut m hT) n) :
    (dats m hT 0 c).flushed 3 (pt m hT τ' n)
      = (((cfgM m (okT m hT)).win 3).blk (pt m hT τ' n)).view.read (Elt Ideal)
          (specArr (argX m c) (argW m c) (argB m c) (argIdxIn m c) (argIdxOut m c) : Vec Ideal S16384x1024 .f32) := by
  refine funext fun (y : S256x512.Idx) => ?_
  obtain ⟨r, b, rfl⟩ : ∃ r b, y = ix2 r b := ⟨y 0, y 1, eq_ix2 y⟩
  -- the window is not cut, so what is written back is the buffer; a block read is the array at the entry's place
  show (dats m hT 0 c).after 3 (pt m hT τ' n) (ix2 r b)
    = specArr (argX m c) (argW m c) (argB m c) (argIdxIn m c) (argIdxOut m c)
        ((((cfgM m (okT m hT)).win 3).blk (pt m hT τ' n)).view.emb (ix2 r b))
  obtain ⟨e0, e1⟩ := emb_pt m hT τ' n r b _ rfl
  rw [specArr_at _ _ _ _ _ _ (sOut m hT n) r (tcol τ' b) e0 e1, after_out]
  refine (outsAt_runAcc m hT c τ' r b n).trans ?_
  rw [runAcc_last (sOut m hT) (sOut_mono m hT) _ _ n hl, group_sum m hT hin hout c τ' r b (sOut m hT n)]
  rfl

/-- The written-back blocks cover the result array: an index's row lies in some output block, that block has a
    position ending its group, and the index's column lies in one of the two tiles. -/
theorem cover (hout : ∀ k : Fin 819, (outIdxW m k).toNat < 64) (c : Dev nD) (i : S16384x1024.Idx) :
    ∃ t : Fin (cfgM m (okT m hT)).N, ((cfgM m (okT m hT)).win 3).flush t = true
      ∧ i ∈ (((cfgM m (okT m hT)).win 3).blk t).view.set := by
  have hi0 : (i 0).val < 16384 := (i 0).isLt
  have hi1 : (i 1).val < 1024 := (i 1).isLt
  obtain ⟨n, hn, hl⟩ := exists_last m hT hout c ⟨(i 0).val / 256, by omega⟩
  have hno : (outAt m n).toNat = (i 0).val / 256 := (sOut_val m hT n).symm.trans (congrArg Fin.val hn)
  refine ⟨pt m hT ⟨(i 1).val / 512, by omega⟩ n, (flush_iff m hT _ n).mpr hl, (mem_blk m hT _ n i).mpr ⟨⟨?_, ?_⟩, ⟨?_, ?_⟩⟩⟩
  · rw [hno]; omega
  · rw [hno]; omega
  · show (i 1).val / 512 * 512 ≤ (i 1).val
    omega
  · show (i 1).val < (i 1).val / 512 * 512 + 512
    omega

/-- THE RESULT ARRAY. -/
theorem result_arr (hin : ∀ k : Fin 819, (inIdxW m k).toNat < 128) (hout : ∀ k : Fin 819, (outIdxW m k).toNat < 64) (c : Dev nD) :
    ((dats m hT 0 c).arrAt 3 (cfgM m (okT m hT)).N : Vec Ideal S16384x1024 .f32)
      = specArr (argX m c) (argW m c) (argB m c) (argIdxIn m c) (argIdxOut m c) := by
  refine (dats m hT 0 c).arrAt_eq_of_cover 3 _ (fun t hf => ?_) (fun i => cover m hT hout c i)
  have hN : t.val < 1766 := lt_of_lt_of_eq t.isLt N_0
  obtain ⟨τ', n, rfl⟩ : ∃ τ' n, t = pt m hT τ' n :=
    ⟨⟨t.val / 883, by omega⟩, ⟨t.val % 883, by omega⟩, Fin.ext (by show t.val = t.val / 883 * 883 + t.val % 883; omega)⟩
  exact flushed_eq m hT hin hout c τ' n ((flush_iff m hT τ' n).mp hf)

end Cert.KernelIdeal.Pipe

end
-- ==== Proof.LibGatherHost3.lean ====
/-
  Gathers out of a rank-3 table, and the host's reductions over the last axis of a rank-3 array, read at an index.

  A table T : [N, B, C] gathered at a column idx : [R, 1] of start indices with offset_dims = [1, 2],
  collapsed_slice_dims = [0], start_index_map = [0], index_vector_dim = 1 and slice sizes [1, B, C] has the result
  [R, B, C] whose slab e is a slab of the table: read at (e, j, l) it is the table at (r, j, l), where r is the start index
  idx[e, 0] read as a signed integer and clamped into [0, N − 1]. The first axis is start-indexed and collapsed, so its slice
  has extent one and the clamp's upper end is N − 1; the other two axes are the offset axes, not start-indexed, so their
  slices start at 0 and the result's coordinates on them are the table's.

  A table T : [A, B, C] gathered at idx : [M, 3], one full coordinate triple per result entry, with offset_dims = [],
  collapsed_slice_dims = [0, 1, 2], start_index_map = [0, 1, 2], index_vector_dim = 1 and slice sizes [1, 1, 1] has the
  result [M]: read at n it is the table at the triple idx[n, 0], idx[n, 1], idx[n, 2], each read signed and clamped into its
  axis's range.

  The host's maximum and sum over the last axis of an [a, b, c] array, read at (i, j), are the fold of max and the sum over
  the entries (i, j, l), from the initial value. A matrix [a, c] placed on axes 0 and 2 of [a, 1, c], and a rank-3 array
  with a unit axis broadcast along it, keep their entries.
-/
import Idealize.ShloMosaic.PureOps.ShapeOps
import Idealize.ShloMosaic.PureOps.Ideal.Laws
import Idealize.ShloMosaic.Lib.ValueIdx
import Idealize.ShloMosaic.Lib.IdealHost
import Idealize.ShloMosaic.Lib.Pipeline.Value

noncomputable section

namespace Idealize.ShloMosaic.GatherHost3

open Idealize.ShloMosaic Idealize.ShloMosaic.ValueIdx

/-- Equal lists have equal entries at equal positions. -/
theorem getElem_of_eq {β : Type} {l l' : List β} {n n' : Nat} (h : n < l.length) (hl : l = l') (hn : n = n')
    (h' : n' < l'.length) : l[n] = l'[n'] := by
  subst hl hn; rfl

/-- A list that is one entry long has that entry at every position it has. -/
theorem getElem_of_eq_singleton {β : Type} (l : List β) (b : β) (n : Nat) (h : n < l.length) (hl : l = [b]) : l[n] = b := by
  subst hl
  have : n = 0 := by simpa using h
  subst this; rfl

/-! ## A gather of whole slabs of a rank-3 table -/

/-- THE SLAB GATHER READ AT (e, j, l). For dimension numbers over a table [N, B, C], start indices [R, 1] and result
    [R, B, C] with offset axes 1 and 2, collapsed axis 0, no batching axes, start index map [0] and the index vector on
    axis 1: the table at slab idx[e, 0], read signed and clamped into [0, N − 1], coordinates (j, l). -/
theorem gather_slabs {α : Type} {N B C R w : Nat} (d : GatherDims ⟨3, ![N, B, C]⟩ ⟨2, ![R, 1]⟩ ⟨3, ![R, B, C]⟩)
    (hoff : d.offsetDims = [1, 2]) (hcoll : d.collapsedSliceDims = [0]) (hob : d.operandBatchingDims = [])
    (hsim : d.startIndexMap = [0]) (hivd : d.indexVectorDim = 1)
    (T : (⟨3, ![N, B, C]⟩ : Shape).Idx → α) (idx : IVec ⟨2, ![R, 1]⟩ w) (e : Fin R) (j : Fin B) (l : Fin C) (hN : 0 < N) :
    Host.gather d T idx (ix3 e j l) = T (ix3 ⟨min (idx (ix2 e 0)).toInt.toNat (N - 1), by omega⟩ j l) := by
  unfold Host.gather
  congr 1
  funext a
  apply Fin.ext
  have hb : ∀ a, a ∉ d.operandBatchingDims := fun a => by rw [hob]; exact List.not_mem_nil
  have hsk : d.sKept = [1, 2] := by
    show Shape.kept _ (d.collapsedSliceDims ++ d.operandBatchingDims) = _
    rw [hcoll, hob]; rfl
  match a with
  | ⟨0, _⟩ =>
    -- the slab axis: start-indexed and collapsed, so the coordinate is the clamped start alone
    have hk : (0 : Fin 3) ∉ d.sKept := by rw [hsk]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 e j l) idx 0 + d.batchCoord (ix3 e j l) 0 + d.offCoord (ix3 e j l) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 e 0)).toInt.toNat (N - 1)
    rw [hsl]
    congr 3
    congr 1
    -- the start-indices index of result index (e, j, l), component 0, is (e, 0)
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton d.batchDims 0 _ _ hbd]
      rfl
    | ⟨1, _⟩ =>
      unfold GatherDims.siIdx
      rw [dif_pos (by rw [hivd])]
      apply Fin.ext
      show List.idxOf (0 : Fin 3) d.startIndexMap = 0
      rw [hsim]; simp
  | ⟨1, _⟩ =>
    -- the first offset axis: not start-indexed, so the coordinate is the result's on axis 1
    have hk : (1 : Fin 3) ∈ d.sKept := by rw [hsk]; simp
    have hm : (1 : Fin 3) ∉ d.startIndexMap := by rw [hsim]; simp
    have hpos : d.sKept.idxOf (1 : Fin 3) = 0 := by rw [hsk]; rfl
    show d.start (ix3 e j l) idx 1 + d.batchCoord (ix3 e j l) 1 + d.offCoord (ix3 e j l) 1 = j.val
    rw [GatherDims.batchCoord_eq_zero _ _ _ (hb 1)]
    unfold GatherDims.start GatherDims.offCoord
    rw [dif_neg hm, dif_pos hk]
    simp only [Nat.add_zero, Nat.zero_add]
    rw [getElem_of_eq _ hoff hpos (Nat.zero_lt_succ 1)]
    rfl
  | ⟨2, _⟩ =>
    -- the second offset axis: not start-indexed, so the coordinate is the result's on axis 2
    have hk : (2 : Fin 3) ∈ d.sKept := by rw [hsk]; simp
    have hm : (2 : Fin 3) ∉ d.startIndexMap := by rw [hsim]; simp
    have hpos : d.sKept.idxOf (2 : Fin 3) = 1 := by rw [hsk]; rfl
    show d.start (ix3 e j l) idx 2 + d.batchCoord (ix3 e j l) 2 + d.offCoord (ix3 e j l) 2 = l.val
    rw [GatherDims.batchCoord_eq_zero _ _ _ (hb 2)]
    unfold GatherDims.start GatherDims.offCoord
    rw [dif_neg hm, dif_pos hk]
    simp only [Nat.add_zero, Nat.zero_add]
    rw [getElem_of_eq _ hoff hpos (Nat.lt_succ_self 1)]
    rfl

/-! ## A gather of single entries of a rank-3 table by coordinate triples -/

/-- THE POINT GATHER READ AT n. For dimension numbers over a table [A, B, C], start indices [M, 3] and result [M] with no
    offset axes, all three axes collapsed, no batching axes, start index map [0, 1, 2] and the index vector on axis 1: the
    table at the triple (idx[n, 0], idx[n, 1], idx[n, 2]), each component read signed and clamped into its axis's range. -/
theorem gather_points {α : Type} {A B C M w : Nat} (d : GatherDims ⟨3, ![A, B, C]⟩ ⟨2, ![M, 3]⟩ ⟨1, ![M]⟩)
    (hoff : d.offsetDims = []) (hcoll : d.collapsedSliceDims = [0, 1, 2]) (hob : d.operandBatchingDims = [])
    (hsim : d.startIndexMap = [0, 1, 2]) (hivd : d.indexVectorDim = 1)
    (T : (⟨3, ![A, B, C]⟩ : Shape).Idx → α) (idx : IVec ⟨2, ![M, 3]⟩ w) (n : Fin M)
    (hA : 0 < A) (hB : 0 < B) (hC : 0 < C) :
    Host.gather d T idx (ix1 n)
      = T (ix3 ⟨min (idx (ix2 n 0)).toInt.toNat (A - 1), by omega⟩ ⟨min (idx (ix2 n 1)).toInt.toNat (B - 1), by omega⟩
          ⟨min (idx (ix2 n 2)).toInt.toNat (C - 1), by omega⟩) := by
  unfold Host.gather
  congr 1
  funext a
  apply Fin.ext
  have hb : ∀ a, a ∉ d.operandBatchingDims := fun a => by rw [hob]; exact List.not_mem_nil
  have hsk : d.sKept = [] := by
    show Shape.kept _ (d.collapsedSliceDims ++ d.operandBatchingDims) = _
    rw [hcoll, hob]; rfl
  have hk : ∀ a, a ∉ d.sKept := fun a => by rw [hsk]; exact List.not_mem_nil
  -- the start-indices index of result index n, component k, is (n, k)
  have hsi : ∀ (c : Fin d.startIndexMap.length) (k : Fin 3), c.val = k.val → d.siIdx (ix1 n) c = ix2 n k := by
    intro c k hck
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton d.batchDims 0 _ _ hbd]
      rfl
    | ⟨1, _⟩ =>
      unfold GatherDims.siIdx
      rw [dif_pos (by rw [hivd])]
      apply Fin.ext
      exact hck
  match a with
  | ⟨0, _⟩ =>
    have hm : (0 : Fin 3) ∈ d.startIndexMap := by rw [hsim]; simp
    have hsl : d.sliceSizes 0 = 1 := d.slice_collapsed 0 (by rw [hcoll]; simp)
    show d.start (ix1 n) idx 0 + d.batchCoord (ix1 n) 0 + d.offCoord (ix1 n) 0 = _
    rw [GatherDims.batchCoord_eq_zero _ _ _ (hb 0), GatherDims.offCoord_eq_zero _ _ _ (hk 0)]
    simp only [Nat.add_zero]
    unfold GatherDims.start
    rw [dif_pos hm, hsi _ 0 (by show List.idxOf (0 : Fin 3) d.startIndexMap = 0; rw [hsim]; rfl)]
    show min (idx _).toInt.toNat (A - d.sliceSizes 0) = min (idx (ix2 n 0)).toInt.toNat (A - 1)
    rw [hsl]
  | ⟨1, _⟩ =>
    have hm : (1 : Fin 3) ∈ d.startIndexMap := by rw [hsim]; simp
    have hsl : d.sliceSizes 1 = 1 := d.slice_collapsed 1 (by rw [hcoll]; simp)
    show d.start (ix1 n) idx 1 + d.batchCoord (ix1 n) 1 + d.offCoord (ix1 n) 1 = _
    rw [GatherDims.batchCoord_eq_zero _ _ _ (hb 1), GatherDims.offCoord_eq_zero _ _ _ (hk 1)]
    simp only [Nat.add_zero]
    unfold GatherDims.start
    rw [dif_pos hm, hsi _ 1 (by show List.idxOf (1 : Fin 3) d.startIndexMap = 1; rw [hsim]; rfl)]
    show min (idx _).toInt.toNat (B - d.sliceSizes 1) = min (idx (ix2 n 1)).toInt.toNat (B - 1)
    rw [hsl]
  | ⟨2, _⟩ =>
    have hm : (2 : Fin 3) ∈ d.startIndexMap := by rw [hsim]; simp
    have hsl : d.sliceSizes 2 = 1 := d.slice_collapsed 2 (by rw [hcoll]; simp)
    show d.start (ix1 n) idx 2 + d.batchCoord (ix1 n) 2 + d.offCoord (ix1 n) 2 = _
    rw [GatherDims.batchCoord_eq_zero _ _ _ (hb 2), GatherDims.offCoord_eq_zero _ _ _ (hk 2)]
    simp only [Nat.add_zero]
    unfold GatherDims.start
    rw [dif_pos hm, hsi _ 2 (by show List.idxOf (2 : Fin 3) d.startIndexMap = 2; rw [hsim]; rfl)]
    show min (idx _).toInt.toNat (C - d.sliceSizes 2) = min (idx (ix2 n 2)).toInt.toNat (C - 1)
    rw [hsl]

/-! ## The host's reductions over the last axis of a rank-3 array, at the ideal values -/

/-- A shape fact of the host's reduction over the last axis of [a, b, c] is also the kernel-side one: the result [a, b]
    has an axis. -/
theorem reduces_of_reducesTo {a b c : ℕ} (h' : (⟨3, ![a, b, c]⟩ : Shape).ReducesTo [2] ⟨2, ![a, b]⟩) :
    (⟨3, ![a, b, c]⟩ : Shape).Reduces [2] ⟨2, ![a, b]⟩ :=
  ⟨h'.1, Nat.zero_lt_two, h'.2⟩

/-- The index over (i, j) with l put on the dropped last axis is (i, j, l). -/
theorem lift_lastAxis {a b c : ℕ} (h : (⟨3, ![a, b, c]⟩ : Shape).Reduces [2] ⟨2, ![a, b]⟩) (i : Fin a) (j : Fin b) (l : Fin c) :
    h.lift (ix2 i j) l = ix3 i j l := by
  funext ax; apply Fin.ext
  match ax with
  | ⟨0, _⟩ => rfl
  | ⟨1, _⟩ => rfl
  | ⟨2, _⟩ => rfl

/-- The host's maximum over the last axis, read at (i, j), is the fold of max, from the initial value, over the entries
    (i, j, l). -/
theorem hostReduce_maximumf_last {a b c : ℕ} {φ : FTy} {u : Shape} (x : (⟨3, ![a, b, c]⟩ : Shape).Idx → Ideal φ)
    (init : u.Idx → Ideal φ) (h' : (⟨3, ![a, b, c]⟩ : Shape).ReducesTo [2] ⟨2, ![a, b]⟩) (hu : 0 < u.numel)
    (i : Fin a) (j : Fin b) :
    Host.reduce (FloatOps.maximumf (F := Ideal) (φ := φ)) x init h' hu (ix2 i j)
      = (Finset.univ : Finset (Fin c)).fold max (init (Shape.Idx.first hu)) (fun l => x (ix3 i j l)) := by
  have h := reduces_of_reducesTo h'
  refine (Host.reduce_eq_fold_single (FloatOps.maximumf (F := Ideal) (φ := φ)) x init h' h hu (ix2 i j)).trans ?_
  show (Finset.univ : Finset (Fin c)).fold max (init (Shape.Idx.first hu)) (fun l => x (h.lift (ix2 i j) l)) = _
  exact congrArg (fun f : Fin c → EReal => (Finset.univ : Finset (Fin c)).fold max (init (Shape.Idx.first hu)) f)
    (funext fun l => congrArg x (lift_lastAxis h i j l))

/-- The host's sum over the last axis, read at (i, j), is the initial value plus the sum of the entries (i, j, l). -/
theorem hostReduceAdd_last {a b c : ℕ} {φ : FTy} {u : Shape} (x : FVec Ideal ⟨3, ![a, b, c]⟩ φ)
    (init : u.Idx → Ideal φ) (h' : (⟨3, ![a, b, c]⟩ : Shape).ReducesTo [2] ⟨2, ![a, b]⟩) (hu : 0 < u.numel)
    (i : Fin a) (j : Fin b) :
    Host.reduceAdd x init h' hu (ix2 i j) = init (Shape.Idx.first hu) + ∑ l : Fin c, x (ix3 i j l) := by
  have h := reduces_of_reducesTo h'
  show Ideal.hostReduceAdd h' x (init (Shape.Idx.first hu)) (ix2 i j) = _
  rw [Ideal.hostReduceAdd_single h' h]
  show _ + ∑ l : Fin c, x (h.lift (ix2 i j) l) = _
  exact congrArg _ (Finset.sum_congr rfl fun l _ => congrArg x (lift_lastAxis h i j l))

/-! ## Unit axes added by a host broadcast, and broadcasts along a unit axis -/

variable {α : Type}

/-- A vector [a] placed on axis 0 of [a, 1] reads, at (i, u), the vector's entry i. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A matrix [a, b] placed on axes 0 and 1 of [a, b, 1] reads, at (i, j, u), the matrix's entry (i, j). -/
theorem broadcastInDim_ab_ab1_apply {a b : ℕ} (x : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h x (ix3 i j u) = x (ix2 i j) := by
  refine broadcastInDim_apply _ h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- A matrix [a, c] placed on axes 0 and 2 of [a, 1, c] reads, at (i, u, l), the matrix's entry (i, l). -/
theorem broadcastInDim_ac_a1c_apply {a c : ℕ} (x : (⟨2, ![a, c]⟩ : Shape).Idx → α)
    (h : (⟨2, ![a, c]⟩ : Shape).BroadcastsInDim ⟨3, ![a, 1, c]⟩ ![0, 2]) (i : Fin a) (u : Fin 1) (l : Fin c) :
    broadcastInDim ⟨3, ![a, 1, c]⟩ ![0, 2] h x (ix3 i u l) = x (ix2 i l) := by
  refine broadcastInDim_apply _ h x (ix3 i u l) (ix2 i l) fun ax => ?_
  match ax with
  | ⟨0, _⟩ =>
    show i.val = if a = 1 then 0 else i.val
    split
    · have := i.isLt; omega
    · rfl
  | ⟨1, _⟩ =>
    show l.val = if c = 1 then 0 else l.val
    split
    · have := l.isLt; omega
    · rfl

/-- An [a, 1, c] array broadcast axis by axis to [a, b, c] reads, at (i, j, l), the operand at (i, 0, l). -/
theorem broadcastInDim_a1c_abc_apply {a b c : ℕ} (x : (⟨3, ![a, 1, c]⟩ : Shape).Idx → α)
    (h : (⟨3, ![a, 1, c]⟩ : Shape).BroadcastsInDim ⟨3, ![a, b, c]⟩ ![0, 1, 2]) (i : Fin a) (j : Fin b) (l : Fin c) :
    broadcastInDim ⟨3, ![a, b, c]⟩ ![0, 1, 2] h x (ix3 i j l) = x (ix3 i (0 : Fin 1) l) := by
  refine broadcastInDim_apply _ h x (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- An [a, b, 1] array broadcast axis by axis to [a, b, c] reads, at (i, j, l), the operand at (i, j, 0). -/
theorem broadcastInDim_ab1_abc_apply {a b c : ℕ} (x : (⟨3, ![a, b, 1]⟩ : Shape).Idx → α)
    (h : (⟨3, ![a, b, 1]⟩ : Shape).BroadcastsInDim ⟨3, ![a, b, c]⟩ ![0, 1, 2]) (i : Fin a) (j : Fin b) (l : Fin c) :
    broadcastInDim ⟨3, ![a, b, c]⟩ ![0, 1, 2] h x (ix3 i j l) = x (ix3 i j (0 : Fin 1)) := by
  refine broadcastInDim_apply _ h x (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Idealize.ShloMosaic.GatherHost3

end
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.LibScatterAddSlabs.lean ====
/-
  A slab-wise accumulating scatter read at an entry, at the ideal values.

  The host's accumulating scatter of an [N, B, D] array of update slabs into a [C, B, D] operand by an [N, 1] column of
  slab indices (the update's second and third axes the window, the operand's first axis inserted and scattered to, the
  index vector on the indices' second axis) sends update slab n whole to operand slab idx(n), the index word read as a
  signed integer and not clamped; a slab whose index is below 0 or not below C is dropped. So entry (k, r, e) of the
  result is the operand's entry plus the sum over the slabs n of: update entry (n, r, e) when idx(n) is k, zero
  otherwise.

  The road: an update index lands at a given operand index exactly when, on every operand axis, the window's start plus
  the window coordinate is that index's coordinate. For these dimension numbers the start is the index word on the
  scattered axis and zero on the two window axes, and the window coordinate is zero on the inserted axis and the
  update's own coordinate on each window axis; so update (n, r', e') lands at (k, r, e) exactly when idx(n) reads k,
  r' is r and e' is e. The filtered sum over the update indices is then the triple sum over slabs, rows and columns of
  an `if`, and the two inner sums have one term each.
-/
import proofs.«419409_j64768106824287_2_alg».proof.Proof.LibScatterAddRows

noncomputable section

open scoped BigOperators

namespace Idealize.ShloMosaic.ScatterAddSlabs

open Idealize.ShloMosaic Idealize.ShloMosaic.ValueIdx Idealize.ShloMosaic.ScatterAddRows

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The dimension numbers of a scatter of whole [B, D] slabs into a [C, B, D] operand by an [N, 1] column of slab
    indices; their conditions `wf` are decided on a program's literal shapes. -/
abbrev slabDims (C B D N : ℕ) (wf : ScatterDims.WF ⟨3, ![C, B, D]⟩ ⟨2, ![N, 1]⟩ ⟨3, ![N, B, D]⟩ [1, 2] [0] [0] 1) :
    ScatterDims ⟨3, ![C, B, D]⟩ ⟨2, ![N, 1]⟩ ⟨3, ![N, B, D]⟩ where
  updateWindowDims := [1, 2]
  insertedWindowDims := [0]
  scatterDimsToOperandDims := [0]
  indexVectorDim := 1
  wf := wf

section Slabs
variable {C B D N : ℕ} (wf : ScatterDims.WF ⟨3, ![C, B, D]⟩ ⟨2, ![N, 1]⟩ ⟨3, ![N, B, D]⟩ [1, 2] [0] [0] 1)

/-- The index word an update slab reads: the column of indices at (slab, 0). -/
theorem slabs_siIdx (j : (⟨3, ![N, B, D]⟩ : Shape).Idx) (c) :
    (slabDims C B D N wf).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the slab's index word, read signed. -/
theorem slabs_start0 {w : ℕ} (j : (⟨3, ![N, B, D]⟩ : Shape).Idx) (idx : IVec ⟨2, ![N, 1]⟩ w) :
    (slabDims C B D N wf).start j idx 0 = (idx (ix2 (j 0) (0 : Fin 1))).toInt := by
  unfold ScatterDims.start
  rw [dif_pos (List.mem_cons_self ..), slabs_siIdx]
  rfl

/-- On the first window axis the window starts at zero. -/
theorem slabs_start1 {w : ℕ} (j : (⟨3, ![N, B, D]⟩ : Shape).Idx) (idx : IVec ⟨2, ![N, 1]⟩ w) :
    (slabDims C B D N wf).start j idx 1 = 0 := by
  unfold ScatterDims.start
  rw [dif_neg (by simp)]

/-- On the second window axis the window starts at zero. -/
theorem slabs_start2 {w : ℕ} (j : (⟨3, ![N, B, D]⟩ : Shape).Idx) (idx : IVec ⟨2, ![N, 1]⟩ w) :
    (slabDims C B D N wf).start j idx 2 = 0 := by
  unfold ScatterDims.start
  rw [dif_neg (by simp)]

/-- The inserted axis has window coordinate zero. -/
theorem slabs_window0 (j : (⟨3, ![N, B, D]⟩ : Shape).Idx) : (slabDims C B D N wf).window j 0 = 0 := rfl

/-- The first window axis has the update's row as window coordinate. -/
theorem slabs_window1 (j : (⟨3, ![N, B, D]⟩ : Shape).Idx) : (slabDims C B D N wf).window j 1 = (j 1).val := rfl

/-- The second window axis has the update's column as window coordinate. -/
theorem slabs_window2 (j : (⟨3, ![N, B, D]⟩ : Shape).Idx) : (slabDims C B D N wf).window j 2 = (j 2).val := rfl

/-- Update index j lands at (k, r, e) exactly when its slab's index word reads k, its row is r and its column is e. -/
theorem slabs_resultIdx?_iff {w : ℕ} (j : (⟨3, ![N, B, D]⟩ : Shape).Idx) (idx : IVec ⟨2, ![N, 1]⟩ w)
    (k : Fin C) (r : Fin B) (e : Fin D) :
    (slabDims C B D N wf).resultIdx? j idx = some (ix3 k r e)
      ↔ (idx (ix2 (j 0) (0 : Fin 1))).toInt = (k.val : ℤ) ∧ j 1 = r ∧ j 2 = e := by
  rw [resultIdx?_eq_some_iff]
  constructor
  · intro h
    have h0 : (slabDims C B D N wf).start j idx 0 + ((slabDims C B D N wf).window j 0 : ℤ) = (k.val : ℤ) := h 0
    have h1 : (slabDims C B D N wf).start j idx 1 + ((slabDims C B D N wf).window j 1 : ℤ) = (r.val : ℤ) := h 1
    have h2 : (slabDims C B D N wf).start j idx 2 + ((slabDims C B D N wf).window j 2 : ℤ) = (e.val : ℤ) := h 2
    rw [slabs_start0, slabs_window0] at h0
    rw [slabs_start1, slabs_window1] at h1
    rw [slabs_start2, slabs_window2] at h2
    refine ⟨by omega, Fin.ext (by omega), Fin.ext (by omega)⟩
  · rintro ⟨h0, h1, h2⟩ a
    match a with
    | ⟨0, _⟩ =>
      show (slabDims C B D N wf).start j idx 0 + ((slabDims C B D N wf).window j 0 : ℤ) = (k.val : ℤ)
      rw [slabs_start0, slabs_window0]
      omega
    | ⟨1, _⟩ =>
      show (slabDims C B D N wf).start j idx 1 + ((slabDims C B D N wf).window j 1 : ℤ) = (r.val : ℤ)
      rw [slabs_start1, slabs_window1, h1]
      omega
    | ⟨2, _⟩ =>
      show (slabDims C B D N wf).start j idx 2 + ((slabDims C B D N wf).window j 2 : ℤ) = (e.val : ℤ)
      rw [slabs_start2, slabs_window2, h2]
      omega

end Slabs

/-- Slabs of shape [B, D] accumulated into a [C, B, D] operand by an [N, 1] column of slab indices, read at
    (k, r, e): the operand's entry plus the sum over the slabs n whose index word, read signed, is k of update entry
    (n, r, e). A slab whose index word is not the position of an operand slab meets no k and is dropped. -/
theorem scatterAdd_slabs_apply {C B D N w : ℕ}
    (wf : ScatterDims.WF ⟨3, ![C, B, D]⟩ ⟨2, ![N, 1]⟩ ⟨3, ![N, B, D]⟩ [1, 2] [0] [0] 1)
    (x : (⟨3, ![C, B, D]⟩ : Shape).Idx → EReal) (idx : IVec ⟨2, ![N, 1]⟩ w)
    (upd : (⟨3, ![N, B, D]⟩ : Shape).Idx → EReal) (k : Fin C) (r : Fin B) (e : Fin D) :
    Ideal.hostScatterAdd (slabDims C B D N wf) x idx upd (ix3 k r e)
      = x (ix3 k r e) + ∑ n : Fin N, if (idx (ix2 n (0 : Fin 1))).toInt = (k.val : ℤ) then upd (ix3 n r e) else 0 := by
  unfold Ideal.hostScatterAdd
  congr 1
  rw [Finset.sum_filter, sum_idx3]
  refine Finset.sum_congr rfl fun n _ => ?_
  have hiff : ∀ (b : Fin B) (c : Fin D),
      ((slabDims C B D N wf).resultIdx? (ix3 n b c) idx = some (ix3 k r e))
        ↔ ((idx (ix2 n (0 : Fin 1))).toInt = (k.val : ℤ) ∧ b = r ∧ c = e) :=
    fun b c => slabs_resultIdx?_iff wf (ix3 n b c) idx k r e
  simp only [hiff]
  by_cases hc : (idx (ix2 n (0 : Fin 1))).toInt = (k.val : ℤ)
  · rw [if_pos hc, Finset.sum_eq_single r, Finset.sum_eq_single e]
    · rw [if_pos ⟨hc, rfl, rfl⟩]
    · intro c _ hce
      rw [if_neg (fun h => hce h.2.2)]
    · intro h
      exact absurd (Finset.mem_univ _) h
    · intro b _ hbr
      refine Finset.sum_eq_zero fun c _ => ?_
      rw [if_neg (fun h => hbr h.2.1)]
    · intro h
      exact absurd (Finset.mem_univ _) h
  · rw [if_neg hc]
    refine Finset.sum_eq_zero fun b _ => Finset.sum_eq_zero fun c _ => ?_
    rw [if_neg (fun h => hc h.1)]

/-- The same for any record of those dimension numbers, however its well-formedness was obtained. -/
theorem scatterAdd_slabs_apply_of {C B D N w : ℕ} (d : ScatterDims ⟨3, ![C, B, D]⟩ ⟨2, ![N, 1]⟩ ⟨3, ![N, B, D]⟩)
    (huw : d.updateWindowDims = [1, 2]) (hiw : d.insertedWindowDims = [0]) (hsd : d.scatterDimsToOperandDims = [0])
    (hiv : d.indexVectorDim = 1)
    (x : (⟨3, ![C, B, D]⟩ : Shape).Idx → EReal) (idx : IVec ⟨2, ![N, 1]⟩ w)
    (upd : (⟨3, ![N, B, D]⟩ : Shape).Idx → EReal) (k : Fin C) (r : Fin B) (e : Fin D) :
    Ideal.hostScatterAdd d x idx upd (ix3 k r e)
      = x (ix3 k r e) + ∑ n : Fin N, if (idx (ix2 n (0 : Fin 1))).toInt = (k.val : ℤ) then upd (ix3 n r e) else 0 := by
  obtain ⟨uw, iw, sd, iv, wf⟩ := d
  simp only at huw hiw hsd hiv
  subst huw hiw hsd hiv
  exact scatterAdd_slabs_apply wf x idx upd k r e

end Idealize.ShloMosaic.ScatterAddSlabs

end
-- ==== Proof.RefValue.lean ====
/-
  The reference program's result, read entry by entry, is the block-sparse linear map of its arguments.

  The program views x as 128 blocks of 256 rows, picks for each of the 819 weight blocks the input block its index
  word names (a negative word wrapped by adding 128: a word in range is not negative, and is left alone), multiplies
  each weight block into its input block, accumulates the 819 products into 64 output blocks of zeros by the output
  index words, lays the 64 blocks out as 16384 rows and adds the bias along the rows.  Read at row o·256 + r and
  column col, with every index word in range, that is
      Σ over n with out(n) = o of  Σ_i W n r i · x (in(n)·256 + i) col,   plus bias (o·256 + r):
  the gather reads input block in(n) (the clamp into [0, 127] does nothing to a word in range), the batched product
  is the inner sum, and the accumulating scatter's entry is zero plus the sum over the blocks whose word names o.
-/
import proofs.«419409_j64768106824287_2_alg».proof.Proof.Gen.ReferenceIdeal.Run
import proofs.«419409_j64768106824287_2_alg».proof.Proof.Gen.ReferenceIdeal.Read
import proofs.«419409_j64768106824287_2_alg».proof.Proof.SpecArr
import proofs.«419409_j64768106824287_2_alg».proof.Proof.LibGatherHost3
import proofs.«419409_j64768106824287_2_alg».proof.Proof.LibScatterAddSlabs

noncomputable section

namespace Cert.ReferenceIdeal.RefValue

open Cert.ReferenceIdeal Cert.ReferenceIdeal.Gen Cert.ReferenceIdeal.Read Cert.BlockSparse Idealize.ShloMosaic
  Idealize.ShloMosaic.ValueIdx

/-! ## Index words in range -/

/-- A 32-bit word below a bound that is at most 2^31 reads, as a signed integer, as its value. -/
theorem toInt_of_lt (v : BitVec 32) (n : ℕ) (h : v.toNat < n) (hn : n ≤ 2147483648) : v.toInt = (v.toNat : ℤ) := by
  rw [BitVec.toInt_eq_toNat_cond, if_pos (by omega)]

/-- A word in range is not negative, so the wrap of negative words leaves it as it is. -/
theorem wrap_eq (ii : (⟨S819, .i32⟩ : BufTy).Contents (Elt Ideal)) (n : Fin 819) (h : (ii (ix1 n)).toNat < 128) :
    val_main_v5 (F := Ideal) ii (ix1 n) = ii (ix1 n) := by
  rw [val_main_v5_apply, val_main_v2_apply, val_main_v1_apply, val_main_c_apply]
  have h0 : (ii (ix1 n)).slt 0#32 = false := by
    have ht := toInt_of_lt (ii (ix1 n)) 128 h (by norm_num)
    have hz : (0#32 : BitVec 32).toInt = 0 := by decide
    simp only [BitVec.slt, hz, ht, decide_eq_false_iff_not, not_lt]
    exact Int.natCast_nonneg _
  rw [show IntOp.cmpi .slt (ii (ix1 n)) 0#32 = BitVec.ofBool ((ii (ix1 n)).slt 0#32) from rfl, h0]
  exact select_zero _ _

/-! ## The gather: block n of the gathered array is input block in(n) of x -/

/-- Entry (n, k, col) of the gathered array is x at row in(n)·256 + k, column col: the start index is the word of
    block n, which the wrap and the clamp into [0, 127] leave alone, and the reshaped x at (g, k, col) is x at
    (g·256 + k, col). -/
theorem gatherEntry (x : (⟨S32768x1024, .f32⟩ : BufTy).Contents (Elt Ideal))
    (ii : (⟨S819, .i32⟩ : BufTy).Contents (Elt Ideal)) (n : Fin 819) (k : Fin 256) (col : Fin 1024)
    (h : (ii (ix1 n)).toNat < 128) :
    val_main_v7 (F := Ideal) x ii (ix3 n k col) = Xof x (xrow (inOf ii n) k) col := by
  unfold val_main_v7
  rw [Idealize.ShloMosaic.GatherHost3.gather_slabs _ rfl rfl rfl rfl rfl _ _ n k col (by decide), val_main_v0_apply]
  have h6 : val_main_v6 (F := Ideal) ii (ix2 n (0 : Fin 1)) = ii (ix1 n) := by
    rw [val_main_v6_apply]
    have hi : idx_main_v6 (ix2 n (0 : Fin 1)) = ix1 n := by
      funext a
      match a with
      | ⟨0, _⟩ => rfl
    rw [hi, wrap_eq ii n h]
  have ht := toInt_of_lt (ii (ix1 n)) 128 h (by norm_num)
  unfold Xof
  congr 1
  funext a
  apply Fin.ext
  have hk : k.val < 256 := k.isLt
  have hc : col.val < 1024 := col.isLt
  match a with
  | ⟨0, _⟩ =>
    show ((min (val_main_v6 (F := Ideal) ii (ix2 n (0 : Fin 1))).toInt.toNat (128 - 1) * 256 + k.val) * 1024 + col.val) / 1024
      = (ii (ix1 n)).toNat % 128 * 256 + k.val
    rw [h6, ht, Int.toNat_natCast]
    omega
  | ⟨1, _⟩ =>
    show ((min (val_main_v6 (F := Ideal) ii (ix2 n (0 : Fin 1))).toInt.toNat (128 - 1) * 256 + k.val) * 1024 + col.val) % 1024
      = col.val
    omega

/-! ## The batched product: entry (n, r, col) is weight block n times input block in(n) -/

/-- Entry (n, r, col) of the batched product is the sum over i of W n r i times x at row in(n)·256 + i, column col. -/
theorem dotEntry (x : (⟨S32768x1024, .f32⟩ : BufTy).Contents (Elt Ideal))
    (w : (⟨S819x256x256, .f32⟩ : BufTy).Contents (Elt Ideal))
    (ii : (⟨S819, .i32⟩ : BufTy).Contents (Elt Ideal)) (n : Fin 819) (r : Fin 256) (col : Fin 1024)
    (h : (ii (ix1 n)).toNat < 128) :
    val_main_v8 (F := Ideal) x w ii (ix3 n r col) = contrib (Xof x) (Wof w n) (inOf ii n) r col := by
  rw [val_main_v8_apply]
  unfold contrib
  refine Finset.sum_congr rfl fun k _ => ?_
  have hl : lidx_main_v8 (ix3 n r col) k = ix3 n r k := by
    funext a
    match a with
    | ⟨0, _⟩ => rfl
    | ⟨1, _⟩ => rfl
    | ⟨2, _⟩ => rfl
  have hr : ridx_main_v8 (ix3 n r col) k = ix3 n k col := by
    funext a
    match a with
    | ⟨0, _⟩ => rfl
    | ⟨1, _⟩ => rfl
    | ⟨2, _⟩ => rfl
  rw [hl, hr, gatherEntry x ii n k col h]
  rfl

/-! ## The accumulating scatter: entry (o, r, col) sums the products of the blocks aimed at o -/

/-- Entry (o, r, col) of the accumulated array is the sum, over the blocks n whose output word names o, of block n's
    product at (r, col): the zeros add nothing, and a word in range read as a signed integer is o exactly when the
    word is o. -/
theorem scatterEntry (x : (⟨S32768x1024, .f32⟩ : BufTy).Contents (Elt Ideal))
    (w : (⟨S819x256x256, .f32⟩ : BufTy).Contents (Elt Ideal))
    (ii oi : (⟨S819, .i32⟩ : BufTy).Contents (Elt Ideal))
    (hin : ∀ n : Fin 819, (ii (ix1 n)).toNat < 128) (hout : ∀ n : Fin 819, (oi (ix1 n)).toNat < 64)
    (o : Fin 64) (r : Fin 256) (col : Fin 1024) :
    val_main_v11 (F := Ideal) x w ii oi (ix3 o r col)
      = ∑ n : Fin 819, if outOf oi n = o then contrib (Xof x) (Wof w n) (inOf ii n) r col else 0 := by
  unfold val_main_v11
  show Ideal.hostScatterAdd scatter_S64x256x1024_S819x1_S819x256x1024_12_0_0_1 (val_main_v9 (F := Ideal))
    (val_main_v10 (F := Ideal) oi) (val_main_v8 (F := Ideal) x w ii) (ix3 o r col) = _
  rw [Idealize.ShloMosaic.ScatterAddSlabs.scatterAdd_slabs_apply_of _ rfl rfl rfl rfl, val_main_v9_apply,
    val_main_cst_apply]
  show Ideal.ofBits .f32 0x00000000#32 + _ = _
  rw [Ideal.ofBits_zero_f32, zero_add]
  refine Finset.sum_congr rfl fun n _ => ?_
  have h10 : val_main_v10 (F := Ideal) oi (ix2 n (0 : Fin 1)) = oi (ix1 n) := by
    rw [val_main_v10_apply]
    congr 1
    funext a
    match a with
    | ⟨0, _⟩ => rfl
  rw [h10, dotEntry x w ii n r col (hin n), toInt_of_lt (oi (ix1 n)) 64 (hout n) (by norm_num)]
  have ho := hout n
  refine if_congr ⟨fun he => Fin.ext ?_, fun he => ?_⟩ rfl rfl
  · show (oi (ix1 n)).toNat % 64 = o.val
    omega
  · have hv : (oi (ix1 n)).toNat % 64 = o.val := congrArg Fin.val he
    omega

/-! ## The result -/

/-- The reference's result array is the specification's, when every index word is in range. -/
theorem result_eq (x : (⟨S32768x1024, .f32⟩ : BufTy).Contents (Elt Ideal))
    (w : (⟨S819x256x256, .f32⟩ : BufTy).Contents (Elt Ideal)) (b : (⟨S16384x1, .f32⟩ : BufTy).Contents (Elt Ideal))
    (ii oi : (⟨S819, .i32⟩ : BufTy).Contents (Elt Ideal))
    (hin : ∀ n : Fin 819, (ii (ix1 n)).toNat < 128) (hout : ∀ n : Fin 819, (oi (ix1 n)).toNat < 64) :
    Read.val_main_v14 (F := Ideal) x w b ii oi = specArr x w b ii oi := by
  funext j
  have h0 : (j 0).val < 16384 := (j 0).isLt
  have h1 : (j 1).val < 1024 := (j 1).isLt
  have hj : idx_main_v12 j
      = ix3 (⟨(j 0).val / 256, by omega⟩ : Fin 64) (⟨(j 0).val % 256, Nat.mod_lt _ (by decide)⟩ : Fin 256)
          (⟨(j 1).val, (j 1).isLt⟩ : Fin 1024) := by
    funext a
    apply Fin.ext
    match a with
    | ⟨0, _⟩ =>
      show ((j 0).val * 1024 + (j 1).val) / 262144 = (j 0).val / 256
      omega
    | ⟨1, _⟩ =>
      show ((j 0).val * 1024 + (j 1).val) / 1024 % 256 = (j 0).val % 256
      omega
    | ⟨2, _⟩ =>
      show ((j 0).val * 1024 + (j 1).val) % 1024 = (j 1).val
      omega
  rw [val_main_v14_apply, val_main_v13_apply, val_main_v12_apply, hj, scatterEntry x w ii oi hin hout]
  show _ + _ = _
  unfold specArr blockSparse
  congr 1
  unfold Bof
  congr 1
  funext a
  apply Fin.ext
  match a with
  | ⟨0, _⟩ =>
    show (j 0).val = (j 0).val / 256 * 256 + (j 0).val % 256
    omega
  | ⟨1, _⟩ => rfl

end Cert.ReferenceIdeal.RefValue

end
-- ==== Proof.Bits.Pipe.lean ====
/-
  The launch side of the block-sparse kernel's one pallas_call, at any float instance.

  @main runs three stretches of host operations (the padding of the weight and index tables, the
  stable sort of the padded output-block indices, and the gathers and neighbour comparisons that
  make the five prefetched tables) and then the region.  Here: what every buffer holds when the
  region starts (`V`), that @main is "that prefix, then the region" in the form the launch theorem
  asks (`hmain`), that the prefix writes none of the five arguments, the five tables as the region
  reads them (`tbl`) with the side condition under which every table-indexed block lies inside its
  array (`Ok`), the pipeline at those tables (`cfgM`), each window's block at a grid point (`iblk`),
  and the three table words the body branches on or slices by at a point.
-/
import proofs.«419409_j64768106824287_2_alg».proof.Proof.Gen.Kernel.Launch
import proofs.«419409_j64768106824287_2_alg».proof.Proof.Gen.Kernel.Skeleton
import Idealize.ShloMosaic.Lib.Pipeline.FrameBody
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- Core `c`'s buffers when the region starts: the launch memory after the three host stretches. -/
abbrev V (c : Dev nD) (b : Ref sig .tc) : Buf (Elt F) ((c : Thread nD τ).loc b) :=
  StableHlo.after (List.flatten [hostOps0, hostOps0_1, hostOps0_2]) (fun b => m (c, b)) b

/-- No host operation of the prefix allocates. -/
theorem noFresh : ([hostOps0, hostOps0_1, hostOps0_2] : List (List (HloOp τ sig (Elt F)))).Forall
    fun ops => ops.Forall fun op => op.fresh = ∅ := by
  simp only [List.Forall]
  refine ⟨?_, ?_, ?_⟩ <;> repeat' constructor

/-- @main is the prefix and then the region, at the contents `V`. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩) noFresh main_chain

/-- A buffer none of the prefix's operations writes is found as launched: the goal "no operation of the
    prefix writes `b`" is a conjunction of inequalities of references, each decided. -/
local macro "unwritten" : tactic => `(tactic| (
  refine StableHlo.after_of_forall_not_mem _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, Finset.mem_singleton]
  repeat' apply And.intro
  all_goals exact StableHlo.devRef_ne_of_ne (by decide)))

theorem V_x (c : Dev nD) : V m c main_arg0 = m ((c : Thread nD τ).loc main_arg0) := by unwritten
theorem V_w (c : Dev nD) : V m c main_arg1 = m ((c : Thread nD τ).loc main_arg1) := by unwritten
theorem V_bias (c : Dev nD) : V m c main_arg2 = m ((c : Thread nD τ).loc main_arg2) := by unwritten
theorem V_inIdx (c : Dev nD) : V m c main_arg3 = m ((c : Thread nD τ).loc main_arg3) := by unwritten
theorem V_outIdx (c : Dev nD) : V m c main_arg4 = m ((c : Thread nD τ).loc main_arg4) := by unwritten

/-! ## The prefetched tables -/

/-- The five tables as the region reads them (there is one device). Table 0 is the sorting order, 1 the
    sorted input-block indices, 2 the sorted output-block indices, 3 the "first of its group" flags,
    4 the "last of its group" flags. -/
def tbl : pre0.Contents (Elt F) := fun j => V m (0 : Dev nD) (pre0.ref j)

theorem V_tbl (c : Dev nD) (j : Fin 5) : V m c (pre0.ref j) = tbl m j := by
  obtain rfl : c = 0 := Subsingleton.elim _ _; rfl

/-- Every block a table-indexed window names lies inside its array (weights by the order, bias and
    output by the sorted output-block index). -/
abbrev Ok : Prop := ok0 (F := F) (tbl m)

abbrev adm (hO : Ok m) : (pcfg0 (F := F)).Adm := ⟨tbl m, hO⟩
/-- The pipeline at the tables' contents. -/
abbrev cfgM (hO : Ok m) : Pipeline.Cfg sig Λ₀ := cfg0 (adm m hO)

/-- The table memrefs the body is handed. -/
abbrev tOrder : Memref sig .tc .smem S883 .i32 := Memref.whole main_v6
abbrev tIn : Memref sig .tc .smem S883 .i32 := Memref.whole main_v13
abbrev tOut : Memref sig .tc .smem S883 .i32 := Memref.whole main_v20
abbrev tNew : Memref sig .tc .smem S883 .i32 := Memref.whole main_v27
abbrev tLast : Memref sig .tc .smem S883 .i32 := Memref.whole main_v29
theorem tOrder_whole : tOrder.IsWhole := Memref.isWhole_whole _
theorem tIn_whole : tIn.IsWhole := Memref.isWhole_whole _
theorem tOut_whole : tOut.IsWhole := Memref.isWhole_whole _
theorem tNew_whole : tNew.IsWhole := Memref.isWhole_whole _
theorem tLast_whole : tLast.IsWhole := Memref.isWhole_whole _

/-- A table's contents type on core `c`, and the table held read-only (the pipeline keeps the other half). -/
abbrev TbBuf (c : Dev nD) {S : Shape} {e : EltTy} (M : Memref sig .tc .smem S e) : Type := Buf (Elt F) (M.view.loc (c : Thread nD τ))
abbrev tbHeld (c : Dev nD) {S : Shape} {e : EltTy} (M : Memref sig .tc .smem S e) (f : TbBuf (F := F) c M) : sProp 𝕄 :=
  M.view.loc (c : Thread nD τ) ↦{fullShare.right} f

/-- The region's share of the tables, table by table. -/
theorem tables_eq (c : Dev nD) : (Pipeline.ΦT pre0 (tbl m) c : sProp 𝕄)
    = iprop(tbHeld c tOrder (tbl m 0) ∗ tbHeld c tIn (tbl m 1) ∗ tbHeld c tOut (tbl m 2) ∗ tbHeld c tNew (tbl m 3) ∗ tbHeld c tLast (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- The word a one-word load at offset `off` reads from a table held at contents `xt`. -/
abbrev wordAt (c : Dev nD) (M : Memref sig .tc .smem S883 .i32) (xt : TbBuf (F := F) c M) (off : Fin 1 → Nat)
    (inb : ∀ a, off a + S1.size a ≤ S883.size a) : BitVec 32 :=
  M.view.readAt (Elt F) (Rect.unit (s := S883) off S1.size inb).toLoadRect xt (Shape.Idx.first (numel1_S1.symm ▸ Nat.one_pos))

/-- The body's two branch conditions, over the word read: "the flag is 1". -/
abbrev flagSet (v : BitVec 32) : Prop := (Scalar.cmpi .ne (Scalar.extui (Scalar.cmpi .eq v 1#32)) 0#32) = 1#1

/-! ## The windows' blocks and staging memrefs at a point -/

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or kept
    (its index has not moved), for any proof data over the region-entry arrays that leaves inputs in place. -/
local macro "input_kept" w:term "," hA:ident "," hafter:ident : tactic => `(tactic| (
  intro t d
  refine (Dat.before_in_eq_fetched _ $w rfl (fun _ => rfl) (fun _ _ _ => rfl) (fun t => ?_) t d).trans ?_
  · rw [$hafter:ident]; unfold Dat.blockOf iblk; rw [$hA:ident]; try rfl
  · unfold Dat.fetched Dat.blockOf iblk; rw [$hA:ident]; try rfl))

theorem before_x (hO : Ok m) {c : Dev nD} (dat : Dat τ (Elt F) Unit ℕ (UR sig nD τ) ℕ (cfgM m hO) c)
    (hA : dat.A 0 = V m c (Pipeline.arrRef spec0 0)) (hafter : ∀ t, dat.after 0 t = iblk m hO c 0 t) :
    ∀ (t : Fin (cfgM m hO).N) (d), dat.before 0 t d = iblk m hO c 0 t := by input_kept 0, hA, hafter
theorem before_w (hO : Ok m) {c : Dev nD} (dat : Dat τ (Elt F) Unit ℕ (UR sig nD τ) ℕ (cfgM m hO) c)
    (hA : dat.A 1 = V m c (Pipeline.arrRef spec0 1)) (hafter : ∀ t, dat.after 1 t = iblk m hO c 1 t) :
    ∀ (t : Fin (cfgM m hO).N) (d), dat.before 1 t d = iblk m hO c 1 t := by input_kept 1, hA, hafter
theorem before_bias (hO : Ok m) {c : Dev nD} (dat : Dat τ (Elt F) Unit ℕ (UR sig nD τ) ℕ (cfgM m hO) c)
    (hA : dat.A 2 = V m c (Pipeline.arrRef spec0 2)) (hafter : ∀ t, dat.after 2 t = iblk m hO c 2 t) :
    ∀ (t : Fin (cfgM m hO).N) (d), dat.before 2 t d = iblk m hO c 2 t := by input_kept 2, hA, hafter

/-- Each window's current staging memref at point `t`, as the pipeline passes it to the body. -/
abbrev sx (hO : Ok m) (t : Fin (cfgM m hO).N) : Memref sig .tc .vmem S32768x512 .bf16 := spec0_0.stage ((cfgM m hO).slots t 0)
abbrev sw (hO : Ok m) (t : Fin (cfgM m hO).N) : Memref sig .tc .vmem S1x256x256 .f32 := spec0_1.stage ((cfgM m hO).slots t 1)
abbrev sb (hO : Ok m) (t : Fin (cfgM m hO).N) : Memref sig .tc .vmem S256x1 .f32 := spec0_2.stage ((cfgM m hO).slots t 2)
abbrev so (hO : Ok m) (t : Fin (cfgM m hO).N) : Memref sig .tc .vmem S256x512 .f32 := spec0_3.stage ((cfgM m hO).slots t 3)
abbrev sx_whole (hO : Ok m) (t : Fin (cfgM m hO).N) : (sx m hO t).IsWhole := hstage0_0 (((cfgM m hO).slots t 0).cast nbuf0_0)
abbrev sw_whole (hO : Ok m) (t : Fin (cfgM m hO).N) : (sw m hO t).IsWhole := hstage0_1 (((cfgM m hO).slots t 1).cast nbuf0_1)
abbrev sb_whole (hO : Ok m) (t : Fin (cfgM m hO).N) : (sb m hO t).IsWhole := hstage0_2 (((cfgM m hO).slots t 2).cast nbuf0_2)
abbrev so_whole (hO : Ok m) (t : Fin (cfgM m hO).N) : (so m hO t).IsWhole := hstage0_3 (((cfgM m hO).slots t 3).cast nbuf0_3)

/-- The kernel body as the pipeline calls it at point `t`. -/
abbrev bodyAt (hO : Ok m) (t : Fin (cfgM m hO).N) : Prog (TpuEff nD τ sig (Elt F) Λ₀ .tc) PUnit :=
  cc0__bsl_kernel (grid0.coords t) tOrder tOrder_whole tIn tIn_whole tOut tOut_whole tNew tNew_whole tLast tLast_whole
    (sx m hO t) (sx_whole m hO t) (sw m hO t) (sw_whole m hO t) (sb m hO t) (sb_whole m hO t) (so m hO t) (so_whole m hO t)

/-! ## The three words the body reads at a point -/

/-- The "first of its group" flag word the body reads at grid coordinates `i`. -/
abbrev wNew (c : Dev nD) (i : grid0.Coords) : BitVec 32 := wordAt c tNew (tbl m 3) (k0_off1 i) (k0_off1_inb i)
/-- The "last of its group" flag word. -/
abbrev wLast (c : Dev nD) (i : grid0.Coords) : BitVec 32 := wordAt c tLast (tbl m 4) (k0_off1 i) (k0_off1_inb i)
/-- The sorted input-block index word (the row block of `x` the body slices). -/
abbrev wIn (c : Dev nD) (i : grid0.Coords) : BitVec 32 := wordAt c tIn (tbl m 1) (k0_off2 i) (k0_off2_inb i)

/-- The side condition the body assumes of the input-block word, at every point: 256 times it is a row
    offset of a 256-row slice inside the 32768 rows of the staged `x` column. -/
def Hyps (hO : Ok m) : Prop := ∀ (c : Dev nD) (t : Fin (cfgM m hO).N), k0_chk1 (wIn m c (grid0.coords t))

end Cert.Kernel.Pipe

end
-- ==== Proof.Bits.Words.lean ====
/-
  The five prefetched tables word by word, and what the proof needs to know of them.

  A grid point is a batch tile (0 or 1) and a sorted position `n` < 883.  At position `n` the tables hold:
  the padded block the sort put there (`orderAt`), that block's input-block index (`inAt`) and output-block
  index (`outAt`), whether the position starts a group of equal output blocks (`newAt`) and whether it ends
  one (`lastAt`).  `TableFacts` collects what the frame and the value proofs use: the ranges, the two flags
  as statements about neighbouring output-block words, that the order is a permutation through which the
  other two tables read the padded index tables, and that the output-block words are sorted.
  The glue: the words the body loads and the block indices the three table-driven index maps compute are
  these words; and the ranges give the pipeline's side condition and the body's assumed one.
-/
import proofs.«419409_j64768106824287_2_alg».proof.Proof.Bits.Pipe
import Idealize.ShloMosaic.Lib.ValueIdx

set_option maxRecDepth 16384

noncomputable section

namespace Cert.Kernel.Pipe

open Cert.Kernel Cert.Kernel.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-! ## A grid point's two coordinates -/

/-- The batch tile of grid coordinates `i`. -/
def tile (i : grid0.Coords) : Fin 2 := ⟨(i 0).val, (i 0).isLt⟩
/-- The sorted position of grid coordinates `i`. -/
def pos (i : grid0.Coords) : Fin 883 := ⟨(i 1).val, (i 1).isLt⟩

/-! ## The tables' words -/

def orderAt (n : Fin 883) : BitVec 32 := tbl m 0 (ix1 n)
def inAt (n : Fin 883) : BitVec 32 := tbl m 1 (ix1 n)
def outAt (n : Fin 883) : BitVec 32 := tbl m 2 (ix1 n)
def newAt (n : Fin 883) : BitVec 32 := tbl m 3 (ix1 n)
def lastAt (n : Fin 883) : BitVec 32 := tbl m 4 (ix1 n)

/-- The two index arguments as launched, word by word, and padded as @main pads them: input-block
    indices with zeros, output-block indices with 0, 1, …, 63. -/
def inIdxW (k : Fin 819) : BitVec 32 := m (((0 : Dev nD) : Thread nD τ).loc main_arg3) (ix1 k)
def outIdxW (k : Fin 819) : BitVec 32 := m (((0 : Dev nD) : Thread nD τ).loc main_arg4) (ix1 k)
def inPadW (k : Fin 883) : BitVec 32 := if h : k.val < 819 then inIdxW m ⟨k.val, h⟩ else 0#32
def outPadW (k : Fin 883) : BitVec 32 := if h : k.val < 819 then outIdxW m ⟨k.val, h⟩ else BitVec.ofNat 32 (k.val - 819)

/-- What the proofs use of the tables. -/
structure TableFacts : Prop where
  order_lt : ∀ n, (orderAt m n).toNat < 883
  in_lt : ∀ n, (inAt m n).toNat < 128
  out_lt : ∀ n, (outAt m n).toNat < 64
  new_iff : ∀ n : Fin 883, newAt m n = 1#32 ↔
    (n.val = 0 ∨ ∃ h : 0 < n.val, outAt m n ≠ outAt m ⟨n.val - 1, Nat.lt_of_le_of_lt (Nat.sub_le _ _) n.isLt⟩)
  last_iff : ∀ n : Fin 883, lastAt m n = 1#32 ↔
    (n.val + 1 = 883 ∨ ∃ h : n.val + 1 < 883, outAt m ⟨n.val + 1, h⟩ ≠ outAt m n)
  sorted : ∀ n n' : Fin 883, n ≤ n' → (outAt m n).toNat ≤ (outAt m n').toNat
  perm : ∃ σ : Equiv.Perm (Fin 883), ∀ n, (orderAt m n).toNat = (σ n).val ∧ inAt m n = inPadW m (σ n) ∧ outAt m n = outPadW m (σ n)

/-! ## The glue -/

/-- The body's branch condition says the flag word is 1. -/
theorem flagSet_iff (v : BitVec 32) : flagSet v ↔ v = 1#32 := by
  show Scalar.cmpi .ne (Scalar.extui (Scalar.cmpi .eq v 1#32)) 0#32 = 1#1 ↔ v = 1#32
  unfold Scalar.cmpi Scalar.extui IntOp.cmpi
  by_cases h : v = 1#32
  · subst h; simp only [iff_true]; decide
  · have hb : (v == 1#32) = false := by simpa using h
    simp only [hb, h, iff_false]; decide

/-- The one index a one-word window at offset `off` of an 883-word table holds is the table's index `off 0`. -/
theorem emb_unit_first (off : Fin 1 → Nat) (inb : ∀ a, off a + S1.size a ≤ S883.size a)
    (h1 : 0 < (Rect.unit (s := S883) off S1.size inb).shape.numel) (n : Fin 883) (hoff : off 0 = n.val) :
    (Rect.unit (s := S883) off S1.size inb).emb (Shape.Idx.first h1) = ix1 n := by
  funext a
  apply Fin.ext
  match a with
  | ⟨0, _⟩ =>
    show off 0 + 1 * 0 = n.val
    omega

/-- A grid coordinate, as a 32-bit word and back, is itself: it is below 883. -/
theorem toNat_coord1 (i : grid0.Coords) : (BitVec.ofNat 32 (i 1).val).toNat = (i 1).val := by
  have h : (i 1).val < 883 := (i 1).isLt
  rw [BitVec.toNat_ofNat]
  exact Nat.mod_eq_of_lt (by omega)
theorem toNat_coord0 (i : grid0.Coords) : (BitVec.ofNat 32 (i 0).val).toNat = (i 0).val := by
  have h : (i 0).val < 2 := (i 0).isLt
  rw [BitVec.toNat_ofNat]
  exact Nat.mod_eq_of_lt (by omega)

/-! A one-word load through a whole table at offset `off` reads the table's word `off 0`: the whole view's
    embedding is the identity, and the one-word window's one index sits at the offset. -/

theorem word_new (c : Dev nD) (xt : TbBuf (F := F) c tNew) (off : Fin 1 → Nat) (inb : ∀ a, off a + S1.size a ≤ S883.size a)
    (n : Fin 883) (hoff : off 0 = n.val) : wordAt c tNew xt off inb = xt (ix1 n) := by
  show tNew.view.readAt (Elt F) _ xt _ = _
  rw [View.readAt_apply, View.read_apply]
  simp only [cast_eq]
  congr 1
  funext a
  apply Fin.ext
  match a with
  | ⟨0, _⟩ =>
    show off 0 + 1 * 0 = n.val
    omega
theorem word_last (c : Dev nD) (xt : TbBuf (F := F) c tLast) (off : Fin 1 → Nat) (inb : ∀ a, off a + S1.size a ≤ S883.size a)
    (n : Fin 883) (hoff : off 0 = n.val) : wordAt c tLast xt off inb = xt (ix1 n) := by
  show tLast.view.readAt (Elt F) _ xt _ = _
  rw [View.readAt_apply, View.read_apply]
  simp only [cast_eq]
  congr 1
  funext a
  apply Fin.ext
  match a with
  | ⟨0, _⟩ =>
    show off 0 + 1 * 0 = n.val
    omega
theorem word_in (c : Dev nD) (xt : TbBuf (F := F) c tIn) (off : Fin 1 → Nat) (inb : ∀ a, off a + S1.size a ≤ S883.size a)
    (n : Fin 883) (hoff : off 0 = n.val) : wordAt c tIn xt off inb = xt (ix1 n) := by
  show tIn.view.readAt (Elt F) _ xt _ = _
  rw [View.readAt_apply, View.read_apply]
  simp only [cast_eq]
  congr 1
  funext a
  apply Fin.ext
  match a with
  | ⟨0, _⟩ =>
    show off 0 + 1 * 0 = n.val
    omega

/-- The three words the body loads at grid coordinates `i` are the tables' words at `i`'s sorted position. -/
theorem wNew_eq (c : Dev nD) (i : grid0.Coords) : wNew m c i = newAt m (pos i) :=
  word_new c (tbl m 3) _ _ (pos i) (by rw [Gen.k0_off1_eq]; rfl)
theorem wLast_eq (c : Dev nD) (i : grid0.Coords) : wLast m c i = lastAt m (pos i) :=
  word_last c (tbl m 4) _ _ (pos i) (by rw [Gen.k0_off1_eq]; rfl)
theorem wIn_eq (c : Dev nD) (i : grid0.Coords) : wIn m c i = inAt m (pos i) :=
  word_in c (tbl m 1) _ _ (pos i) (by rw [Gen.k0_off2_eq]; rfl)

/-- The three table-driven index maps at any tables' contents. -/
theorem index_w_pf (pf : pre0.Contents (Elt F)) (i : grid0.Coords) :
    cc0_transform_1 Gen.k0_off1_inb Gen.numel1_S1 pf i = ![((pf 0 (ix1 (pos i)) : BitVec 32)).toNat, 0, 0] := by
  unfold cc0_transform_1
  funext a
  fin_cases a
  · exact congrArg (fun j => ((pf 0 j : BitVec 32)).toNat) (emb_unit_first _ _ _ (pos i) (toNat_coord1 i))
  · rfl
  · rfl
theorem index_bias_pf (pf : pre0.Contents (Elt F)) (i : grid0.Coords) :
    cc0_transform_2 Gen.k0_off1_inb Gen.numel1_S1 pf i = ![((pf 2 (ix1 (pos i)) : BitVec 32)).toNat, 0] := by
  unfold cc0_transform_2
  funext a
  fin_cases a
  · exact congrArg (fun j => ((pf 2 j : BitVec 32)).toNat) (emb_unit_first _ _ _ (pos i) (toNat_coord1 i))
  · rfl
theorem index_out_pf (pf : pre0.Contents (Elt F)) (i : grid0.Coords) :
    cc0_transform_3 Gen.k0_off1_inb Gen.numel1_S1 pf i = ![((pf 2 (ix1 (pos i)) : BitVec 32)).toNat, (tile i).val] := by
  unfold cc0_transform_3
  funext a
  fin_cases a
  · exact congrArg (fun j => ((pf 2 j : BitVec 32)).toNat) (emb_unit_first _ _ _ (pos i) (toNat_coord1 i))
  · exact toNat_coord0 i

/-- The block indices of the three table-driven windows: the weights' block is the padded block the sort
    put at the position; the bias' and the output's row block is the position's output block, the output's
    column block the batch tile. -/
theorem index_w (i : grid0.Coords) :
    cc0_transform_1 Gen.k0_off1_inb Gen.numel1_S1 (tbl m) i = ![(orderAt m (pos i)).toNat, 0, 0] :=
  index_w_pf (tbl m) i
theorem index_bias (i : grid0.Coords) :
    cc0_transform_2 Gen.k0_off1_inb Gen.numel1_S1 (tbl m) i = ![(outAt m (pos i)).toNat, 0] :=
  index_bias_pf (tbl m) i
theorem index_out (i : grid0.Coords) :
    cc0_transform_3 Gen.k0_off1_inb Gen.numel1_S1 (tbl m) i = ![(outAt m (pos i)).toNat, (tile i).val] :=
  index_out_pf (tbl m) i

/-- Blocks named by in-range words lie inside their arrays. -/
theorem ok_of_facts (hT : TableFacts m) : Ok m := by
  show ok0 (tbl m)
  unfold ok0
  refine ⟨fun i => ⟨?_, .inl rfl⟩, fun i => ⟨?_, .inl rfl⟩, fun i => ⟨?_, .inl rfl⟩⟩
  · rw [index_w]
    have h := hT.order_lt (pos i)
    generalize (orderAt m (pos i)).toNat = o at h ⊢
    intro a
    fin_cases a
    · show (o + 1) * 1 ≤ 883
      omega
    · show (0 + 1) * 256 ≤ 256
      omega
    · show (0 + 1) * 256 ≤ 256
      omega
  · rw [index_bias]
    have h := hT.out_lt (pos i)
    generalize (outAt m (pos i)).toNat = o at h ⊢
    intro a
    fin_cases a
    · show (o + 1) * 256 ≤ 16384
      omega
    · show (0 + 1) * 1 ≤ 1
      omega
  · rw [index_out]
    have h := hT.out_lt (pos i)
    have ht := (tile i).isLt
    generalize (outAt m (pos i)).toNat = o at h ⊢
    generalize (tile i).val = t at ht ⊢
    intro a
    fin_cases a
    · show (o + 1) * 256 ≤ 16384
      omega
    · show (t + 1) * 512 ≤ 1024
      omega

/-- An input-block word below 128 passes the side condition the body assumes of it. -/
theorem hyps_of_facts (hT : TableFacts m) (hO : Ok m) : Hyps m hO := by
  unfold Hyps
  intro c t
  rw [wIn_eq]
  have h := hT.in_lt (pos (grid0.coords t))
  generalize inAt m (pos (grid0.coords t)) = v at h ⊢
  have hmul : (v * 256#32).toNat = v.toNat * 256 := by
    rw [BitVec.toNat_mul]
    show v.toNat * 256 % 2 ^ 32 = v.toNat * 256
    exact Nat.mod_eq_of_lt (by omega)
  refine ⟨?_, ?_⟩
  · show 256 ∣ (v * 256#32).toNat
    rw [hmul]
    exact Dvd.intro_left _ rfl
  · intro a
    fin_cases a
    · show (v * 256#32).toNat + 256 ≤ 32768
      rw [hmul]
      omega
    · show 0 + 512 ≤ 512
      omega

end Cert.Kernel.Pipe

end
-- ==== Proof.Bits.HostTablesRead.lean ====
/-
  The five prefetched tables as pure terms of the two index arguments.

  @main's host prefix pads the two index tables to 883 entries, sorts the padded output-block indices
  stably carrying the positions, reads both padded tables through the sorted positions, and compares each
  sorted output-block word with its neighbours.  Here each step is a named function of arrays, and each
  table buffer, as the region finds it, is the composition of those functions at the launched arguments.
-/
import proofs.«419409_j64768106824287_2_alg».proof.Proof.Bits.Words
import Idealize.ShloMosaic.Lib.StableHlo.Run

set_option maxRecDepth 16384

noncomputable section

namespace Cert.Kernel.Pipe

open Cert.Kernel Cert.Kernel.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-! ## The tables as pure terms of the two index arguments -/

/-- The input-block indices padded with 64 zeros. -/
def padInT (a : IVec S819 32) : IVec S883 32 :=
  concatenate S883 0 [⟨S819, a⟩, ⟨S64, broadcastInDim S64 ![] bcast_S_S64 (constantI S_ 32 0#32)⟩] concatenates_S819_S64_S883_d0
/-- The output-block indices padded with 0, 1, …, 63. -/
def padOutT (b : IVec S819 32) : IVec S883 32 :=
  concatenate S883 0 [⟨S819, b⟩, ⟨S64, iotaInDim S64 32 0⟩] concatenates_S819_S64_S883_d0
/-- The positions carried by the stable sort of a key table. -/
def orderT (x : IVec S883 32) : IVec S883 32 :=
  (Host.sort2 S883 0 comparator_i32_i32_d0 x (iotaInDim S883 32 0)).2
/-- The negative-index wrap of a table of positions. -/
def wrapT (o : IVec S883 32) : IVec S883 32 :=
  select (cmpi .slt o (broadcastInDim S883 ![] bcast_S_S883 (constantI S_ 32 0#32)))
    (addi o (broadcastInDim S883 ![] bcast_S_S883 (constantI S_ 32 883#32))) o
/-- A table read through a table of positions. -/
def takeT (x o : IVec S883 32) : IVec S883 32 :=
  Host.gather gather_S883_S883x1_S883_n_0_n_n_0_1_1 x (broadcastInDim S883x1 ![0] bcast_S883_S883x1_0 (wrapT o))
/-- The table shifted one position later, a word of all ones first. -/
def prevT (o : IVec S883 32) : IVec S883 32 :=
  concatenate S883 0 [⟨S1, broadcastInDim S1 ![] bcast_S_S1 (constantI S_ 32 4294967295#32)⟩,
    ⟨S882, extractStridedSlice S882 ![0] o slices_S883_S882_0⟩] concatenates_S1_S882_S883_d0
/-- The table shifted one position earlier, a word of all ones last. -/
def nextT (o : IVec S883 32) : IVec S883 32 :=
  concatenate S883 0 [⟨S882, extractStridedSlice S882 ![1] o slices_S883_S882_1⟩,
    ⟨S1, broadcastInDim S1 ![] bcast_S_S1 (constantI S_ 32 4294967295#32)⟩] concatenates_S882_S1_S883_d0
/-- "Differs from the previous position's word", widened. -/
def newT (o : IVec S883 32) : IVec S883 32 := extui 32 (cmpi .ne o (prevT o)) natLt_1_32
/-- "Differs from the next position's word", widened. -/
def lastT (o : IVec S883 32) : IVec S883 32 := extui 32 (cmpi .ne o (nextT o)) natLt_1_32

/-- The two index arguments as launched. -/
abbrev argIn : IVec S819 32 := m (((0 : Dev nD) : Thread nD τ).loc main_arg3)
abbrev argOut : IVec S819 32 := m (((0 : Dev nD) : Thread nD τ).loc main_arg4)

/-! ## Reading the host prefix

Each buffer after the prefix is the prefix's operations composed; a two-piece concatenation is kept, while
the composition is read off, with its pieces as plain arguments. -/

/-- A two-piece concatenation, the pieces as arguments. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold {α : Type} (t : Shape) (a : Fin t.rank) (s₁ s₂ : Shape) (h : Shape.Concatenates [s₁, s₂] t a)
    (x₁ : s₁.Idx → α) (x₂ : s₂.Idx → α) : concatenate t a [⟨s₁, x₁⟩, ⟨s₂, x₂⟩] h = cat2 t a s₁ s₂ h x₁ x₂ := rfl

section Reads
open Idealize.ShloMosaic.StableHlo

set_option maxHeartbeats 400000 in
theorem tbl_order : tbl m 0 = orderT (padOutT (argOut m)) := by
  unfold tbl
  show V m 0 main_v6 = _
  unfold V
  simp only [hostOps0, hostOps0_1, hostOps0_2, List.flatten_cons, List.flatten_nil, List.append_nil, List.cons_append, List.nil_append]
  simp (disch := decide) only [after_cons, after_nil, cat2_fold,
    nullary_result', unary_result', binary_result', ternary_result',
    nullary_result_ne', unary_result_ne', binary_result_ne', ternary_result_ne']
  simp only [cat2]
  rfl

set_option maxHeartbeats 400000 in
theorem tbl_in : tbl m 1 = takeT (padInT (argIn m)) (orderT (padOutT (argOut m))) := by
  unfold tbl
  show V m 0 main_v13 = _
  unfold V
  simp only [hostOps0, hostOps0_1, hostOps0_2, List.flatten_cons, List.flatten_nil, List.append_nil, List.cons_append, List.nil_append]
  simp (disch := decide) only [after_cons, after_nil, cat2_fold,
    nullary_result', unary_result', binary_result', ternary_result',
    nullary_result_ne', unary_result_ne', binary_result_ne', ternary_result_ne']
  simp only [cat2]
  rfl

set_option maxHeartbeats 400000 in
theorem tbl_out : tbl m 2 = takeT (padOutT (argOut m)) (orderT (padOutT (argOut m))) := by
  unfold tbl
  show V m 0 main_v20 = _
  unfold V
  simp only [hostOps0, hostOps0_1, hostOps0_2, List.flatten_cons, List.flatten_nil, List.append_nil, List.cons_append, List.nil_append]
  simp (disch := decide) only [after_cons, after_nil, cat2_fold,
    nullary_result', unary_result', binary_result', ternary_result',
    nullary_result_ne', unary_result_ne', binary_result_ne', ternary_result_ne']
  simp only [cat2]
  rfl

set_option maxHeartbeats 400000 in
theorem tbl_new : tbl m 3 = newT (takeT (padOutT (argOut m)) (orderT (padOutT (argOut m)))) := by
  unfold tbl
  show V m 0 main_v27 = _
  unfold V
  simp only [hostOps0, hostOps0_1, hostOps0_2, List.flatten_cons, List.flatten_nil, List.append_nil, List.cons_append, List.nil_append]
  simp (disch := decide) only [after_cons, after_nil, cat2_fold,
    nullary_result', unary_result', binary_result', ternary_result',
    nullary_result_ne', unary_result_ne', binary_result_ne', ternary_result_ne']
  simp only [cat2]
  rfl

set_option maxHeartbeats 400000 in
theorem tbl_last : tbl m 4 = lastT (takeT (padOutT (argOut m)) (orderT (padOutT (argOut m)))) := by
  unfold tbl
  show V m 0 main_v29 = _
  unfold V
  simp only [hostOps0, hostOps0_1, hostOps0_2, List.flatten_cons, List.flatten_nil, List.append_nil, List.cons_append, List.nil_append]
  simp (disch := decide) only [after_cons, after_nil, cat2_fold,
    nullary_result', unary_result', binary_result', ternary_result',
    nullary_result_ne', unary_result_ne', binary_result_ne', ternary_result_ne']
  simp only [cat2]
  rfl

end Reads

end Cert.Kernel.Pipe
end
-- ==== Proof.Bits.HostFlags.lean ====
/-
  The two neighbour-comparison flags of a table of words below 64, position by position.

  The "differs from the previous word" flag of a table compares it with itself shifted one position later, a
  word of all ones put first; the "differs from the next word" flag with itself shifted one position earlier,
  a word of all ones put last.  A word below 64 is not the word of all ones, so the first position always has
  the first flag and the last position always has the second; every other position has a flag exactly when its
  word differs from that neighbour's.
-/
import proofs.«419409_j64768106824287_2_alg».proof.Proof.Bits.HostTablesRead
import Idealize.ShloMosaic.Lib.ValueIdx
import Idealize.ShloMosaic.Lib.ValueLayout
import Idealize.ShloMosaic.Lib.Pipeline.Value

set_option maxRecDepth 16384

noncomputable section

namespace Cert.Kernel.Pipe

open Cert.Kernel Cert.Kernel.Gen Idealize.ShloMosaic Idealize.ShloMosaic.ValueIdx

/-- The widened one-bit "differs" comparison of two words is the word 1 exactly when they differ. -/
theorem widen_ne_iff (x y : BitVec 32) : (IntOp.cmpi .ne x y).setWidth 32 = 1#32 ↔ x ≠ y := by
  show (BitVec.ofBool (x != y)).setWidth 32 = 1#32 ↔ x ≠ y
  by_cases h : x = y
  · have e : (x != y) = false := by rw [h]; exact bne_self_eq_false y
    rw [e]
    exact ⟨fun h' => absurd h' (by decide), fun h' => absurd h h'⟩
  · have e : (x != y) = true := bne_iff_ne.mpr h
    rw [e]
    exact ⟨fun _ => h, fun _ => by decide⟩

/-- A word below 64 is not the word of all ones. -/
theorem ne_ones_of_lt (x : BitVec 32) (hx : x.toNat < 64) : x ≠ 4294967295#32 := by
  intro h; rw [h] at hx; exact absurd hx (by decide)

/-! ## The shifted tables at a position -/

/-- The table shifted later holds the word of all ones at the first position … -/
theorem prevT_zero (o : IVec S883 32) (n : Fin 883) (h0 : n.val = 0) : prevT o (ix1 n) = 4294967295#32 := by
  unfold prevT
  refine (concatenate_pair_apply_left (t := S883) (s₁ := S1) (s₂ := S882) 0 _ _ concatenates_S1_S882_S883_d0 (ix1 n) rfl
    (ix1 (0 : Fin 1)) (fun b => by
      match b with
      | ⟨0, _⟩ => show (0 : ℕ) = n.val; exact h0.symm)).trans ?_
  rfl

/-- … and the previous position's word at every other. -/
theorem prevT_pos (o : IVec S883 32) (n : Fin 883) (h : 0 < n.val) :
    prevT o (ix1 n) = o (ix1 ⟨n.val - 1, Nat.lt_of_le_of_lt (Nat.sub_le _ _) n.isLt⟩) := by
  unfold prevT
  refine (concatenate_pair_apply_right (t := S883) (s₁ := S1) (s₂ := S882) 0 _ _ concatenates_S1_S882_S883_d0 (ix1 n) rfl rfl
    (ix1 (⟨n.val - 1, by have := n.isLt; omega⟩ : Fin 882)) (fun b => by
      match b with
      | ⟨0, _⟩ => intro hb; exact absurd rfl hb) (by
      show (n.val - 1) + 1 = n.val; omega)).trans ?_
  refine extractStridedSlice_apply ![0] o slices_S883_S882_0 (ix1 (⟨n.val - 1, by have := n.isLt; omega⟩ : Fin 882))
    (ix1 (⟨n.val - 1, Nat.lt_of_le_of_lt (Nat.sub_le _ _) n.isLt⟩ : Fin 883)) (fun a => by
    match a with
    | ⟨0, _⟩ => show n.val - 1 = 0 + (n.val - 1); omega)

/-- The table shifted earlier holds the word of all ones at the last position … -/
theorem nextT_last (o : IVec S883 32) (n : Fin 883) (h : n.val + 1 = 883) : nextT o (ix1 n) = 4294967295#32 := by
  unfold nextT
  refine (concatenate_pair_apply_right (t := S883) (s₁ := S882) (s₂ := S1) 0 _ _ concatenates_S882_S1_S883_d0 (ix1 n) rfl rfl
    (ix1 (0 : Fin 1)) (fun b => by
      match b with
      | ⟨0, _⟩ => intro hb; exact absurd rfl hb) (by
      show (0 : ℕ) + 882 = n.val; omega)).trans ?_
  rfl

/-- … and the next position's word at every other. -/
theorem nextT_lt (o : IVec S883 32) (n : Fin 883) (h : n.val + 1 < 883) : nextT o (ix1 n) = o (ix1 ⟨n.val + 1, h⟩) := by
  unfold nextT
  refine (concatenate_pair_apply_left (t := S883) (s₁ := S882) (s₂ := S1) 0 _ _ concatenates_S882_S1_S883_d0 (ix1 n) rfl
    (ix1 (⟨n.val, by omega⟩ : Fin 882)) (fun b => by
      match b with
      | ⟨0, _⟩ => rfl)).trans ?_
  refine extractStridedSlice_apply ![1] o slices_S883_S882_1 (ix1 (⟨n.val, by omega⟩ : Fin 882))
    (ix1 (⟨n.val + 1, h⟩ : Fin 883)) (fun a => by
    match a with
    | ⟨0, _⟩ => show n.val + 1 = 1 + n.val; omega)

/-! ## The two flags -/

theorem newT_iff (o : IVec S883 32) (ho : ∀ n : Fin 883, (o (ix1 n)).toNat < 64) (n : Fin 883) : newT o (ix1 n) = 1#32 ↔ (n.val = 0 ∨ ∃ h : 0 < n.val, o (ix1 n) ≠ o (ix1 ⟨n.val - 1, Nat.lt_of_le_of_lt (Nat.sub_le _ _) n.isLt⟩)) := by
  have e : newT o (ix1 n) = (IntOp.cmpi .ne (o (ix1 n)) (prevT o (ix1 n))).setWidth 32 := rfl
  rw [e, widen_ne_iff]
  by_cases h0 : n.val = 0
  · rw [prevT_zero o n h0]
    exact ⟨fun _ => Or.inl h0, fun _ => ne_ones_of_lt _ (ho n)⟩
  · have hpos : 0 < n.val := Nat.pos_of_ne_zero h0
    rw [prevT_pos o n hpos]
    exact ⟨fun h => Or.inr ⟨hpos, h⟩, fun h => h.elim (fun h' => absurd h' h0) (fun ⟨_, h'⟩ => h')⟩

theorem lastT_iff (o : IVec S883 32) (ho : ∀ n : Fin 883, (o (ix1 n)).toNat < 64) (n : Fin 883) : lastT o (ix1 n) = 1#32 ↔ (n.val + 1 = 883 ∨ ∃ h : n.val + 1 < 883, o (ix1 ⟨n.val + 1, h⟩) ≠ o (ix1 n)) := by
  have e : lastT o (ix1 n) = (IntOp.cmpi .ne (o (ix1 n)) (nextT o (ix1 n))).setWidth 32 := rfl
  rw [e, widen_ne_iff]
  by_cases hl : n.val + 1 = 883
  · rw [nextT_last o n hl]
    exact ⟨fun _ => Or.inl hl, fun _ => ne_ones_of_lt _ (ho n)⟩
  · have hlt : n.val + 1 < 883 := by have := n.isLt; omega
    rw [nextT_lt o n hlt]
    exact ⟨fun h => Or.inr ⟨hlt, fun h' => h h'.symm⟩, fun h => h.elim (fun h' => absurd h' hl) (fun ⟨_, h'⟩ => fun h'' => h' h''.symm)⟩

end Cert.Kernel.Pipe

end
-- ==== Proof.Bits.HostTables.lean ====
/-
  What the five prefetched tables hold, at any float instance.

  The order table is the stable sorting permutation of the 883 padded output-block indices, as words; the
  input-block and output-block tables are the two padded index tables read through it; the sorted
  output-block words are nondecreasing; and the two flag tables say where a word differs from its neighbour.
  Every fact about the sort is proved for an arbitrary key table, from two properties of a stable insertion
  sort: it permutes the positions, and it leaves no inversion.
-/
import proofs.«419409_j64768106824287_2_alg».proof.Proof.Bits.HostFlags
import Idealize.ShloMosaic.Lib.StableHlo.Predicate
import Idealize.ShloMosaic.Lib.SortFacts
import Idealize.ShloMosaic.Lib.Pipeline.Value

set_option maxRecDepth 16384

noncomputable section

namespace Cert.Kernel.Pipe

open Cert.Kernel Cert.Kernel.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-! ## Words -/

open Idealize.ShloMosaic.StableHlo.Predicate in
/-- A non-negative word is not below zero. -/
theorem slt_zero_of_small (w : BitVec 32) (h : w.toNat < 2 ^ 31) : IntOp.cmpi .slt w 0#32 = 0#1 := by
  refine eq_zero_of_ne_one fun h1 => ?_
  have := (slt_iff_toNat h (show (0#32 : BitVec 32).toNat < 2 ^ 31 by decide)).mp h1
  simp at this

/-- A small natural as a word reads back. -/
theorem toNat_ofNat_small (k : Nat) (h : k < 2 ^ 32) : (BitVec.ofNat 32 k).toNat = k := by
  rw [BitVec.toNat_ofNat]; exact Nat.mod_eq_of_lt h

/-! ## Rank-1 indices, spelled two ways -/

theorem ofFin_eq_ix1 {n : Nat} (k : Fin n) : (Shape.Idx.ofFin k : (⟨1, ![n]⟩ : Shape).Idx) = ix1 k := by
  funext d; match d with | ⟨0, _⟩ => rfl

/-! ## The stable sort of a rank-1 key table carrying the positions

On a rank-1 shape the sort reads both operands through one self-map of the positions: the stable sorting
permutation of the comparator on the pairs. The comparator here looks at the keys only, by signed "less". -/

theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- "Position k's key is strictly below position k''s", signed. -/
def keyBefore {n : Nat} (x : Fin n → BitVec 32) (k k' : Fin n) : Bool := IntOp.cmpi .slt (x k) (x k') == 1#1

/-- The stable sorting permutation of a key table: entry `i` is the position whose key lands at `i`. -/
def sortPerm {n : Nat} (x : Fin n → BitVec 32) : Fin n → Fin n := sortedFrom (keyBefore x)

theorem sortPerm_def {n : Nat} (x : Fin n → BitVec 32) : sortPerm x = sortedFrom (keyBefore x) := rfl

theorem sortPerm_bijective {n : Nat} (x : Fin n → BitVec 32) : Function.Bijective (sortPerm x) :=
  ⟨sortedFrom_injective _, sortedFrom_surjective _⟩

open Idealize.ShloMosaic.StableHlo.Predicate in
/-- Keys that are non-negative as signed words come out in nondecreasing order of their values. -/
theorem sortPerm_sorted {n : Nat} (x : Fin n → BitVec 32) (hx : ∀ k, (x k).toNat < 2 ^ 31) (i j : Fin n) (hij : i ≤ j) :
    (x (sortPerm x i)).toNat ≤ (x (sortPerm x j)).toNat := by
  rcases eq_or_lt_of_le hij with rfl | hlt
  · exact le_refl _
  · have h := sortedFrom_noInversion (keyBefore x) (keyBefore x)
      (fun a b hab => by
        simp only [keyBefore, beq_iff_eq, beq_eq_false_iff_ne, ne_eq, slt_iff_toNat (hx a) (hx b), slt_iff_toNat (hx b) (hx a)] at hab ⊢
        omega)
      (fun _ _ hab => hab)
      (fun a b c hab hbc => by
        simp only [keyBefore, beq_eq_false_iff_ne, ne_eq, slt_iff_toNat (hx a) (hx b), slt_iff_toNat (hx b) (hx c), slt_iff_toNat (hx a) (hx c)] at hab hbc ⊢
        omega)
      i j hlt
    simp only [keyBefore, beq_eq_false_iff_ne, ne_eq, slt_iff_toNat (hx _) (hx _)] at h
    unfold sortPerm
    omega

/-- The sorting permutation as an equivalence. -/
def sortEquiv {n : Nat} (x : Fin n → BitVec 32) : Equiv.Perm (Fin n) := Equiv.ofBijective (sortPerm x) (sortPerm_bijective x)

attribute [irreducible] sortPerm

/-! ## The padded index tables at a position -/

theorem padInT_apply (a : IVec S819 32) (k : Fin 883) :
    padInT a (ix1 k) = if h : k.val < 819 then a (ix1 ⟨k.val, h⟩) else 0#32 := by
  unfold padInT
  split
  · next h =>
    refine Idealize.ShloMosaic.concatenate_pair_apply_left (t := S883) (s₁ := S819) (s₂ := S64) (0 : Fin 1) a
      (broadcastInDim S64 ![] bcast_S_S64 (constantI S_ 32 0#32)) concatenates_S819_S64_S883_d0 (ix1 k) rfl (ix1 ⟨k.val, h⟩) fun b => ?_
    match b with
    | ⟨0, _⟩ => rfl
  · next h =>
    refine (Idealize.ShloMosaic.concatenate_pair_apply_right (t := S883) (s₁ := S819) (s₂ := S64) (0 : Fin 1) a
      (broadcastInDim S64 ![] bcast_S_S64 (constantI S_ 32 0#32)) concatenates_S819_S64_S883_d0 (ix1 k) rfl rfl
      (ix1 ⟨k.val - 819, by have := k.isLt; omega⟩) (fun b hb => ?_) ?_).trans rfl
    · match b with
      | ⟨0, _⟩ => exact absurd rfl hb
    · show (k.val - 819) + 819 = k.val
      omega

theorem padOutT_apply (b : IVec S819 32) (k : Fin 883) :
    padOutT b (ix1 k) = if h : k.val < 819 then b (ix1 ⟨k.val, h⟩) else BitVec.ofNat 32 (k.val - 819) := by
  unfold padOutT
  split
  · next h =>
    refine Idealize.ShloMosaic.concatenate_pair_apply_left (t := S883) (s₁ := S819) (s₂ := S64) (0 : Fin 1) b
      (iotaInDim S64 32 0) concatenates_S819_S64_S883_d0 (ix1 k) rfl (ix1 ⟨k.val, h⟩) fun c => ?_
    match c with
    | ⟨0, _⟩ => rfl
  · next h =>
    refine (Idealize.ShloMosaic.concatenate_pair_apply_right (t := S883) (s₁ := S819) (s₂ := S64) (0 : Fin 1) b
      (iotaInDim S64 32 0) concatenates_S819_S64_S883_d0 (ix1 k) rfl rfl
      (ix1 ⟨k.val - 819, by have := k.isLt; omega⟩) (fun c hc => ?_) ?_).trans rfl
    · match c with
      | ⟨0, _⟩ => exact absurd rfl hc
    · show (k.val - 819) + 819 = k.val
      omega

/-! ## The sorted positions, and a table read through them -/

/-- The keys of a rank-1 table, by position. -/
abbrev keysOf (x : IVec S883 32) : Fin 883 → BitVec 32 := fun k => x (ix1 k)

/-- The sort's second result at position `n` is the position the stable sort of the keys puts there. -/
theorem orderT_apply (x : IVec S883 32) (n : Fin 883) :
    orderT x (ix1 n) = BitVec.ofNat 32 (sortPerm (keysOf x) n).val := by
  unfold orderT
  rw [← ofFin_eq_ix1, sort2_snd_rank1]
  have hR : (fun k k' : Fin 883 => comparator_i32_i32_d0 (x (Shape.Idx.ofFin k), iotaInDim S883 32 0 (Shape.Idx.ofFin k))
      (x (Shape.Idx.ofFin k'), iotaInDim S883 32 0 (Shape.Idx.ofFin k')) == 1#1) = keyBefore (keysOf x) := by
    funext k k'
    rw [ofFin_eq_ix1, ofFin_eq_ix1]
    rfl
  rw [hR, Shape.Idx.ofFin_zero, ← sortPerm_def]
  generalize sortPerm (keysOf x) n = P
  rfl

/-- The negative-index wrap leaves a non-negative word alone. -/
theorem wrapT_apply (o : IVec S883 32) (j : S883.Idx) (h : (o j).toNat < 2 ^ 31) : wrapT o j = o j := by
  show Scalar.select (IntOp.cmpi .slt (o j) 0#32) (IntOp.addi (o j) 883#32) (o j) = o j
  rw [slt_zero_of_small _ h]
  exact select_zero _ _

/-- A table read through a table of positions: where the position word is `p`, the table at `p`. -/
theorem takeT_apply (x o : IVec S883 32) (n p : Fin 883) (ho : o (ix1 n) = BitVec.ofNat 32 p.val) :
    takeT x o (ix1 n) = x (ix1 p) := by
  have hp := p.isLt
  have hsmall : (o (ix1 n)).toNat < 2 ^ 31 := by rw [ho, toNat_ofNat_small _ (by omega)]; omega
  have hw : broadcastInDim S883x1 ![0] bcast_S883_S883x1_0 (wrapT o) (Idealize.ShloMosaic.StableHlo.Predicate.ixP n)
      = BitVec.ofNat 32 p.val := by
    rw [Idealize.ShloMosaic.StableHlo.Predicate.bcast_col1, ofFin_eq_ix1, wrapT_apply o _ hsmall, ho]
  unfold takeT
  rw [← ofFin_eq_ix1 n]
  refine (Idealize.ShloMosaic.StableHlo.Predicate.gather_take gather_S883_S883x1_S883_n_0_n_n_0_1_1 rfl rfl rfl rfl x _ n (by decide)).trans ?_
  rw [← ofFin_eq_ix1 p]
  refine congrArg x (congrArg Shape.Idx.ofFin (Fin.ext ?_))
  show min (broadcastInDim S883x1 ![0] bcast_S883_S883x1_0 (wrapT o) (Idealize.ShloMosaic.StableHlo.Predicate.ixP n)).toInt.toNat (883 - 1) = p.val
  rw [hw, Idealize.ShloMosaic.StableHlo.Predicate.toInt_ofNat_small _ (by omega), Int.toNat_natCast]
  omega

/-! ## The padded tables' ranges, and the sorting permutation of the padded output-block indices -/

theorem padIn_lt (a : IVec S819 32) (ha : ∀ k : Fin 819, (a (ix1 k)).toNat < 128) (k : Fin 883) :
    (padInT a (ix1 k)).toNat < 128 := by
  rw [padInT_apply]
  split
  · exact ha _
  · decide

theorem padOut_lt (b : IVec S819 32) (hb : ∀ k : Fin 819, (b (ix1 k)).toNat < 64) (k : Fin 883) :
    (padOutT b (ix1 k)).toNat < 64 := by
  rw [padOutT_apply]
  split
  · exact hb _
  · have := k.isLt
    rw [toNat_ofNat_small _ (by omega)]
    omega

/-- The stable sorting permutation of the padded output-block indices. -/
def sigmaOf (b : IVec S819 32) : Equiv.Perm (Fin 883) := sortEquiv (keysOf (padOutT b))

theorem orderT_pad (b : IVec S819 32) (n : Fin 883) : orderT (padOutT b) (ix1 n) = BitVec.ofNat 32 (sigmaOf b n).val :=
  orderT_apply _ n

theorem takeT_pad (x : IVec S883 32) (b : IVec S819 32) (n : Fin 883) :
    takeT x (orderT (padOutT b)) (ix1 n) = x (ix1 (sigmaOf b n)) :=
  takeT_apply _ _ n _ (orderT_pad b n)

theorem sorted_pad (b : IVec S819 32) (hb : ∀ k : Fin 819, (b (ix1 k)).toNat < 64) (n n' : Fin 883) (h : n ≤ n') :
    (padOutT b (ix1 (sigmaOf b n))).toNat ≤ (padOutT b (ix1 (sigmaOf b n'))).toNat :=
  sortPerm_sorted (keysOf (padOutT b)) (fun k => by have := padOut_lt b hb k; show (padOutT b (ix1 k)).toNat < 2 ^ 31; omega) n n' h

attribute [irreducible] sigmaOf

/-! ## The tables -/

theorem tableFacts (hin : ∀ k : Fin 819, (inIdxW m k).toNat < 128) (hout : ∀ k : Fin 819, (outIdxW m k).toNat < 64) :
    TableFacts m := by
  have hO : ∀ n, orderAt m n = BitVec.ofNat 32 (sigmaOf (argOut m) n).val := fun n => by
    unfold orderAt; rw [tbl_order]; exact orderT_pad _ n
  have hI : ∀ n, inAt m n = padInT (argIn m) (ix1 (sigmaOf (argOut m) n)) := fun n => by
    unfold inAt; rw [tbl_in]; exact takeT_pad _ _ n
  have hU : ∀ n, outAt m n = padOutT (argOut m) (ix1 (sigmaOf (argOut m) n)) := fun n => by
    unfold outAt; rw [tbl_out]; exact takeT_pad _ _ n
  have hUlt : ∀ n : Fin 883, (takeT (padOutT (argOut m)) (orderT (padOutT (argOut m))) (ix1 n)).toNat < 64 := fun n => by
    rw [takeT_pad]; exact padOut_lt _ hout _
  refine ⟨fun n => ?_, fun n => ?_, fun n => ?_, fun n => ?_, fun n => ?_, fun n n' h => ?_, ⟨sigmaOf (argOut m), fun n => ⟨?_, ?_, ?_⟩⟩⟩
  · rw [hO]
    generalize sigmaOf (argOut m) n = k
    rw [toNat_ofNat_small _ (by have := k.isLt; omega)]
    exact k.isLt
  · rw [hI]; exact padIn_lt _ hin _
  · rw [hU]; exact padOut_lt _ hout _
  · unfold newAt outAt
    rw [tbl_new, tbl_out]
    exact newT_iff _ hUlt n
  · unfold lastAt outAt
    rw [tbl_last, tbl_out]
    exact lastT_iff _ hUlt n
  · rw [hU, hU]; exact sorted_pad _ hout n n' h
  · rw [hO]
    generalize sigmaOf (argOut m) n = k
    exact toNat_ofNat_small _ (by have := k.isLt; omega)
  · rw [hI]
    generalize sigmaOf (argOut m) n = k
    rw [padInT_apply]
    rfl
  · rw [hU]
    generalize sigmaOf (argOut m) n = k
    rw [padOutT_apply]
    rfl

end Cert.Kernel.Pipe
end
-- ==== Proof.Bits.RunA.lean ====
/-
  The kernel body run once, in the case where the position starts a group and ends it (both flags set).
  On whole staging memrefs holding the input blocks `x0` (the staged column of x), `x1` (one weight block),
  `x2` (one bias block), the output block at `xo`, and the five tables held read-only, the body runs to its
  continuation with the inputs as they were and the output buffer written by the list of pieces `L` the run
  finds; `L` is the witness, and the case's two flag hypotheses decide the body's two conditionals.
-/
import proofs.«419409_j64768106824287_2_alg».proof.Proof.Bits.Pipe
import Idealize.ShloMosaic.Lib.Ring

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : flagSet (wordAt c tNew xt3 (k0_off1 i) (Gen.k0_off1_inb i)))
    (hc1 : flagSet (wordAt c tLast xt4 (k0_off1 i) (Gen.k0_off1_inb i)))
    (hw : k0_chk1 (wordAt c tIn xt1 (k0_off2 i) (Gen.k0_off2_inb i))) :
    { L : List (View.Piece (Elt F) S256x512 .f32) //
      ∀ (E : Set ℕ) (K : PUnit → sProp 𝕄),
        iprop(owns (c : Thread nD τ) arg7 fullShare x0 ∗ owns (c : Thread nD τ) arg8 fullShare x1 ∗ owns (c : Thread nD τ) arg9 fullShare x2
            ∗ owns (c : Thread nD τ) arg10 fullShare xo
            ∗ tbHeld c tOrder xt0 ∗ tbHeld c tIn xt1 ∗ tbHeld c tOut xt2 ∗ tbHeld c tNew xt3 ∗ tbHeld c tLast xt4
            ∗ (iprop(owns (c : Thread nD τ) arg7 fullShare x0 ∗ owns (c : Thread nD τ) arg8 fullShare x1 ∗ owns (c : Thread nD τ) arg9 fullShare x2
                ∗ (∃ f, arg10.view.loc (c : Thread nD τ) ↦[arg10.view.set]{fullShare} arg10.view.writes (Elt F) f L)
                ∗ tbHeld c tOrder xt0 ∗ tbHeld c tIn xt1 ∗ tbHeld c tOut xt2 ∗ tbHeld c tNew xt3 ∗ tbHeld c tLast xt4) -∗ K ⟨⟩))
          ⊢ wp frame (wpE (defs₀ (F := F)) Variants.none c none) E
              (cc0__bsl_kernel i tOrder tOrder_whole tIn tIn_whole tOut tOut_whole tNew tNew_whole tLast tLast_whole
                arg7 harg7 arg8 harg8 arg9 harg9 arg10 harg10) K } := by
  refine ⟨?_, fun E K => ?run⟩
  case run =>
    simp only [cc0__bsl_kernel_eq_skeleton]; unfold cc0__bsl_kernel_skel
    unfold owns
    iintro ⟨⟨%f0, %hf0, H0⟩, ⟨%f1, %hf1, H1⟩, ⟨%f2, %hf2, H2⟩, ⟨%f3, %hf3, H3⟩, HT0, HT1, HT2, HT3, HT4, Hk⟩
    obtain rfl := harg7.eq_unread hf0; obtain rfl := harg8.eq_unread hf1
    obtain rfl := harg9.eq_unread hf2; obtain rfl := harg10.eq_unread hf3
    sl_exec (disch := first | sl_exact hc0 | sl_exact hc1 | sl_exact hw)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; iexact H3
    isplitl [HT0]; · iexact HT0
    isplitl [HT1]; · iexact HT1
    isplitl [HT2]; · iexact HT2
    isplitl [HT3]; · iexact HT3
    iexact HT4

end Cert.Kernel.Pipe

end
-- ==== Proof.Bits.RunB.lean ====
/-
  The kernel body run once, in the case where the position starts a group and does not end it (first flag set, last flag clear).
  On whole staging memrefs holding the input blocks `x0` (the staged column of x), `x1` (one weight block),
  `x2` (one bias block), the output block at `xo`, and the five tables held read-only, the body runs to its
  continuation with the inputs as they were and the output buffer written by the list of pieces `L` the run
  finds; `L` is the witness, and the case's two flag hypotheses decide the body's two conditionals.
-/
import proofs.«419409_j64768106824287_2_alg».proof.Proof.Bits.Pipe
import Idealize.ShloMosaic.Lib.Ring

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : flagSet (wordAt c tNew xt3 (k0_off1 i) (Gen.k0_off1_inb i)))
    (hc1 : ¬flagSet (wordAt c tLast xt4 (k0_off1 i) (Gen.k0_off1_inb i)))
    (hw : k0_chk1 (wordAt c tIn xt1 (k0_off2 i) (Gen.k0_off2_inb i))) :
    { L : List (View.Piece (Elt F) S256x512 .f32) //
      ∀ (E : Set ℕ) (K : PUnit → sProp 𝕄),
        iprop(owns (c : Thread nD τ) arg7 fullShare x0 ∗ owns (c : Thread nD τ) arg8 fullShare x1 ∗ owns (c : Thread nD τ) arg9 fullShare x2
            ∗ owns (c : Thread nD τ) arg10 fullShare xo
            ∗ tbHeld c tOrder xt0 ∗ tbHeld c tIn xt1 ∗ tbHeld c tOut xt2 ∗ tbHeld c tNew xt3 ∗ tbHeld c tLast xt4
            ∗ (iprop(owns (c : Thread nD τ) arg7 fullShare x0 ∗ owns (c : Thread nD τ) arg8 fullShare x1 ∗ owns (c : Thread nD τ) arg9 fullShare x2
                ∗ (∃ f, arg10.view.loc (c : Thread nD τ) ↦[arg10.view.set]{fullShare} arg10.view.writes (Elt F) f L)
                ∗ tbHeld c tOrder xt0 ∗ tbHeld c tIn xt1 ∗ tbHeld c tOut xt2 ∗ tbHeld c tNew xt3 ∗ tbHeld c tLast xt4) -∗ K ⟨⟩))
          ⊢ wp frame (wpE (defs₀ (F := F)) Variants.none c none) E
              (cc0__bsl_kernel i tOrder tOrder_whole tIn tIn_whole tOut tOut_whole tNew tNew_whole tLast tLast_whole
                arg7 harg7 arg8 harg8 arg9 harg9 arg10 harg10) K } := by
  refine ⟨?_, fun E K => ?run⟩
  case run =>
    simp only [cc0__bsl_kernel_eq_skeleton]; unfold cc0__bsl_kernel_skel
    unfold owns
    iintro ⟨⟨%f0, %hf0, H0⟩, ⟨%f1, %hf1, H1⟩, ⟨%f2, %hf2, H2⟩, ⟨%f3, %hf3, H3⟩, HT0, HT1, HT2, HT3, HT4, Hk⟩
    obtain rfl := harg7.eq_unread hf0; obtain rfl := harg8.eq_unread hf1
    obtain rfl := harg9.eq_unread hf2; obtain rfl := harg10.eq_unread hf3
    sl_exec (disch := first | sl_exact hc0 | sl_exact hc1 | sl_exact hw)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; iexact H3
    isplitl [HT0]; · iexact HT0
    isplitl [HT1]; · iexact HT1
    isplitl [HT2]; · iexact HT2
    isplitl [HT3]; · iexact HT3
    iexact HT4

end Cert.Kernel.Pipe

end
-- ==== Proof.Bits.RunC.lean ====
/-
  The kernel body run once, in the case where the position continues a group and ends it (first flag clear, last flag set).
  On whole staging memrefs holding the input blocks `x0` (the staged column of x), `x1` (one weight block),
  `x2` (one bias block), the output block at `xo`, and the five tables held read-only, the body runs to its
  continuation with the inputs as they were and the output buffer written by the list of pieces `L` the run
  finds; `L` is the witness, and the case's two flag hypotheses decide the body's two conditionals.
-/
import proofs.«419409_j64768106824287_2_alg».proof.Proof.Bits.Pipe
import Idealize.ShloMosaic.Lib.Ring

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : ¬flagSet (wordAt c tNew xt3 (k0_off1 i) (Gen.k0_off1_inb i)))
    (hc1 : flagSet (wordAt c tLast xt4 (k0_off1 i) (Gen.k0_off1_inb i)))
    (hw : k0_chk1 (wordAt c tIn xt1 (k0_off2 i) (Gen.k0_off2_inb i))) :
    { L : List (View.Piece (Elt F) S256x512 .f32) //
      ∀ (E : Set ℕ) (K : PUnit → sProp 𝕄),
        iprop(owns (c : Thread nD τ) arg7 fullShare x0 ∗ owns (c : Thread nD τ) arg8 fullShare x1 ∗ owns (c : Thread nD τ) arg9 fullShare x2
            ∗ owns (c : Thread nD τ) arg10 fullShare xo
            ∗ tbHeld c tOrder xt0 ∗ tbHeld c tIn xt1 ∗ tbHeld c tOut xt2 ∗ tbHeld c tNew xt3 ∗ tbHeld c tLast xt4
            ∗ (iprop(owns (c : Thread nD τ) arg7 fullShare x0 ∗ owns (c : Thread nD τ) arg8 fullShare x1 ∗ owns (c : Thread nD τ) arg9 fullShare x2
                ∗ (∃ f, arg10.view.loc (c : Thread nD τ) ↦[arg10.view.set]{fullShare} arg10.view.writes (Elt F) f L)
                ∗ tbHeld c tOrder xt0 ∗ tbHeld c tIn xt1 ∗ tbHeld c tOut xt2 ∗ tbHeld c tNew xt3 ∗ tbHeld c tLast xt4) -∗ K ⟨⟩))
          ⊢ wp frame (wpE (defs₀ (F := F)) Variants.none c none) E
              (cc0__bsl_kernel i tOrder tOrder_whole tIn tIn_whole tOut tOut_whole tNew tNew_whole tLast tLast_whole
                arg7 harg7 arg8 harg8 arg9 harg9 arg10 harg10) K } := by
  refine ⟨?_, fun E K => ?run⟩
  case run =>
    simp only [cc0__bsl_kernel_eq_skeleton]; unfold cc0__bsl_kernel_skel
    unfold owns
    iintro ⟨⟨%f0, %hf0, H0⟩, ⟨%f1, %hf1, H1⟩, ⟨%f2, %hf2, H2⟩, ⟨%f3, %hf3, H3⟩, HT0, HT1, HT2, HT3, HT4, Hk⟩
    obtain rfl := harg7.eq_unread hf0; obtain rfl := harg8.eq_unread hf1
    obtain rfl := harg9.eq_unread hf2; obtain rfl := harg10.eq_unread hf3
    sl_exec (disch := first | sl_exact hc0 | sl_exact hc1 | sl_exact hw)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; iexact H3
    isplitl [HT0]; · iexact HT0
    isplitl [HT1]; · iexact HT1
    isplitl [HT2]; · iexact HT2
    isplitl [HT3]; · iexact HT3
    iexact HT4

end Cert.Kernel.Pipe

end
-- ==== Proof.Bits.RunD.lean ====
/-
  The kernel body run once, in the case where the position continues a group and does not end it (both flags clear).
  On whole staging memrefs holding the input blocks `x0` (the staged column of x), `x1` (one weight block),
  `x2` (one bias block), the output block at `xo`, and the five tables held read-only, the body runs to its
  continuation with the inputs as they were and the output buffer written by the list of pieces `L` the run
  finds; `L` is the witness, and the case's two flag hypotheses decide the body's two conditionals.
-/
import proofs.«419409_j64768106824287_2_alg».proof.Proof.Bits.Pipe
import Idealize.ShloMosaic.Lib.Ring

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runD (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : ¬flagSet (wordAt c tNew xt3 (k0_off1 i) (Gen.k0_off1_inb i)))
    (hc1 : ¬flagSet (wordAt c tLast xt4 (k0_off1 i) (Gen.k0_off1_inb i)))
    (hw : k0_chk1 (wordAt c tIn xt1 (k0_off2 i) (Gen.k0_off2_inb i))) :
    { L : List (View.Piece (Elt F) S256x512 .f32) //
      ∀ (E : Set ℕ) (K : PUnit → sProp 𝕄),
        iprop(owns (c : Thread nD τ) arg7 fullShare x0 ∗ owns (c : Thread nD τ) arg8 fullShare x1 ∗ owns (c : Thread nD τ) arg9 fullShare x2
            ∗ owns (c : Thread nD τ) arg10 fullShare xo
            ∗ tbHeld c tOrder xt0 ∗ tbHeld c tIn xt1 ∗ tbHeld c tOut xt2 ∗ tbHeld c tNew xt3 ∗ tbHeld c tLast xt4
            ∗ (iprop(owns (c : Thread nD τ) arg7 fullShare x0 ∗ owns (c : Thread nD τ) arg8 fullShare x1 ∗ owns (c : Thread nD τ) arg9 fullShare x2
                ∗ (∃ f, arg10.view.loc (c : Thread nD τ) ↦[arg10.view.set]{fullShare} arg10.view.writes (Elt F) f L)
                ∗ tbHeld c tOrder xt0 ∗ tbHeld c tIn xt1 ∗ tbHeld c tOut xt2 ∗ tbHeld c tNew xt3 ∗ tbHeld c tLast xt4) -∗ K ⟨⟩))
          ⊢ wp frame (wpE (defs₀ (F := F)) Variants.none c none) E
              (cc0__bsl_kernel i tOrder tOrder_whole tIn tIn_whole tOut tOut_whole tNew tNew_whole tLast tLast_whole
                arg7 harg7 arg8 harg8 arg9 harg9 arg10 harg10) K } := by
  refine ⟨?_, fun E K => ?run⟩
  case run =>
    simp only [cc0__bsl_kernel_eq_skeleton]; unfold cc0__bsl_kernel_skel
    unfold owns
    iintro ⟨⟨%f0, %hf0, H0⟩, ⟨%f1, %hf1, H1⟩, ⟨%f2, %hf2, H2⟩, ⟨%f3, %hf3, H3⟩, HT0, HT1, HT2, HT3, HT4, Hk⟩
    obtain rfl := harg7.eq_unread hf0; obtain rfl := harg8.eq_unread hf1
    obtain rfl := harg9.eq_unread hf2; obtain rfl := harg10.eq_unread hf3
    sl_exec (disch := first | sl_exact hc0 | sl_exact hc1 | sl_exact hw)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; iexact H3
    isplitl [HT0]; · iexact HT0
    isplitl [HT1]; · iexact HT1
    isplitl [HT2]; · iexact HT2
    isplitl [HT3]; · iexact HT3
    iexact HT4

end Cert.Kernel.Pipe

end
-- ==== Proof.Bits.Data.lean ====
/-
  The proof data of the kernel's pipeline with the output block named point by point, the body
  obligation, the launch, and the frame — at any float instance, under the tables' facts.

  After the body at a grid point the three input windows' buffers hold their blocks, and the output
  window's buffer holds `outsAt`: what the point's case of the body (new group or not, last of group or
  not) computes from the input blocks and from what the point before left.  At a point that does not
  start a group the output's block index is the previous point's (the flag says the two output-block
  words are equal, and the position is not the first of its sweep), so the pipeline wrote nothing back in
  between and the body finds what the point before left.
-/
import proofs.«419409_j64768106824287_2_alg».proof.Proof.Bits.Words
import proofs.«419409_j64768106824287_2_alg».proof.Proof.Bits.RunA
import proofs.«419409_j64768106824287_2_alg».proof.Proof.Bits.RunB
import proofs.«419409_j64768106824287_2_alg».proof.Proof.Bits.RunC
import proofs.«419409_j64768106824287_2_alg».proof.Proof.Bits.RunD
import Idealize.ShloMosaic.Lib.Pipeline.Frame

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output block -/

/-- The view through which a list of pieces is read back as a block. -/
abbrev VO : View sig .tc .vmem S256x512 .f32 := (Memref.whole cc0_stg3_0 : Memref sig .tc .vmem S256x512 .f32).view
/-- A block nothing constrains. -/
def junkBlock : Vec F S256x512 .f32 := VO.read (Elt F) VO.junk

/-- The pieces case A's run wrote tile the output block, so they cover it. -/
theorem coverA (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : flagSet (wordAt c tNew xt3 (k0_off1 i) (Gen.k0_off1_inb i)))
    (hc1 : flagSet (wordAt c tLast xt4 (k0_off1 i) (Gen.k0_off1_inb i)))
    (hw : k0_chk1 (wordAt c tIn xt1 (k0_off2 i) (Gen.k0_off2_inb i))) (y : S256x512.Idx) :
    ∃ pc ∈ (runA c i arg7 harg7 arg8 harg8 arg9 harg9 arg10 harg10 x0 x1 x2 xo xt0 xt1 xt2 xt3 xt4 hc0 hc1 hw).1, y ∈ pc.1.set :=
  View.cover_of_tiledL (runA c i arg7 harg7 arg8 harg8 arg9 harg9 arg10 harg10 x0 x1 x2 xo xt0 xt1 xt2 xt3 xt4 hc0 hc1 hw).1 S256x512.size (by sl_kernel_rfl) y

/-- What case A leaves in the output block: its pieces read back. -/
def outA (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : flagSet (wordAt c tNew xt3 (k0_off1 i) (Gen.k0_off1_inb i)))
    (hc1 : flagSet (wordAt c tLast xt4 (k0_off1 i) (Gen.k0_off1_inb i)))
    (hw : k0_chk1 (wordAt c tIn xt1 (k0_off2 i) (Gen.k0_off2_inb i))) : Vec F S256x512 .f32 :=
  VO.read (Elt F) (VO.writes (Elt F) VO.junk (runA c i arg7 harg7 arg8 harg8 arg9 harg9 arg10 harg10 x0 x1 x2 xo xt0 xt1 xt2 xt3 xt4 hc0 hc1 hw).1)

/-- The pieces case B's run wrote tile the output block, so they cover it. -/
theorem coverB (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : flagSet (wordAt c tNew xt3 (k0_off1 i) (Gen.k0_off1_inb i)))
    (hc1 : ¬flagSet (wordAt c tLast xt4 (k0_off1 i) (Gen.k0_off1_inb i)))
    (hw : k0_chk1 (wordAt c tIn xt1 (k0_off2 i) (Gen.k0_off2_inb i))) (y : S256x512.Idx) :
    ∃ pc ∈ (runB c i arg7 harg7 arg8 harg8 arg9 harg9 arg10 harg10 x0 x1 x2 xo xt0 xt1 xt2 xt3 xt4 hc0 hc1 hw).1, y ∈ pc.1.set :=
  View.cover_of_tiledL (runB c i arg7 harg7 arg8 harg8 arg9 harg9 arg10 harg10 x0 x1 x2 xo xt0 xt1 xt2 xt3 xt4 hc0 hc1 hw).1 S256x512.size (by sl_kernel_rfl) y

/-- What case B leaves in the output block: its pieces read back. -/
def outB (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : flagSet (wordAt c tNew xt3 (k0_off1 i) (Gen.k0_off1_inb i)))
    (hc1 : ¬flagSet (wordAt c tLast xt4 (k0_off1 i) (Gen.k0_off1_inb i)))
    (hw : k0_chk1 (wordAt c tIn xt1 (k0_off2 i) (Gen.k0_off2_inb i))) : Vec F S256x512 .f32 :=
  VO.read (Elt F) (VO.writes (Elt F) VO.junk (runB c i arg7 harg7 arg8 harg8 arg9 harg9 arg10 harg10 x0 x1 x2 xo xt0 xt1 xt2 xt3 xt4 hc0 hc1 hw).1)

/-- The pieces case C's run wrote tile the output block, so they cover it. -/
theorem coverC (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : ¬flagSet (wordAt c tNew xt3 (k0_off1 i) (Gen.k0_off1_inb i)))
    (hc1 : flagSet (wordAt c tLast xt4 (k0_off1 i) (Gen.k0_off1_inb i)))
    (hw : k0_chk1 (wordAt c tIn xt1 (k0_off2 i) (Gen.k0_off2_inb i))) (y : S256x512.Idx) :
    ∃ pc ∈ (runC c i arg7 harg7 arg8 harg8 arg9 harg9 arg10 harg10 x0 x1 x2 xo xt0 xt1 xt2 xt3 xt4 hc0 hc1 hw).1, y ∈ pc.1.set :=
  View.cover_of_tiledL (runC c i arg7 harg7 arg8 harg8 arg9 harg9 arg10 harg10 x0 x1 x2 xo xt0 xt1 xt2 xt3 xt4 hc0 hc1 hw).1 S256x512.size (by sl_kernel_rfl) y

/-- What case C leaves in the output block: its pieces read back. -/
def outC (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : ¬flagSet (wordAt c tNew xt3 (k0_off1 i) (Gen.k0_off1_inb i)))
    (hc1 : flagSet (wordAt c tLast xt4 (k0_off1 i) (Gen.k0_off1_inb i)))
    (hw : k0_chk1 (wordAt c tIn xt1 (k0_off2 i) (Gen.k0_off2_inb i))) : Vec F S256x512 .f32 :=
  VO.read (Elt F) (VO.writes (Elt F) VO.junk (runC c i arg7 harg7 arg8 harg8 arg9 harg9 arg10 harg10 x0 x1 x2 xo xt0 xt1 xt2 xt3 xt4 hc0 hc1 hw).1)

/-- The pieces case D's run wrote tile the output block, so they cover it. -/
theorem coverD (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : ¬flagSet (wordAt c tNew xt3 (k0_off1 i) (Gen.k0_off1_inb i)))
    (hc1 : ¬flagSet (wordAt c tLast xt4 (k0_off1 i) (Gen.k0_off1_inb i)))
    (hw : k0_chk1 (wordAt c tIn xt1 (k0_off2 i) (Gen.k0_off2_inb i))) (y : S256x512.Idx) :
    ∃ pc ∈ (runD c i arg7 harg7 arg8 harg8 arg9 harg9 arg10 harg10 x0 x1 x2 xo xt0 xt1 xt2 xt3 xt4 hc0 hc1 hw).1, y ∈ pc.1.set :=
  View.cover_of_tiledL (runD c i arg7 harg7 arg8 harg8 arg9 harg9 arg10 harg10 x0 x1 x2 xo xt0 xt1 xt2 xt3 xt4 hc0 hc1 hw).1 S256x512.size (by sl_kernel_rfl) y

/-- What case D leaves in the output block: its pieces read back. -/
def outD (c : Dev nD) (i : grid0.Coords)
    (arg7 : Memref sig .tc .vmem S32768x512 .bf16) (harg7 : arg7.IsWhole) (arg8 : Memref sig .tc .vmem S1x256x256 .f32) (harg8 : arg8.IsWhole)
    (arg9 : Memref sig .tc .vmem S256x1 .f32) (harg9 : arg9.IsWhole) (arg10 : Memref sig .tc .vmem S256x512 .f32) (harg10 : arg10.IsWhole)
    (x0 : Vec F S32768x512 .bf16) (x1 : Vec F S1x256x256 .f32) (x2 : Vec F S256x1 .f32) (xo : Vec F S256x512 .f32)
    (xt0 : TbBuf (F := F) c tOrder) (xt1 : TbBuf (F := F) c tIn) (xt2 : TbBuf (F := F) c tOut) (xt3 : TbBuf (F := F) c tNew) (xt4 : TbBuf (F := F) c tLast)
    (hc0 : ¬flagSet (wordAt c tNew xt3 (k0_off1 i) (Gen.k0_off1_inb i)))
    (hc1 : ¬flagSet (wordAt c tLast xt4 (k0_off1 i) (Gen.k0_off1_inb i)))
    (hw : k0_chk1 (wordAt c tIn xt1 (k0_off2 i) (Gen.k0_off2_inb i))) : Vec F S256x512 .f32 :=
  VO.read (Elt F) (VO.writes (Elt F) VO.junk (runD c i arg7 harg7 arg8 harg8 arg9 harg9 arg10 harg10 x0 x1 x2 xo xt0 xt1 xt2 xt3 xt4 hc0 hc1 hw).1)

/-! ## The grid's two coordinates as quotient and remainder -/

theorem coords_pos : ∀ t : Fin grid0.N, (pos (grid0.coords t)).val = t.val % 883 := by
  intro t; show t.val / grid0.stride 1 % grid0.bound 1 = _
  have : grid0.stride 1 = 1 := by decide
  have hb : grid0.bound 1 = 883 := rfl
  rw [this, hb, Nat.div_one]
theorem coords_tile : ∀ t : Fin grid0.N, (tile (grid0.coords t)).val = t.val / 883 := by
  intro t; show t.val / grid0.stride 0 % grid0.bound 0 = _
  have : grid0.stride 0 = 883 := by decide
  have hb : grid0.bound 0 = 2 := rfl
  have hN : t.val < 1766 := lt_of_lt_of_eq t.isLt N_0
  rw [this, hb]; omega

variable (m : (ℓ : Loc nD τ sig) → Buf (Elt F) ℓ) (ρ : Dev nD → PrngReg) (hT : TableFacts m)

/-- The pipeline's side condition and the body's assumed one, from the tables' facts. -/
abbrev okT : Ok m := ok_of_facts m hT
abbrev hyT : Hyps m (okT m hT) := hyps_of_facts m hT (okT m hT)

local notation "cfgT" => cfgM m (okT m hT)

/-! ## What the output block holds after each point -/

/-- One point's step: the case the two flag words select, run at the point's staging memrefs, input blocks
    and tables.  A position that starts a group overwrites the output block with zeros first, so its step does
    not use what the buffer held (`junkBlock` stands for it); a position that continues a group adds to `xo`,
    what the buffer held before. -/
def stepOut (c : Dev nD) (t : Fin (cfgT).N) (xo : Vec F S256x512 .f32) : Vec F S256x512 .f32 :=
  if h0 : flagSet (wNew m c (grid0.coords t)) then
    if h1 : flagSet (wLast m c (grid0.coords t)) then
      outA c (grid0.coords t) (sx m (okT m hT) t) (sx_whole m (okT m hT) t) (sw m (okT m hT) t) (sw_whole m (okT m hT) t)
        (sb m (okT m hT) t) (sb_whole m (okT m hT) t) (so m (okT m hT) t) (so_whole m (okT m hT) t)
        (iblk m (okT m hT) c 0 t) (iblk m (okT m hT) c 1 t) (iblk m (okT m hT) c 2 t) junkBlock
        (tbl m 0) (tbl m 1) (tbl m 2) (tbl m 3) (tbl m 4) h0 h1 (hyT m hT c t)
    else
      outB c (grid0.coords t) (sx m (okT m hT) t) (sx_whole m (okT m hT) t) (sw m (okT m hT) t) (sw_whole m (okT m hT) t)
        (sb m (okT m hT) t) (sb_whole m (okT m hT) t) (so m (okT m hT) t) (so_whole m (okT m hT) t)
        (iblk m (okT m hT) c 0 t) (iblk m (okT m hT) c 1 t) (iblk m (okT m hT) c 2 t) junkBlock
        (tbl m 0) (tbl m 1) (tbl m 2) (tbl m 3) (tbl m 4) h0 h1 (hyT m hT c t)
  else
    if h1 : flagSet (wLast m c (grid0.coords t)) then
      outC c (grid0.coords t) (sx m (okT m hT) t) (sx_whole m (okT m hT) t) (sw m (okT m hT) t) (sw_whole m (okT m hT) t)
        (sb m (okT m hT) t) (sb_whole m (okT m hT) t) (so m (okT m hT) t) (so_whole m (okT m hT) t)
        (iblk m (okT m hT) c 0 t) (iblk m (okT m hT) c 1 t) (iblk m (okT m hT) c 2 t) xo
        (tbl m 0) (tbl m 1) (tbl m 2) (tbl m 3) (tbl m 4) h0 h1 (hyT m hT c t)
    else
      outD c (grid0.coords t) (sx m (okT m hT) t) (sx_whole m (okT m hT) t) (sw m (okT m hT) t) (sw_whole m (okT m hT) t)
        (sb m (okT m hT) t) (sb_whole m (okT m hT) t) (so m (okT m hT) t) (so_whole m (okT m hT) t)
        (iblk m (okT m hT) c 0 t) (iblk m (okT m hT) c 1 t) (iblk m (okT m hT) c 2 t) xo
        (tbl m 0) (tbl m 1) (tbl m 2) (tbl m 3) (tbl m 4) h0 h1 (hyT m hT c t)

/-- THE ACCUMULATION: what the output window's staging buffer holds after the body at position `n` of the
    grid: the point's step over what position `n - 1` left (at the first position over contents nothing
    constrains: that position starts a group and its step overwrites them). -/
def outsAt (c : Dev nD) : (n : ℕ) → n < (cfgT).N → Vec F S256x512 .f32
  | 0, hn => stepOut m hT c ⟨0, hn⟩ junkBlock
  | n + 1, hn => stepOut m hT c ⟨n + 1, hn⟩ (outsAt c n (Nat.lt_of_succ_lt hn))

theorem outsAt_pos (c : Dev nD) (t : Fin (cfgT).N) (ht : t.val ≠ 0) :
    outsAt m hT c t.val t.isLt = stepOut m hT c t (outsAt m hT c (t.val - 1) (Nat.lt_of_le_of_lt (Nat.sub_le _ _) t.isLt)) := by
  obtain ⟨n, hn⟩ := t
  cases n with
  | zero => exact absurd rfl ht
  | succ n => rfl

/-! ## The proof data -/

/-- The arrays as the region finds them; after the body each input's buffer at its block and the output's at
    `outsAt`; the invariant the scoped rest, the generator register and the region's share of the tables;
    nothing owed; full shares. -/
def dats (_ : Fin 1) (c : Dev nD) : Dat τ (Elt F) Unit ℕ (UR sig nD τ) ℕ (cfgT) c where
  A w := V m c (Pipeline.arrRef spec0 w)
  after w t := match w with
    | ⟨0, _⟩ => iblk m (okT m hT) c 0 t
    | ⟨1, _⟩ => iblk m (okT m hT) c 1 t
    | ⟨2, _⟩ => iblk m (okT m hT) c 2 t
    | ⟨3, _⟩ => outsAt m hT c t.val t.isLt
  Φ _ := iprop(Pipeline.ΦA spec0 c ∗ Pipeline.ΦT pre0 (tbl m) c)
  q _ := fullShare
  owed _ := 0

theorem A_eq (c : Dev nD) (w : Fin (cfgT).W) : (dats m hT 0 c).A w = V m c (Pipeline.arrRef spec0 w) := by
  dsimp only [dats]

theorem after_x (c : Dev nD) (t : Fin (cfgT).N) : (dats m hT 0 c).after 0 t = iblk m (okT m hT) c 0 t := by dsimp only [dats]; try rfl
theorem after_w (c : Dev nD) (t : Fin (cfgT).N) : (dats m hT 0 c).after 1 t = iblk m (okT m hT) c 1 t := by dsimp only [dats]; try rfl
theorem after_bias (c : Dev nD) (t : Fin (cfgT).N) : (dats m hT 0 c).after 2 t = iblk m (okT m hT) c 2 t := by dsimp only [dats]; try rfl
theorem after_out (c : Dev nD) (t : Fin (cfgT).N) : (dats m hT 0 c).after 3 t = outsAt m hT c t.val t.isLt := by dsimp only [dats]; try rfl

theorem found_x (c : Dev nD) (t : Fin (cfgT).N) (d) : (dats m hT 0 c).before 0 t d = iblk m (okT m hT) c 0 t :=
  before_x m (okT m hT) (dats m hT 0 c) (A_eq m hT c 0) (after_x m hT c) t d
theorem found_w (c : Dev nD) (t : Fin (cfgT).N) (d) : (dats m hT 0 c).before 1 t d = iblk m (okT m hT) c 1 t :=
  before_w m (okT m hT) (dats m hT 0 c) (A_eq m hT c 1) (after_w m hT c) t d
theorem found_bias (c : Dev nD) (t : Fin (cfgT).N) (d) : (dats m hT 0 c).before 2 t d = iblk m (okT m hT) c 2 t :=
  before_bias m (okT m hT) (dats m hT 0 c) (A_eq m hT c 2) (after_bias m hT c) t d

/-- A point that does not start a group is not the first of its sweep, and its output-block word is the
    previous position's. -/
theorem not_new (c : Dev nD) (t : Fin (cfgT).N) (h0 : ¬flagSet (wNew m c (grid0.coords t))) :
    t.val % 883 ≠ 0 ∧ ∀ h : 0 < (pos (grid0.coords t)).val,
      outAt m (pos (grid0.coords t)) = outAt m ⟨(pos (grid0.coords t)).val - 1, Nat.lt_of_le_of_lt (Nat.sub_le _ _) (pos (grid0.coords t)).isLt⟩ := by
  rw [wNew_eq, flagSet_iff, hT.new_iff] at h0
  push_neg at h0
  refine ⟨fun h => h0.1 ((coords_pos t).trans h), fun h => h0.2 h⟩

/-- At a point that does not start a group the output window's buffer holds what the point before left: the
    window's block index is the previous point's, so nothing was written back in between. -/
theorem found_out (c : Dev nD) (t : Fin (cfgT).N) (h0 : ¬flagSet (wNew m c (grid0.coords t))) (d) :
    (dats m hT 0 c).before 3 t d = outsAt m hT c (t.val - 1) (Nat.lt_of_le_of_lt (Nat.sub_le _ _) t.isLt) := by
  obtain ⟨hmod, heq⟩ := not_new m hT c t h0
  have ht : t.val ≠ 0 := fun h => hmod (by rw [h])
  have hN : t.val < 1766 := lt_of_lt_of_eq t.isLt N_0
  -- the output window's block index at a point, with the tables a variable
  have hidx : ∀ (a : (pcfg0 (F := F)).Adm) (s : Fin (cfg0 a).N),
      ((cfg0 a).win 3).index s = cc0_transform_3 Gen.k0_off1_inb Gen.numel1_S1 a.1 (grid0.coords s) := fun _ _ => rfl
  have hfl : ((cfgT).win 3).flush ⟨t.val - 1, Nat.lt_of_le_of_lt (Nat.sub_le _ _) t.isLt⟩ = false := by
    refine Bool.eq_false_iff.mpr fun hf => ?_
    simp only [Pipeline.Window.flush, Bool.and_eq_true, Bool.or_eq_true, decide_eq_true_eq] at hf
    rcases hf.2 with hlast | ⟨hlt, hne⟩
    · have hlast' : t.val - 1 + 1 = 1766 := hlast.trans N_0
      omega
    · apply hne
      have e : (⟨t.val - 1 + 1, hlt⟩ : Fin (cfgT).N) = t := Fin.ext (by show t.val - 1 + 1 = t.val; omega)
      rw [e, hidx (adm m (okT m hT)) t, hidx (adm m (okT m hT)) ⟨t.val - 1, _⟩]
      show cc0_transform_3 Gen.k0_off1_inb Gen.numel1_S1 (tbl m) (grid0.coords t)
        = cc0_transform_3 Gen.k0_off1_inb Gen.numel1_S1 (tbl m) (grid0.coords ⟨t.val - 1, _⟩)
      rw [index_out, index_out]
      have hp : (pos (grid0.coords t)).val = t.val % 883 := coords_pos t
      have hp' : (pos (grid0.coords (⟨t.val - 1, Nat.lt_of_le_of_lt (Nat.sub_le _ _) t.isLt⟩ : Fin grid0.N))).val = (t.val - 1) % 883 := coords_pos _
      have ht1 : (tile (grid0.coords t)).val = t.val / 883 := coords_tile t
      have ht1' : (tile (grid0.coords (⟨t.val - 1, Nat.lt_of_le_of_lt (Nat.sub_le _ _) t.isLt⟩ : Fin grid0.N))).val = (t.val - 1) / 883 := coords_tile _
      have hpos : 0 < (pos (grid0.coords t)).val := by omega
      have e2 : pos (grid0.coords (⟨t.val - 1, Nat.lt_of_le_of_lt (Nat.sub_le _ _) t.isLt⟩ : Fin grid0.N))
          = ⟨(pos (grid0.coords t)).val - 1, Nat.lt_of_le_of_lt (Nat.sub_le _ _) (pos (grid0.coords t)).isLt⟩ := Fin.ext (by
        show (pos (grid0.coords (⟨t.val - 1, _⟩ : Fin grid0.N))).val = (pos (grid0.coords t)).val - 1
        omega)
      have e3 : (tile (grid0.coords (⟨t.val - 1, Nat.lt_of_le_of_lt (Nat.sub_le _ _) t.isLt⟩ : Fin grid0.N))).val = (tile (grid0.coords t)).val := by omega
      rw [e2, ← heq hpos, e3]
  rw [Dat.before_out_kept _ 3 rfl t ht hfl (fun _ => rfl) (fun _ _ => rfl)]
  exact after_out m hT c _

/-! ## The body obligation, at a generic point -/

/-- What the body is called with at point `t`, the windows one by one, -/
def bodyPre (c : Dev nD) (t : Fin (cfgT).N) : sProp 𝕄 :=
  iprop((dats m hT 0 c).Φ t.castSucc ∗ (dats m hT 0 c).owesAt () t.castSucc
    ∗ (∃ d, owns (c : Thread nD τ) (sx m (okT m hT) t) fullShare ((dats m hT 0 c).before 0 t d))
    ∗ (∃ d, owns (c : Thread nD τ) (sw m (okT m hT) t) fullShare ((dats m hT 0 c).before 1 t d))
    ∗ (∃ d, owns (c : Thread nD τ) (sb m (okT m hT) t) fullShare ((dats m hT 0 c).before 2 t d))
    ∗ (∃ d, owns (c : Thread nD τ) (so m (okT m hT) t) fullShare ((dats m hT 0 c).before 3 t d)))

/-- and what it returns. -/
def bodyPost (c : Dev nD) (t : Fin (cfgT).N) : sProp 𝕄 :=
  iprop((dats m hT 0 c).Φ t.succ ∗ (dats m hT 0 c).owesAt () t.succ
    ∗ owns (c : Thread nD τ) (sx m (okT m hT) t) fullShare ((dats m hT 0 c).after 0 t)
    ∗ owns (c : Thread nD τ) (sw m (okT m hT) t) fullShare ((dats m hT 0 c).after 1 t)
    ∗ owns (c : Thread nD τ) (sb m (okT m hT) t) fullShare ((dats m hT 0 c).after 2 t)
    ∗ owns (c : Thread nD τ) (so m (okT m hT) t) fullShare ((dats m hT 0 c).after 3 t))

/-- `outsAt` at any point is the point's step over what the point before left (at the first point, over anything). -/
theorem outsAt_eq (c : Dev nD) (t : Fin (cfgT).N) :
    outsAt m hT c t.val t.isLt = stepOut m hT c t
      (if h : t.val = 0 then junkBlock else outsAt m hT c (t.val - 1) (Nat.lt_of_le_of_lt (Nat.sub_le _ _) t.isLt)) := by
  obtain ⟨n, hn⟩ := t
  cases n with
  | zero => rfl
  | succ n => rfl

set_option maxHeartbeats 1600000 in
/-- The body at any point: the inputs' buffers hold their blocks; the two flag words say which case the point
    is in; at a point that continues a group the output buffer holds what the point before left; so the case's
    run applies, and the pieces it wrote, which cover the block, read back as `outsAt`. -/
theorem sound_body (c : Dev nD) (t : Fin (cfgT).N) :
    bodyPre m hT c t ⊢ wp frame (wpE (defs₀ (F := F)) Variants.none c none) Set.univ (bodyAt m (okT m hT) t) (fun _ => bodyPost m hT c t) := by
  unfold bodyPre bodyPost bodyAt
  simp only [found_x, found_w, found_bias]
  rw [show (dats m hT 0 c).Φ t.succ = (dats m hT 0 c).Φ t.castSucc from rfl,
    show (dats m hT 0 c).owesAt () t.succ = (dats m hT 0 c).owesAt () t.castSucc from rfl,
    after_x, after_w, after_bias, after_out, outsAt_eq]
  rw [show (dats m hT 0 c).Φ t.castSucc = iprop(Pipeline.ΦA spec0 c ∗ Pipeline.ΦT pre0 (tbl m) c) from rfl, tables_eq]
  unfold stepOut
  by_cases h0 : flagSet (wNew m c (grid0.coords t))
  · by_cases h1 : flagSet (wLast m c (grid0.coords t))
    · rw [dif_pos h0, dif_pos h1]; unfold outA
      iintro ⟨⟨HΦ, ⟨HT0, HT1, HT2, HT3, HT4⟩⟩, Ho, ⟨%d0, H0⟩, ⟨%d1, H1⟩, ⟨%d2, H2⟩, ⟨%d3, H3⟩⟩
      iapply ((runA c (grid0.coords t) _ _ _ _ _ _ _ _ (iblk m (okT m hT) c 0 t) (iblk m (okT m hT) c 1 t) (iblk m (okT m hT) c 2 t) _
        (tbl m 0) (tbl m 1) (tbl m 2) (tbl m 3) (tbl m 4) h0 h1 (hyT m hT c t)).2 Set.univ _)
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [HT3]; · iexact HT3
      isplitl [HT4]; · iexact HT4
      iintro ⟨H0, H1, H2, ⟨%e3, H3⟩, HT0, HT1, HT2, HT3, HT4⟩
      isplitl [HΦ HT0 HT1 HT2 HT3 HT4]
      · isplitl [HΦ]
        · iexact HΦ
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      unfold owns; iexists _; isplitr
      swap; · iexact H3
      ipureintro
      refine (View.read_writes_of_cover _ _ VO VO.junk _ (coverA c _ _ _ _ _ _ _ _ _ _ _ _ _ _ _ _ _ _ _ _ _)).trans ?_
      rfl
    · rw [dif_pos h0, dif_neg h1]; unfold outB
      iintro ⟨⟨HΦ, ⟨HT0, HT1, HT2, HT3, HT4⟩⟩, Ho, ⟨%d0, H0⟩, ⟨%d1, H1⟩, ⟨%d2, H2⟩, ⟨%d3, H3⟩⟩
      iapply ((runB c (grid0.coords t) _ _ _ _ _ _ _ _ (iblk m (okT m hT) c 0 t) (iblk m (okT m hT) c 1 t) (iblk m (okT m hT) c 2 t) _
        (tbl m 0) (tbl m 1) (tbl m 2) (tbl m 3) (tbl m 4) h0 h1 (hyT m hT c t)).2 Set.univ _)
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [HT3]; · iexact HT3
      isplitl [HT4]; · iexact HT4
      iintro ⟨H0, H1, H2, ⟨%e3, H3⟩, HT0, HT1, HT2, HT3, HT4⟩
      isplitl [HΦ HT0 HT1 HT2 HT3 HT4]
      · isplitl [HΦ]
        · iexact HΦ
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      unfold owns; iexists _; isplitr
      swap; · iexact H3
      ipureintro
      refine (View.read_writes_of_cover _ _ VO VO.junk _ (coverB c _ _ _ _ _ _ _ _ _ _ _ _ _ _ _ _ _ _ _ _ _)).trans ?_
      rfl
  · have ht : t.val ≠ 0 := fun h => (not_new m hT c t h0).1 (by rw [h])
    simp only [found_out m hT c t h0]
    rw [dif_neg ht]
    by_cases h1 : flagSet (wLast m c (grid0.coords t))
    · rw [dif_neg h0, dif_pos h1]; unfold outC
      iintro ⟨⟨HΦ, ⟨HT0, HT1, HT2, HT3, HT4⟩⟩, Ho, ⟨%d0, H0⟩, ⟨%d1, H1⟩, ⟨%d2, H2⟩, ⟨%d3, H3⟩⟩
      iapply ((runC c (grid0.coords t) _ _ _ _ _ _ _ _ (iblk m (okT m hT) c 0 t) (iblk m (okT m hT) c 1 t) (iblk m (okT m hT) c 2 t) _
        (tbl m 0) (tbl m 1) (tbl m 2) (tbl m 3) (tbl m 4) h0 h1 (hyT m hT c t)).2 Set.univ _)
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [HT3]; · iexact HT3
      isplitl [HT4]; · iexact HT4
      iintro ⟨H0, H1, H2, ⟨%e3, H3⟩, HT0, HT1, HT2, HT3, HT4⟩
      isplitl [HΦ HT0 HT1 HT2 HT3 HT4]
      · isplitl [HΦ]
        · iexact HΦ
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      unfold owns; iexists _; isplitr
      swap; · iexact H3
      ipureintro
      exact View.read_writes_of_cover _ _ _ _ _ (coverC c _ _ _ _ _ _ _ _ _ _ _ _ _ _ _ _ _ _ _ _ _)
    · rw [dif_neg h0, dif_neg h1]; unfold outD
      iintro ⟨⟨HΦ, ⟨HT0, HT1, HT2, HT3, HT4⟩⟩, Ho, ⟨%d0, H0⟩, ⟨%d1, H1⟩, ⟨%d2, H2⟩, ⟨%d3, H3⟩⟩
      iapply ((runD c (grid0.coords t) _ _ _ _ _ _ _ _ (iblk m (okT m hT) c 0 t) (iblk m (okT m hT) c 1 t) (iblk m (okT m hT) c 2 t) _
        (tbl m 0) (tbl m 1) (tbl m 2) (tbl m 3) (tbl m 4) h0 h1 (hyT m hT c t)).2 Set.univ _)
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [HT3]; · iexact HT3
      isplitl [HT4]; · iexact HT4
      iintro ⟨H0, H1, H2, ⟨%e3, H3⟩, HT0, HT1, HT2, HT3, HT4⟩
      isplitl [HΦ HT0 HT1 HT2 HT3 HT4]
      · isplitl [HΦ]
        · iexact HΦ
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      unfold owns; iexists _; isplitr
      swap; · iexact H3
      ipureintro
      exact View.read_writes_of_cover _ _ _ _ _ (coverD c _ _ _ _ _ _ _ _ _ _ _ _ _ _ _ _ _ _ _ _ _)

/-- The library's body obligation, at every point. -/
theorem body_obligation (c : Dev nD) : BodyObligation (dats (F := F) m hT 0 c) (defs₀ (F := F)) Variants.none () Set.univ := fun t => by
  rw [bigSep_W0, bigSep_W0]
  exact sound_body m hT c t

/-! ## The run and the frame -/

set_option backward.isDefEq.respectTransparency.types false in
/-- From any memory with zero counters every weakly fair execution of @main terminates, and in every final
    state each array of the pipeline holds what the write-backs of the proof data leave there and every other
    unscoped buffer what it held when the region started. -/
theorem run_main : θ_run defs (onTc (τ := τ) (main (F := F))) (s₀ m ρ)
    (Pipeline.FramePost (Pipeline.pin pcfgs fun _ => adm m (okT m hT)) (dats m hT) 0 (V m)) :=
  Pipeline.θ_run_frameP pcfgs (fun _ => adm m (okT m hT)) (dats m hT) (0 : Fin 1) launch0 defs₀ Variants.none m ρ main
    (hbody := fun c => (body_obligation m hT c).loose) (hshare := fun c => (dats m hT 0 c).share_full fun _ => rfl)
    (howed := fun _ _ => rfl) (V := V m) (hmain := hmain m Variants.none) (hA := A_eq m hT) (hpf := V_tbl m) (hΦ := fun _ _ => rfl)

end Cert.Kernel.Pipe

end
-- ==== Proof.Bits.Frame.lean ====
/-
  What a run of the kernel's program ends in, read off the launch's post, at any float instance and under
  the tables' facts: the result buffer holds what the write-backs of the output window leave there, and the
  five argument buffers hold what they held at the launch — four of them no window stages and the host
  prefix does not write, the bias column is an input window's array, which no write-back touches.
-/
import proofs.«419409_j64768106824287_2_alg».proof.Proof.Bits.Data
import Idealize.ShloMosaic.Lib.Pipeline.Cells

set_option maxRecDepth 16384

noncomputable section

namespace Cert.Kernel.Pipe

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg) (hT : TableFacts m)

/-- Every weakly fair execution terminates with the result buffer at the output window's array after all
    write-backs, and the five arguments unchanged. -/
theorem run_post : θ_run defs (onTc (τ := τ) (main (F := F))) ⟨m, fun _ => 0, ρ⟩ (fun r => ∀ c : Dev nD,
      r.2.mem ((c.tc : Thread nD τ).loc main_v31) = (dats m hT 0 c).arrAt 3 (cfgM m (okT m hT)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 3,
      ((h c).2 main_arg0 (by decide : main_arg0 ∈ Pipeline.restRefs sig spec0)).trans (V_x m c),
      ((h c).2 main_arg1 (by decide : main_arg1 ∈ Pipeline.restRefs sig spec0)).trans (V_w m c),
      ((h c).1 2).trans (((dats m hT 0 c).arrAt_in 2 rfl _).trans ((A_eq m hT c 2).trans (V_bias m c))),
      ((h c).2 main_arg3 (by decide : main_arg3 ∈ Pipeline.restRefs sig spec0)).trans (V_inIdx m c),
      ((h c).2 main_arg4 (by decide : main_arg4 ∈ Pipeline.restRefs sig spec0)).trans (V_outIdx m c)⟩) (run_main m ρ hT)

/-- The frame claim's post: the five arguments unchanged. -/
theorem frame (hT : TableFacts m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_post m ρ hT)

end Cert.Kernel.Pipe

end
-- ==== Proof.lean ====
/-
  The certificate of the block-sparse linear kernel against its reference, over the extended reals.

  Both printed kernel programs (the word-level one and its idealization: the same text at two float instances)
  run under the precondition because the index words are in range: then every table the host prefix computes
  by padding, sorting and gathering them names blocks inside the arrays (`tableFacts`), which is the
  pipeline's side condition and the body's assumed one, and the launch theorem gives the frame (`Pipe.frame`,
  once per namespace).  The reference's frame is its generated run with the result dropped.  The idealization
  rewrote nothing, so `preserves` is `True`.  For `algebraic`: the kernel's result array is the block-sparse
  map of the argument arrays (`result_arr`: the output block after each grid point is a running sum over
  sorted positions, written back at each group's end, the groups being the real blocks' contributions through
  the sort's permutation), and so is the reference's (`result_eq`, over its generated run).
-/
import proofs.«419409_j64768106824287_2_alg».proof.Defs
import proofs.«419409_j64768106824287_2_alg».proof.Proof.Gen.Kernel
import proofs.«419409_j64768106824287_2_alg».proof.Proof.Gen.KernelIdeal
import proofs.«419409_j64768106824287_2_alg».proof.Proof.Gen.ReferenceIdeal
import proofs.«419409_j64768106824287_2_alg».proof.Proof.Gen.Pre_finite_inputs
import proofs.«419409_j64768106824287_2_alg».proof.Proof.Gen.ReferenceIdeal.Run
import proofs.«419409_j64768106824287_2_alg».proof.Proof.Gen.ReferenceIdeal.Read
import proofs.«419409_j64768106824287_2_alg».proof.Proof.PreDecode
import proofs.«419409_j64768106824287_2_alg».proof.Proof.HostTables
import proofs.«419409_j64768106824287_2_alg».proof.Proof.KernelValue
import proofs.«419409_j64768106824287_2_alg».proof.Proof.RefValue
import proofs.«419409_j64768106824287_2_alg».proof.Proof.Bits.HostTables
import proofs.«419409_j64768106824287_2_alg».proof.Proof.Bits.Frame
import Idealize.ShloMosaic.Adequacy
import Idealize.ShloMosaic.Init

set_option maxRecDepth 16384

noncomputable section

namespace Cert.Proof

open Idealize.ShloMosaic Idealize.ShloMosaic.TcCoe Idealize.SL.Sem Cert.BlockSparse

/-- Under the precondition the idealized kernel's tables have the facts the proofs use. -/
theorem facts_ideal (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) : Cert.KernelIdeal.Pipe.TableFacts m :=
  Cert.KernelIdeal.Pipe.tableFacts m
    (fun k => Cert.PreDecode.in_range _ _ _ _ _ (h 0) k) (fun k => Cert.PreDecode.out_range _ _ _ _ _ (h 0) k)

/-- Likewise the word-level kernel's. -/
theorem facts_bits (m : (ℓ : Loc Cert.Kernel.nD Cert.Kernel.τ Cert.Kernel.sig) → Buf (Elt Bits) ℓ)
    (h : Cert.Pre_Kernel (hPre_finite_inputs := Cert.Pre_finite_inputs.Gen.facts) m) : Cert.Kernel.Pipe.TableFacts m :=
  Cert.Kernel.Pipe.tableFacts m
    (fun k => Cert.PreDecode.in_range _ _ _ _ _ (h 0) k) (fun k => Cert.PreDecode.out_range _ _ _ _ _ (h 0) k)

theorem frame_k : Cert.frame_Kernel (hKernel := Cert.Kernel.Gen.facts) (hPre_finite_inputs := Cert.Pre_finite_inputs.Gen.facts) :=
  fun m ρ h => Cert.Kernel.Pipe.frame m ρ (facts_bits m h)

theorem frame_ki : Cert.frame_KernelIdeal (hKernelIdeal := Cert.KernelIdeal.Gen.facts) (hPre_finite_inputs := Cert.Pre_finite_inputs.Gen.facts) :=
  fun m ρ h => Cert.KernelIdeal.Pipe.frame m ρ (facts_ideal m h)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the block-sparse map of the (agreeing) argument arrays in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hT := facts_ideal m hpre
  have hin : ∀ k : Fin 819, (Cert.KernelIdeal.Pipe.inIdxW m k).toNat < 128 := fun k => Cert.PreDecode.in_range _ _ _ _ _ (hpre 0) k
  have hout : ∀ k : Fin 819, (Cert.KernelIdeal.Pipe.outIdxW m k).toNat < 64 := fun k => Cert.PreDecode.out_range _ _ _ _ _ (hpre 0) k
  refine ⟨fun c => specArr (Cert.KernelIdeal.Pipe.argX m c) (Cert.KernelIdeal.Pipe.argW m c) (Cert.KernelIdeal.Pipe.argB m c)
      (Cert.KernelIdeal.Pipe.argIdxIn m c) (Cert.KernelIdeal.Pipe.argIdxOut m c), ?_, ?_⟩
  · exact (θ_run Cert.KernelIdeal.defs _ _).mono
      (fun _ h c => ⟨((h c).1).trans (Cert.KernelIdeal.Pipe.result_arr m hT hin hout c), (h c).2⟩)
      (Cert.KernelIdeal.Pipe.run_post m ρ hT)
  · refine (θ_run Cert.ReferenceIdeal.defs _ _).mono (fun _ h c => ⟨((h c).1).trans ?_, (h c).2⟩)
      (Cert.ReferenceIdeal.Value.run (F := Ideal) m' ρ')
    have hc : c = 0 := Subsingleton.elim _ _
    subst hc
    rw [Cert.ReferenceIdeal.Read.val_main_v14_eq, (hagree 0).1, (hagree 0).2.1, (hagree 0).2.2.1, (hagree 0).2.2.2.1, (hagree 0).2.2.2.2]
    exact Cert.ReferenceIdeal.RefValue.result_eq _ _ _ _ _ hin hout

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
